-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S8192x128_S8192_d1 : S8192x128.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v15 : IVec S_ 1) (main_v16 : FVec F S8192x128 .f32) : IVec S_ 1 :=
  let main_cst_5 : FVec F S_ .f32 := constant S_ .f32 0x00000000#32
  let main_v17 : FVec F S8192 .f32 := (fun x v => Host.reduceAdd x v reducesTo_S8192x128_S8192_d1 h_S_) main_v16 main_cst_5
  let main_v18 : FVec F S8192 .f32 := Host.sqrt main_v17
  let main_cst_6 : FVec F S_ .f32 := constant S_ .f32 0x2B8CBCCC#32
  let main_v19 : FVec F S8192 .f32 := broadcastInDim S8192 ![] bcast_S_S8192 main_cst_6
  let main_v20 : IVec S8192 1 := cmpf .oge main_v18 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := mulf main_arg0 main_arg0
  let main_cst_2 : FVec F S_ .f32 := constant S_ .f32 0x00000000#32
  let main_v10 : FVec F S8192 .f32 := (fun x v => Host.reduceAdd x v reducesTo_S8192x128_S8192_d1 h_S_) main_v9 main_cst_2
  let main_v11 : FVec F S8192 .f32 := Host.sqrt main_v10
  let main_cst_3 : FVec F S_ .f32 := constant S_ .f32 0x2B8CBCCC#32
  let main_v12 : FVec F S8192 .f32 := broadcastInDim S8192 ![] bcast_S_S8192 main_cst_3
  let main_v13 : IVec S8192 1 := cmpf .oge main_v11 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_v16 : FVec F S8192x128 .f32 := mulf main_arg1 main_arg1
  fn_part1 (F := F) main_v15 main_v16
-- ==== Kernel.lean ====
abbrev S8192x128 : Shape := ⟨2, ![8192, 128]⟩
abbrev S1x1 : Shape := ⟨2, ![1, 1]⟩
abbrev S1024x128 : Shape := ⟨2, ![1024, 128]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 32
  | .vmem => 19
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .bf16⟩
  | .hbm, ⟨3, _⟩ => ⟨S8192x128, .bf16⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1, .f32⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1x1, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  shapeCasts_S1024x1024_S1x1024x1024 : S1024x1024.ShapeCasts S1x1024x1024
  reduces_S1x1024x1024_S1 : S1x1024x1024.Reduces [1, 2] S1
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_1) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .i1⟩
  | .hbm, ⟨42, _⟩ => ⟨S8192x8192, .i1⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S_, .i1⟩
  | .hbm, ⟨50, _⟩ => ⟨S8192x8192, .i1⟩
  | .hbm, ⟨51, _⟩ => ⟨S8192x8192, .i1⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .i1⟩
  | .hbm, ⟨77, _⟩ => ⟨S8192x8192, .i1⟩
  | .hbm, ⟨78, _⟩ => ⟨S8192x8192, .i32⟩
  | .hbm, ⟨79, _⟩ => ⟨S_, .i32⟩
  | .hbm, ⟨80, _⟩ => ⟨S8192x8192, .i32⟩
  | .hbm, ⟨81, _⟩ => ⟨S8192x8192, .i32⟩
  | .hbm, ⟨82, _⟩ => ⟨S8192x8192, .i32⟩
  | .hbm, ⟨83, _⟩ => ⟨S8192x8192, .i1⟩
  | .hbm, ⟨84, _⟩ => ⟨S_, .i1⟩
  | .hbm, ⟨85, _⟩ => ⟨S8192x8192, .i1⟩
  | .hbm, ⟨86, _⟩ => ⟨S8192x8192, .i1⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_call1_v0 : Ref sig .tc := ⟨.hbm, 57, rfl⟩
abbrev main_call1_v1 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_c_16 : Ref sig .tc := ⟨.hbm, 76, rfl⟩
abbrev main_v46 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_0 : Ref sig .tc := ⟨.hbm, 84, rfl⟩
abbrev main_call2_v5 : Ref sig .tc := ⟨.hbm, 85, rfl⟩
abbrev main_v47 : Ref sig .tc := ⟨.hbm, 86, rfl⟩
abbrev main_cst_17 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_18 : Ref sig .tc := ⟨.hbm, 91, rfl⟩
abbrev main_call3_v0 : Ref sig .tc := ⟨.hbm, 92, rfl⟩
abbrev main_call3_v1 : Ref sig .tc := ⟨.hbm, 93, rfl⟩
abbrev main_v51 : Ref sig .tc := ⟨.hbm, 94, rfl⟩
abbrev main_cst_19 : Ref sig .tc := ⟨.hbm, 95, rfl⟩
abbrev main_v52 : Ref sig .tc := ⟨.hbm, 96, rfl⟩
abbrev main_cst_20 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_21 : Ref sig .tc := ⟨.hbm, 101, rfl⟩
abbrev main_v56 : Ref sig .tc := ⟨.hbm, 102, rfl⟩
abbrev main_cst_22 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S8192_S_d0 : S8192.ReducesTo [0] S_
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsR0Def.lean ====
/-
  The first kernel region (row normalisation and the alignment sum) as the pipeline sees it, at the
  contents `V` the region is entered with: each window's block at a grid point, the running
  alignment sum after each point, and what every staging buffer holds after the body at a point.
  Point `t` of the grid of 8 handles rows 1024·t … 1024·t + 1023 of both arguments: it writes the
  normalised rows of each into its own block of the two bf16 results and adds the block's sum of
  squared differences to the one-cell accumulator, which the first point resets.
-/
import proofs.«107127_j34162169872914_1_alg».proof.Proof.Gen.Kernel.Launch
import proofs.«107127_j34162169872914_1_alg».proof.Proof.Gen.Kernel.Skeleton
import proofs.«107127_j34162169872914_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator cell after point `n`: the first point starts from the zero it has just stored,
    every later point from what the point before left. -/
def acc0 (c : Dev nD) : (n : ℕ) → n < cfg0.N → Vec F S1x1 .f32
  | 0, hn => k0_pay4 (iblk0 V c 0 ⟨0, hn⟩) (iblk0 V c 1 ⟨0, hn⟩) (k0_pay1 (F := F))
  | n + 1, hn => k0_pay4 (iblk0 V c 0 ⟨n + 1, hn⟩) (iblk0 V c 1 ⟨n + 1, hn⟩) (acc0 c n (Nat.lt_of_succ_lt hn))

theorem acc0_zero (c : Dev nD) (hn : 0 < cfg0.N) :
    acc0 V c 0 hn = k0_pay4 (iblk0 V c 0 ⟨0, hn⟩) (iblk0 V c 1 ⟨0, hn⟩) (k0_pay1 (F := F)) := rfl
theorem acc0_succ (c : Dev nD) (n : ℕ) (hn : n + 1 < cfg0.N) :
    acc0 V c (n + 1) hn = k0_pay4 (iblk0 V c 0 ⟨n + 1, hn⟩) (iblk0 V c 1 ⟨n + 1, hn⟩) (acc0 V c n (Nat.lt_of_succ_lt hn)) := rfl

/-- The region's proof data: the arrays as entered; after the body at point `t` the two inputs'
    buffers still at their blocks, the two bf16 outputs' at the normalised blocks, the accumulator's
    at the running sum; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (iblk0 V c 0 t)
    | ⟨3, _⟩ => k0_pay6 (iblk0 V c 1 t)
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay5 (iblk0 V c 0 t) := by dsimp only [dat0]
theorem after0_3 (c : Dev nD) (t : Fin cfg0.N) : (dat0 V c).after 3 t = k0_pay6 (iblk0 V c 1 t) := by dsimp only [dat0]
theorem after0_4 (c : Dev nD) (t : Fin cfg0.N) : (dat0 V c).after 4 t = acc0 V c t.val t.isLt := by dsimp only [dat0]

end Cert.Kernel.Hand

end
-- ==== Proof.BitsR0Run.lean ====
/-
  The first kernel region's body, run once on arbitrary whole staging buffers, in each of its two
  control cases. At the first grid point the body zeroes the one-cell accumulator and then adds the
  block's sum of squared differences of the normalised rows to it; at a later point it adds the
  block's sum to whatever the cell holds. In both cases it overwrites the two bf16 blocks with the
  normalised rows of the two input blocks. Each case is stated as the list of stores every output
  buffer ends with, and then read back: the bf16 blocks hold the rounding of the normalised rows, the
  cell holds the block's sum added to zero (first point) or to its former value (later points).
-/
import proofs.«107127_j34162169872914_1_alg».proof.Proof.BitsR0Def
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Whether the point is the first along the one grid axis, as the body computes it from the coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

set_option maxHeartbeats 1000000 in
/-- The body at the first point (the reset is taken), on whole staging buffers: the two inputs at
    their blocks, the three outputs at anything. It runs to the continuation with the inputs as they
    were and each output buffer overwritten by the listed stores (last first). -/
noncomputable def kernelRun0_A (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i)
    (x0 : Vec F S1024x128 .f32) (x1 : Vec F S1024x128 .f32) :
    Σ' (L3 : List (View.Piece (Elt F) S1024x128 .bf16)) (L4 : List (View.Piece (Elt F) S1024x128 .bf16)), { L5 : List (View.Piece (Elt F) S1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0_norm_align_kernel i arg1 harg1 arg2 harg2 arg3 harg3 arg4 harg4 arg5 harg5) K } := by
  refine ⟨?_, ?_, ?_, fun E K => ?run⟩
  case run =>
    simp only [cc0_norm_align_kernel_eq_skeleton]; unfold cc0_norm_align_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

set_option maxHeartbeats 1000000 in
/-- The body at a later point (no reset), on whole staging buffers: the two inputs at their blocks,
    the two bf16 outputs at anything, the accumulator cell at its running value. It runs to the
    continuation with the inputs as they were and each output buffer overwritten by the listed stores. -/
noncomputable def kernelRun0_B (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i)
    (x0 : Vec F S1024x128 .f32) (x1 : Vec F S1024x128 .f32) (xo : Vec F S1x1 .f32) :
    Σ' (L3 : List (View.Piece (Elt F) S1024x128 .bf16)) (L4 : List (View.Piece (Elt F) S1024x128 .bf16)), { L5 : List (View.Piece (Elt F) S1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0_norm_align_kernel i arg1 harg1 arg2 harg2 arg3 harg3 arg4 harg4 arg5 harg5) K } := by
  refine ⟨?_, ?_, ?_, fun E K => ?run⟩
  case run =>
    simp only [cc0_norm_align_kernel_eq_skeleton]; unfold cc0_norm_align_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Both offsets of a whole-block access are zero. -/
theorem hz0 : (![0, 0] : Fin 2 → Nat) = fun _ => 0 := funext fun a => by
  match a with
  | ⟨0, _⟩ => rfl
  | ⟨1, _⟩ => rfl

/-! ## The first point: what each output buffer ends with -/

/-- The stores to the first bf16 block cover it. -/
theorem cover0_A_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (y : S1024x128.Idx) : ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1024x128.size (by sl_kernel_rfl) y
/-- The stores to the second bf16 block cover it. -/
theorem cover0_A_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (y : S1024x128.Idx) : ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1024x128.size (by sl_kernel_rfl) y
/-- The stores to the accumulator cell cover it. -/
theorem cover0_A_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (y : S1x1.Idx) : ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1x1.size (by sl_kernel_rfl) y

/-- The first bf16 block ends at the rounded normalised rows of the first input block. -/
theorem left0_A_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (f : arg3.view.ty.Contents (Elt F)) :
    arg3.view.read (Elt F) (arg3.view.writes (Elt F) f (kernelRun0_A c i arg1 harg1 arg2 harg2 arg3 harg3 arg4 harg4 arg5 harg5 hc0 x0 x1).1) = k0_pay5 x0 := by
  rw [View.read_writes_eq_canon _ _ _ (cover0_A_3 c i arg1 harg1 arg2 harg2 arg3 harg3 arg4 harg4 arg5 harg5 hc0 x0 x1)]
  unfold kernelRun0_A
  dsimp only
  sl_unfold_words
  rw [View.canon_unit_zero hz0]
  simp only [View.readAt_eq_ld, harg1.read_unread, harg2.read_unread, View.ld_unit_zero (S := S1024x128) hz0]

/-- The second bf16 block ends at the rounded normalised rows of the second input block. -/
theorem left0_A_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (f : arg4.view.ty.Contents (Elt F)) :
    arg4.view.read (Elt F) (arg4.view.writes (Elt F) f (kernelRun0_A c i arg1 harg1 arg2 harg2 arg3 harg3 arg4 harg4 arg5 harg5 hc0 x0 x1).2.1) = k0_pay6 x1 := by
  rw [View.read_writes_eq_canon _ _ _ (cover0_A_4 c i arg1 harg1 arg2 harg2 arg3 harg3 arg4 harg4 arg5 harg5 hc0 x0 x1)]
  unfold kernelRun0_A
  dsimp only
  sl_unfold_words
  rw [View.canon_unit_zero hz0]
  simp only [View.readAt_eq_ld, harg1.read_unread, harg2.read_unread, View.ld_unit_zero (S := S1024x128) hz0]

/-- The cell ends at the block's sum added to the zero just stored. -/
theorem left0_A_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (f : arg5.view.ty.Contents (Elt F)) :
    arg5.view.read (Elt F) (arg5.view.writes (Elt F) f (kernelRun0_A c i arg1 harg1 arg2 harg2 arg3 harg3 arg4 harg4 arg5 harg5 hc0 x0 x1).2.2.1) = k0_pay4 x0 x1 (k0_pay1 (F := F)) := by
  rw [View.read_writes_eq_canon _ _ _ (cover0_A_5 c i arg1 harg1 arg2 harg2 arg3 harg3 arg4 harg4 arg5 harg5 hc0 x0 x1)]
  unfold kernelRun0_A
  dsimp only
  sl_unfold_words
  rw [View.canon_cons_unit_zero (S := S1x1) hz0, View.readCov_unit_zero (S := S1x1) _ hz0]
  simp only [View.readAt_eq_ld, harg1.read_unread, harg2.read_unread, View.ld_unit_zero (S := S1024x128) hz0]

/-! ## A later point: what each output buffer ends with -/

/-- The stores to the first bf16 block cover it. -/
theorem cover0_B_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (y : S1024x128.Idx) : ∃ pc ∈ (kernelRun0_B c i arg1 harg1 arg2 harg2 arg3 harg3 arg4 harg4 arg5 harg5 hc0 x0 x1 xo).1, y ∈ pc.1.set :=
  View.cover_of_tiledL (kernelRun0_B c i arg1 harg1 arg2 harg2 arg3 harg3 arg4 harg4 arg5 harg5 hc0 x0 x1 xo).1 S1024x128.size (by sl_kernel_rfl) y
/-- The stores to the second bf16 block cover it. -/
theorem cover0_B_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (y : S1024x128.Idx) : ∃ pc ∈ (kernelRun0_B c i arg1 harg1 arg2 harg2 arg3 harg3 arg4 harg4 arg5 harg5 hc0 x0 x1 xo).2.1, y ∈ pc.1.set :=
  View.cover_of_tiledL (kernelRun0_B c i arg1 harg1 arg2 harg2 arg3 harg3 arg4 harg4 arg5 harg5 hc0 x0 x1 xo).2.1 S1024x128.size (by sl_kernel_rfl) y
/-- The one store to the accumulator cell covers it. -/
theorem cover0_B_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (y : S1x1.Idx) : ∃ pc ∈ (kernelRun0_B c i arg1 harg1 arg2 harg2 arg3 harg3 arg4 harg4 arg5 harg5 hc0 x0 x1 xo).2.2.1, y ∈ pc.1.set :=
  View.cover_of_tiledL (kernelRun0_B c i arg1 harg1 arg2 harg2 arg3 harg3 arg4 harg4 arg5 harg5 hc0 x0 x1 xo).2.2.1 S1x1.size (by sl_kernel_rfl) y

/-- The first bf16 block ends at the rounded normalised rows of the first input block. -/
theorem left0_B_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (f : arg3.view.ty.Contents (Elt F)) :
    arg3.view.read (Elt F) (arg3.view.writes (Elt F) f (kernelRun0_B c i arg1 harg1 arg2 harg2 arg3 harg3 arg4 harg4 arg5 harg5 hc0 x0 x1 xo).1) = k0_pay5 x0 := by
  rw [View.read_writes_eq_canon _ _ _ (cover0_B_3 c i arg1 harg1 arg2 harg2 arg3 harg3 arg4 harg4 arg5 harg5 hc0 x0 x1 xo)]
  unfold kernelRun0_B
  dsimp only
  sl_unfold_words
  rw [View.canon_unit_zero hz0]
  simp only [View.readAt_eq_ld, harg1.read_unread, harg2.read_unread, View.ld_unit_zero (S := S1024x128) hz0]

/-- The second bf16 block ends at the rounded normalised rows of the second input block. -/
theorem left0_B_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (f : arg4.view.ty.Contents (Elt F)) :
    arg4.view.read (Elt F) (arg4.view.writes (Elt F) f (kernelRun0_B c i arg1 harg1 arg2 harg2 arg3 harg3 arg4 harg4 arg5 harg5 hc0 x0 x1 xo).2.1) = k0_pay6 x1 := by
  rw [View.read_writes_eq_canon _ _ _ (cover0_B_4 c i arg1 harg1 arg2 harg2 arg3 harg3 arg4 harg4 arg5 harg5 hc0 x0 x1 xo)]
  unfold kernelRun0_B
  dsimp only
  sl_unfold_words
  rw [View.canon_unit_zero hz0]
  simp only [View.readAt_eq_ld, harg1.read_unread, harg2.read_unread, View.ld_unit_zero (S := S1024x128) hz0]

/-- The cell ends at the block's sum added to what it held. -/
theorem left0_B_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (f : arg5.view.ty.Contents (Elt F)) :
    arg5.view.read (Elt F) (arg5.view.writes (Elt F) f (kernelRun0_B c i arg1 harg1 arg2 harg2 arg3 harg3 arg4 harg4 arg5 harg5 hc0 x0 x1 xo).2.2.1) = k0_pay4 x0 x1 xo := by
  rw [View.read_writes_eq_canon _ _ _ (cover0_B_5 c i arg1 harg1 arg2 harg2 arg3 harg3 arg4 harg4 arg5 harg5 hc0 x0 x1 xo)]
  unfold kernelRun0_B
  dsimp only
  sl_unfold_words
  rw [View.canon_unit_zero hz0]
  simp only [View.readAt_eq_ld, harg1.read_unread, harg2.read_unread, harg5.read_unread, View.ld_unit_zero (S := S1024x128) hz0, View.ld_unit_zero (S := S1x1) hz0]

end Cert.Kernel.Hand

end
-- ==== Proof.BitsR0Dat.lean ====
/-
  The first kernel region's body obligation: at every grid point the body, run on the staging buffers
  the pipeline hands it (the two inputs' at their blocks, the accumulator's at what the point before
  left, or at anything at the first point), leaves what the region's proof data say: the inputs'
  buffers as they were, the two bf16 buffers at the rounded normalised rows of the input blocks, the
  accumulator's at the running sum of the blocks' squared differences up to and including the point.
-/
import proofs.«107127_j34162169872914_1_alg».proof.Proof.BitsR0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging buffers the body is called on -/

/-- Each window's current staging buffer at point `t`, at its literal block type, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-! ## What the buffers hold when the body is called -/

/-- The first input's buffer holds its block at every point: it is fetched at every point, and the
    body leaves it as it was. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second input's buffer likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a point other than the first the accumulator's buffer holds the running sum the point before
    left: the cell is written back only after the last point, so nothing touched it in between. -/
theorem before0_4_B (c : Dev nD) (t : Fin cfg0.N) (h0 : ¬t.val % 8 = 0) (d) :
    (dat0 V c).before 4 t d = acc0 V c (t.val - 1) (Nat.lt_of_le_of_lt (Nat.sub_le _ _) t.isLt) := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  exact after0_4 V c _

/-! ## The running sum, point by point -/

/-- At the first point the running sum is the block's sum added to zero. -/
theorem acc0_A (c : Dev nD) (t : Fin cfg0.N) (h0 : t.val % 8 = 0) :
    acc0 V c t.val t.isLt = k0_pay4 (iblk0 V c 0 t) (iblk0 V c 1 t) (k0_pay1 (F := F)) := by
  have hN : t.val < 8 := lt_of_lt_of_eq t.isLt (show cfg0.N = 8 from N_0)
  obtain ⟨n, hn⟩ := t
  cases n with
  | zero => exact rfl
  | succ n => exact (by exfalso; dsimp only at h0 hN; omega)

/-- At a later point it is the block's sum added to the running sum of the point before. -/
theorem acc0_B (c : Dev nD) (t : Fin cfg0.N) (h0 : ¬t.val % 8 = 0) :
    acc0 V c t.val t.isLt = k0_pay4 (iblk0 V c 0 t) (iblk0 V c 1 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point. The inputs' buffers hold their blocks; the point is the first or not; at
    the first the accumulator's buffer may hold anything and ends at the block's sum added to zero, at
    a later one it holds the running sum of the point before and ends at the block's sum added to it;
    the bf16 buffers end at the rounded normalised rows either way; the invariant and what the core
    owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 8 := lt_of_lt_of_eq t.isLt (show cfg0.N = 8 from N_0)
  by_cases h0 : t.val % 8 = 0
  · rw [acc0_A V c t h0]
    iintro ⟨HΦ, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact left0_A_3 c (grid0.coords t) (ms0_0 t) (hs0_0 t) (ms0_1 t) (hs0_1 t) (ms0_2 t) (hs0_2 t) (ms0_3 t) (hs0_3 t) (ms0_4 t) (hs0_4 t)
        ((hcond0_0 t).mpr h0) (iblk0 V c 0 t) (iblk0 V c 1 t) e2
    isplitl [H3]
    · unfold owns; iexists _; isplitr
      swap; · iexact H3
      ipureintro
      exact left0_A_4 c (grid0.coords t) (ms0_0 t) (hs0_0 t) (ms0_1 t) (hs0_1 t) (ms0_2 t) (hs0_2 t) (ms0_3 t) (hs0_3 t) (ms0_4 t) (hs0_4 t)
        ((hcond0_0 t).mpr h0) (iblk0 V c 0 t) (iblk0 V c 1 t) e3
    unfold owns; iexists _; isplitr
    swap; · iexact H4
    ipureintro
    exact left0_A_5 c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t) e4
  · rw [acc0_B V c t h0]
    simp only [before0_4_B V c t h0]
    iintro ⟨HΦ, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t)
      (acc0 V c (t.val - 1) (Nat.lt_of_le_of_lt (Nat.sub_le _ _) t.isLt))).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact left0_B_3 c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (iblk0 V c 0 t) (iblk0 V c 1 t)
        (acc0 V c (t.val - 1) (Nat.lt_of_le_of_lt (Nat.sub_le _ _) t.isLt)) e2
    isplitl [H3]
    · unfold owns; iexists _; isplitr
      swap; · iexact H3
      ipureintro
      exact left0_B_4 c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (iblk0 V c 0 t) (iblk0 V c 1 t)
        (acc0 V c (t.val - 1) (Nat.lt_of_le_of_lt (Nat.sub_le _ _) t.isLt)) e3
    unfold owns; iexists _; isplitr
    swap; · iexact H4
    ipureintro
    exact left0_B_5 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t)
      (acc0 V c (t.val - 1) (Nat.lt_of_le_of_lt (Nat.sub_le _ _) t.isLt)) e4

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Def.lean ====
/-
  A pairwise-potential kernel region (the first one: it reads the normalised q array through BOTH of
  its input windows) as the pipeline sees it, at the contents `V` the region is entered with. Point
  `(a, b)` of the 8 × 8 grid multiplies row block `a` by row block `b`, turns the 1024 × 1024 inner
  products into potentials and adds their sum to the one-cell accumulator, which the first point
  resets. The two input windows name one array, so each holds half of it.
-/
import proofs.«107127_j34162169872914_1_alg».proof.Proof.Gen.Kernel.Launch
import proofs.«107127_j34162169872914_1_alg».proof.Proof.Gen.Kernel.Skeleton
import proofs.«107127_j34162169872914_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator cell after point `n`: the first point starts from the zero it has just stored,
    every later point from what the point before left. -/
def acc1 (c : Dev nD) : (n : ℕ) → n < cfg1.N → Vec F S1x1 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- The region's proof data: the arrays as entered; after the body at point `t` the two inputs'
    buffers still at their blocks, the accumulator's at the running sum; nothing owed; the shared
    input array split in halves between the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.Kernel.Hand

end
-- ==== Proof.BitsR1Dat.lean ====
/-
  The first pairwise-potential region's body obligation: at every grid point the body, run on the
  staging buffers the pipeline hands it (the two inputs' at their blocks, fetched at this point or
  kept from an earlier one; the accumulator's at what the point before left, or at anything at the
  first point), leaves what the region's proof data say.

  The body resets the one-cell accumulator when both grid coordinates are zero, i.e. at the first of
  the 64 points only, and at every point adds the pairwise sum of its two row blocks to the cell. So
  there are two cases. At the first point the cell's buffer ends at the sum added to the zero just
  stored, whatever it held; at a later point it ends at the sum added to the running sum, which the
  buffer still holds because the cell is written back at the last point only. The matrix product and
  the potential stay inside the named payload throughout.
-/
import proofs.«107127_j34162169872914_1_alg».proof.Proof.BitsR1Def
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset condition of the body, from the grid coordinates: both coordinates are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the 8 × 8 grid only. -/
theorem hcond1 : ∀ t : Fin cfg1.N, cond1 (grid1.coords t) ↔ t.val % 64 = 0 :=
  (by decide +kernel : ∀ t : Fin grid1.N, cond1 (grid1.coords t) ↔ t.val % 64 = 0)

set_option maxHeartbeats 1000000 in
/-- The first point: on whole staging memrefs, the two inputs' at `x0`, `x1` and the accumulator's at
    anything, the body runs to the continuation holding the inputs' as they were and the accumulator's
    with the pieces its two stores leave (the reset, then the sum over the reset read back). -/
noncomputable def kernelRun1_A (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond1 i)
    (x0 x1 : Vec F S1024x128 .bf16) :
    { L : List (View.Piece (Elt F) S1x1 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d)
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc1_pairwise_sum_kernel i a0 ha0 a1 ha1 a2 ha2) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%d2, %f2, -, H2⟩, Hk⟩
    obtain rfl := ha0.eq_unread hf0; obtain rfl := ha1.eq_unread hf1
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

set_option maxHeartbeats 1000000 in
/-- A later point: the same with the accumulator's buffer at the running sum `xo`, which the body's one
    store replaces by the sum over it. -/
noncomputable def kernelRun1_B (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond1 i)
    (x0 x1 : Vec F S1024x128 .bf16) (xo : Vec F S1x1 .f32) :
    { L : List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare xo
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc1_pairwise_sum_kernel i a0 ha0 a1 ha1 a2 ha2) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%f2, %hf2, H2⟩, Hk⟩
    obtain rfl := ha0.eq_unread hf0; obtain rfl := ha1.eq_unread hf1; obtain rfl := ha2.eq_unread hf2
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

/-! ## What the found pieces leave in the accumulator's buffer -/

/-- The first point's pieces (two stores of the whole cell) cover the cell. -/
theorem cover1_A (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond1 i)
    (x0 x1 : Vec F S1024x128 .bf16) (y : S1x1.Idx) :
    ∃ pc ∈ (kernelRun1_A c i a0 ha0 a1 ha1 a2 ha2 hc0 x0 x1).1, y ∈ pc.1.set :=
  View.cover_of_tiledL (kernelRun1_A c i a0 ha0 a1 ha1 a2 ha2 hc0 x0 x1).1 S1x1.size (by sl_kernel_rfl) y

/-- A later point's piece (one store of the whole cell) covers the cell. -/
theorem cover1_B (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond1 i)
    (x0 x1 : Vec F S1024x128 .bf16) (xo : Vec F S1x1 .f32) (y : S1x1.Idx) :
    ∃ pc ∈ (kernelRun1_B c i a0 ha0 a1 ha1 a2 ha2 hc0 x0 x1 xo).1, y ∈ pc.1.set :=
  View.cover_of_tiledL (kernelRun1_B c i a0 ha0 a1 ha1 a2 ha2 hc0 x0 x1 xo).1 S1x1.size (by sl_kernel_rfl) y

/-- The stores' and loads' offsets are all zero. -/
theorem zeros1_cell : (![0, 0] : Fin S1x1.rank → Nat) = fun _ => 0 := by funext a; fin_cases a <;> rfl
theorem zeros1_blk : (![0, 0] : Fin S1024x128.rank → Nat) = fun _ => 0 := by funext a; fin_cases a <;> rfl

/-- At the first point the accumulator's buffer, whatever it held, ends at the pairwise sum of the two
    blocks added to the zero the reset has just stored: the later store covers the cell, and the
    value it adds to is the reset's payload read back. -/
theorem left1_A (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond1 i)
    (x0 x1 : Vec F S1024x128 .bf16) (f : a2.view.ty.Contents (Elt F)) :
    a2.view.read (Elt F) (a2.view.writes (Elt F) f (kernelRun1_A c i a0 ha0 a1 ha1 a2 ha2 hc0 x0 x1).1)
      = k1_pay2 x0 x1 (k1_pay1 (F := F)) := by
  rw [View.read_writes_eq_canon _ _ _ (cover1_A c i a0 ha0 a1 ha1 a2 ha2 hc0 x0 x1)]
  unfold kernelRun1_A
  dsimp only
  sl_unfold_words
  rw [View.canon_cons_unit_zero (S := S1x1) zeros1_cell, View.readCov_unit_zero (S := S1x1) _ zeros1_cell]
  simp only [View.readAt_eq_ld, ha0.read_unread, ha1.read_unread, View.ld_unit_zero (S := S1024x128) zeros1_blk]

/-- At a later point the accumulator's buffer, holding the running sum `xo`, ends at the pairwise sum
    of the two blocks added to `xo`. -/
theorem left1_B (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond1 i)
    (x0 x1 : Vec F S1024x128 .bf16) (xo : Vec F S1x1 .f32) (f : a2.view.ty.Contents (Elt F)) :
    a2.view.read (Elt F) (a2.view.writes (Elt F) f (kernelRun1_B c i a0 ha0 a1 ha1 a2 ha2 hc0 x0 x1 xo).1)
      = k1_pay2 x0 x1 xo := by
  rw [View.read_writes_eq_canon _ _ _ (cover1_B c i a0 ha0 a1 ha1 a2 ha2 hc0 x0 x1 xo)]
  unfold kernelRun1_B
  dsimp only
  sl_unfold_words
  rw [View.canon_unit_zero (S := S1x1) zeros1_cell]
  simp only [View.readAt_eq_ld, ha0.read_unread, ha1.read_unread, ha2.read_unread,
    View.ld_unit_zero (S := S1024x128) zeros1_blk, View.ld_unit_zero (S := S1x1) zeros1_cell]

variable (V : (c : Dev nD) → (b : Ref sig .tc) → Buf (Elt F) ((c : Thread nD τ).loc b))

/-! ## What the pipeline hands the body -/

/-- Each window's current staging memref at point `t`, spelled as the pipeline passes it, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-- The row-block window's buffer holds its block at every point, fetched there or not: it is fetched at
    the first point of each grid row only, and within a row its block index does not move. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The column-block window's buffer holds its block at every point (it is fetched at every point). -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At a point after the first the accumulator's buffer holds what the body left at the point before:
    the cell is written back at the last point only, so never in between. -/
theorem before1_2_B (c : Dev nD) (t : Fin cfg1.N) (h0 : ¬t.val % 64 = 0) (d) :
    (dat1 V c).before 2 t d = acc1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega)
    (Bool.eq_false_iff.mpr fun h => by have := (flush1_2 _).mp h; dsimp only at this; omega)
    (fun _ => rfl) (fun _ _ => rfl)]
  exact after1_2 V c _

/-- The running sum at the first point: the pairwise sum of its two blocks added to the reset's zero. -/
theorem acc1_A (c : Dev nD) (t : Fin cfg1.N) (h0 : t.val % 64 = 0) :
    acc1 V c t.val t.isLt = k1_pay2 (iblk1 V c 0 t) (iblk1 V c 1 t) (k1_pay1 (F := F)) := by
  have hN : t.val < 64 := lt_of_lt_of_eq t.isLt (show cfg1.N = 64 from N_1)
  obtain ⟨n, hn⟩ := t
  cases n with
  | zero => exact rfl
  | succ n => exact (by exfalso; dsimp only at h0 hN; omega)

/-- The running sum at a later point: the pairwise sum of its two blocks added to the sum so far. -/
theorem acc1_B (c : Dev nD) (t : Fin cfg1.N) (h0 : ¬t.val % 64 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; the point is the first or a later one;
    at a later one the accumulator's buffer holds the running sum the point before left; so the case's
    run applies, and what its pieces leave in the accumulator's buffer is the running sum at this point;
    the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 64 = 0
  · rw [acc1_A V c t h0]
    iintro ⟨HΦ, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t)
      ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left1_A c (grid1.coords t) (ms1_0 t) (hs1_0 t) (ms1_1 t) (hs1_1 t) (ms1_2 t) (hs1_2 t)
      ((hcond1 t).mpr h0) (iblk1 V c 0 t) (iblk1 V c 1 t) e2
  · rw [acc1_B V c t h0]
    simp only [before1_2_B V c t h0]
    iintro ⟨HΦ, Ho, ⟨%d0, H0⟩, ⟨%d1, H1⟩, ⟨%d2, H2⟩⟩
    iapply ((kernelRun1_B c (grid1.coords t) (ms1_0 t) (hs1_0 t) (ms1_1 t) (hs1_1 t) (ms1_2 t) (hs1_2 t)
      (fun h => h0 ((hcond1 t).mp h)) (iblk1 V c 0 t) (iblk1 V c 1 t)
      (acc1 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left1_B c (grid1.coords t) (ms1_0 t) (hs1_0 t) (ms1_1 t) (hs1_1 t) (ms1_2 t) (hs1_2 t)
      (fun h => h0 ((hcond1 t).mp h)) (iblk1 V c 0 t) (iblk1 V c 1 t)
      (acc1 V c (t.val - 1) (Nat.lt_of_le_of_lt (Nat.sub_le _ _) t.isLt)) e2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsR2Def.lean ====
/-
  A pairwise-potential kernel region (the second one: it reads the normalised k array through BOTH of
  its input windows) as the pipeline sees it, at the contents `V` the region is entered with. Point
  `(a, b)` of the 8 × 8 grid multiplies row block `a` by row block `b`, turns the 1024 × 1024 inner
  products into potentials and adds their sum to the one-cell accumulator, which the first point
  resets. The two input windows name one array, so each holds half of it.
-/
import proofs.«107127_j34162169872914_1_alg».proof.Proof.Gen.Kernel.Launch
import proofs.«107127_j34162169872914_1_alg».proof.Proof.Gen.Kernel.Skeleton
import proofs.«107127_j34162169872914_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator cell after point `n`: the first point starts from the zero it has just stored,
    every later point from what the point before left. -/
def acc2 (c : Dev nD) : (n : ℕ) → n < cfg2.N → Vec F S1x1 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (acc2 c n (Nat.lt_of_succ_lt hn))

theorem acc2_zero (c : Dev nD) (hn : 0 < cfg2.N) :
    acc2 V c 0 hn = k2_pay2 (iblk2 V c 0 ⟨0, hn⟩) (iblk2 V c 1 ⟨0, hn⟩) (k2_pay1 (F := F)) := rfl
theorem acc2_succ (c : Dev nD) (n : ℕ) (hn : n + 1 < cfg2.N) :
    acc2 V c (n + 1) hn = k2_pay2 (iblk2 V c 0 ⟨n + 1, hn⟩) (iblk2 V c 1 ⟨n + 1, hn⟩) (acc2 V c n (Nat.lt_of_succ_lt hn)) := rfl

/-- The region's proof data: the arrays as entered; after the body at point `t` the two inputs'
    buffers still at their blocks, the accumulator's at the running sum; nothing owed; the shared
    input array split in halves between the two windows that read it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

end Cert.Kernel.Hand

end
-- ==== Proof.BitsR2Dat.lean ====
/-
  The second pairwise-potential region's body obligation: at every grid point the body, run on the
  staging buffers the pipeline hands it (the two inputs' at their blocks, fetched at this point or
  kept from an earlier one; the accumulator's at what the point before left, or at anything at the
  first point), leaves what the region's proof data say.

  The body resets the one-cell accumulator when both grid coordinates are zero, i.e. at the first of
  the 64 points only, and at every point adds the pairwise sum of its two row blocks to the cell. So
  there are two cases. At the first point the cell's buffer ends at the sum added to the zero just
  stored, whatever it held; at a later point it ends at the sum added to the running sum, which the
  buffer still holds because the cell is written back at the last point only. The matrix product and
  the potential stay inside the named payload throughout.
-/
import proofs.«107127_j34162169872914_1_alg».proof.Proof.BitsR2Def
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset condition of the body, from the grid coordinates: both coordinates are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the 8 × 8 grid only. -/
theorem hcond2 : ∀ t : Fin cfg2.N, cond2 (grid2.coords t) ↔ t.val % 64 = 0 :=
  (by decide +kernel : ∀ t : Fin grid2.N, cond2 (grid2.coords t) ↔ t.val % 64 = 0)

set_option maxHeartbeats 1000000 in
/-- The first point: on whole staging memrefs, the two inputs' at `x0`, `x1` and the accumulator's at
    anything, the body runs to the continuation holding the inputs' as they were and the accumulator's
    with the pieces its two stores leave (the reset, then the sum over the reset read back). -/
noncomputable def kernelRun2_A (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond2 i)
    (x0 x1 : Vec F S1024x128 .bf16) :
    { L : List (View.Piece (Elt F) S1x1 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d)
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc2_pairwise_sum_kernel i a0 ha0 a1 ha1 a2 ha2) K } := by
  refine ⟨?_, fun E K => ?run⟩
  case run =>
    simp only [cc2_pairwise_sum_kernel_eq_skeleton]; unfold cc2_pairwise_sum_kernel_skel
    unfold owns
    iintro ⟨⟨%f0, %hf0, H0⟩, ⟨%f1, %hf1, H1⟩, ⟨%d2, %f2, -, H2⟩, Hk⟩
    obtain rfl := ha0.eq_unread hf0; obtain rfl := ha1.eq_unread hf1
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

set_option maxHeartbeats 1000000 in
/-- A later point: the same with the accumulator's buffer at the running sum `xo`, which the body's one
    store replaces by the sum over it. -/
noncomputable def kernelRun2_B (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond2 i)
    (x0 x1 : Vec F S1024x128 .bf16) (xo : Vec F S1x1 .f32) :
    { L : List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare xo
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc2_pairwise_sum_kernel i a0 ha0 a1 ha1 a2 ha2) K } := by
  refine ⟨?_, fun E K => ?run⟩
  case run =>
    simp only [cc2_pairwise_sum_kernel_eq_skeleton]; unfold cc2_pairwise_sum_kernel_skel
    unfold owns
    iintro ⟨⟨%f0, %hf0, H0⟩, ⟨%f1, %hf1, H1⟩, ⟨%f2, %hf2, H2⟩, Hk⟩
    obtain rfl := ha0.eq_unread hf0; obtain rfl := ha1.eq_unread hf1; obtain rfl := ha2.eq_unread hf2
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

/-! ## What the found pieces leave in the accumulator's buffer -/

/-- The first point's pieces (two stores of the whole cell) cover the cell. -/
theorem cover2_A (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond2 i)
    (x0 x1 : Vec F S1024x128 .bf16) (y : S1x1.Idx) :
    ∃ pc ∈ (kernelRun2_A c i a0 ha0 a1 ha1 a2 ha2 hc0 x0 x1).1, y ∈ pc.1.set :=
  View.cover_of_tiledL (kernelRun2_A c i a0 ha0 a1 ha1 a2 ha2 hc0 x0 x1).1 S1x1.size (by sl_kernel_rfl) y

/-- A later point's piece (one store of the whole cell) covers the cell. -/
theorem cover2_B (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond2 i)
    (x0 x1 : Vec F S1024x128 .bf16) (xo : Vec F S1x1 .f32) (y : S1x1.Idx) :
    ∃ pc ∈ (kernelRun2_B c i a0 ha0 a1 ha1 a2 ha2 hc0 x0 x1 xo).1, y ∈ pc.1.set :=
  View.cover_of_tiledL (kernelRun2_B c i a0 ha0 a1 ha1 a2 ha2 hc0 x0 x1 xo).1 S1x1.size (by sl_kernel_rfl) y

/-- The stores' and loads' offsets are all zero. -/
theorem zeros2_cell : (![0, 0] : Fin S1x1.rank → Nat) = fun _ => 0 := by funext a; fin_cases a <;> rfl
theorem zeros2_blk : (![0, 0] : Fin S1024x128.rank → Nat) = fun _ => 0 := by funext a; fin_cases a <;> rfl

/-- At the first point the accumulator's buffer, whatever it held, ends at the pairwise sum of the two
    blocks added to the zero the reset has just stored: the later store covers the cell, and the
    value it adds to is the reset's payload read back. -/
theorem left2_A (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond2 i)
    (x0 x1 : Vec F S1024x128 .bf16) (f : a2.view.ty.Contents (Elt F)) :
    a2.view.read (Elt F) (a2.view.writes (Elt F) f (kernelRun2_A c i a0 ha0 a1 ha1 a2 ha2 hc0 x0 x1).1)
      = k2_pay2 x0 x1 (k2_pay1 (F := F)) := by
  rw [View.read_writes_eq_canon _ _ _ (cover2_A c i a0 ha0 a1 ha1 a2 ha2 hc0 x0 x1)]
  unfold kernelRun2_A
  dsimp only
  sl_unfold_words
  rw [View.canon_cons_unit_zero (S := S1x1) zeros2_cell, View.readCov_unit_zero (S := S1x1) _ zeros2_cell]
  simp only [View.readAt_eq_ld, ha0.read_unread, ha1.read_unread, View.ld_unit_zero (S := S1024x128) zeros2_blk]

/-- At a later point the accumulator's buffer, holding the running sum `xo`, ends at the pairwise sum
    of the two blocks added to `xo`. -/
theorem left2_B (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond2 i)
    (x0 x1 : Vec F S1024x128 .bf16) (xo : Vec F S1x1 .f32) (f : a2.view.ty.Contents (Elt F)) :
    a2.view.read (Elt F) (a2.view.writes (Elt F) f (kernelRun2_B c i a0 ha0 a1 ha1 a2 ha2 hc0 x0 x1 xo).1)
      = k2_pay2 x0 x1 xo := by
  rw [View.read_writes_eq_canon _ _ _ (cover2_B c i a0 ha0 a1 ha1 a2 ha2 hc0 x0 x1 xo)]
  unfold kernelRun2_B
  dsimp only
  sl_unfold_words
  rw [View.canon_unit_zero (S := S1x1) zeros2_cell]
  simp only [View.readAt_eq_ld, ha0.read_unread, ha1.read_unread, ha2.read_unread,
    View.ld_unit_zero (S := S1024x128) zeros2_blk, View.ld_unit_zero (S := S1x1) zeros2_cell]

variable (V : (c : Dev nD) → (b : Ref sig .tc) → Buf (Elt F) ((c : Thread nD τ).loc b))

/-! ## What the pipeline hands the body -/

/-- Each window's current staging memref at point `t`, spelled as the pipeline passes it, and its wholeness. -/
abbrev ms2_0 (t : Fin cfg2.N) : Memref sig .tc .vmem S1024x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

/-- The row-block window's buffer holds its block at every point, fetched there or not: it is fetched at
    the first point of each grid row only, and within a row its block index does not move. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The column-block window's buffer holds its block at every point (it is fetched at every point). -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- At a point after the first the accumulator's buffer holds what the body left at the point before:
    the cell is written back at the last point only, so never in between. -/
theorem before2_2_B (c : Dev nD) (t : Fin cfg2.N) (h0 : ¬t.val % 64 = 0) (d) :
    (dat2 V c).before 2 t d = acc2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega)
    (Bool.eq_false_iff.mpr fun h => by have := (flush2_2 _).mp h; dsimp only at this; omega)
    (fun _ => rfl) (fun _ _ => rfl)]
  exact after2_2 V c _

/-- The running sum at the first point: the pairwise sum of its two blocks added to the reset's zero. -/
theorem acc2_A (c : Dev nD) (t : Fin cfg2.N) (h0 : t.val % 64 = 0) :
    acc2 V c t.val t.isLt = k2_pay2 (iblk2 V c 0 t) (iblk2 V c 1 t) (k2_pay1 (F := F)) := by
  have hN : t.val < 64 := lt_of_lt_of_eq t.isLt (show cfg2.N = 64 from N_2)
  obtain ⟨n, hn⟩ := t
  cases n with
  | zero => exact rfl
  | succ n => exact (by exfalso; dsimp only at h0 hN; omega)

/-- The running sum at a later point: the pairwise sum of its two blocks added to the sum so far. -/
theorem acc2_B (c : Dev nD) (t : Fin cfg2.N) (h0 : ¬t.val % 64 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' buffers hold their blocks; the point is the first or a later one;
    at a later one the accumulator's buffer holds the running sum the point before left; so the case's
    run applies, and what its pieces leave in the accumulator's buffer is the running sum at this point;
    the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val % 64 = 0
  · rw [acc2_A V c t h0]
    iintro ⟨HΦ, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t)
      ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left2_A c (grid2.coords t) (ms2_0 t) (hs2_0 t) (ms2_1 t) (hs2_1 t) (ms2_2 t) (hs2_2 t)
      ((hcond2 t).mpr h0) (iblk2 V c 0 t) (iblk2 V c 1 t) e2
  · rw [acc2_B V c t h0]
    simp only [before2_2_B V c t h0]
    iintro ⟨HΦ, Ho, ⟨%d0, H0⟩, ⟨%d1, H1⟩, ⟨%d2, H2⟩⟩
    iapply ((kernelRun2_B c (grid2.coords t) (ms2_0 t) (hs2_0 t) (ms2_1 t) (hs2_1 t) (ms2_2 t) (hs2_2 t)
      (fun h => h0 ((hcond2 t).mp h)) (iblk2 V c 0 t) (iblk2 V c 1 t)
      (acc2 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left2_B c (grid2.coords t) (ms2_0 t) (hs2_0 t) (ms2_1 t) (hs2_1 t) (ms2_2 t) (hs2_2 t)
      (fun h => h0 ((hcond2 t).mp h)) (iblk2 V c 0 t) (iblk2 V c 1 t)
      (acc2 V c (t.val - 1) (Nat.lt_of_le_of_lt (Nat.sub_le _ _) t.isLt)) e2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsSegs.lean ====
/-
  The three kernel regions as segments of the program's run. The contents of the core's unscoped
  buffers at each boundary: as launched; after the first region (its three results at what its
  write-backs leave); after each pairwise region (its result cell at what its last point writes
  back); after the closing scalar operations. Each region is entered from all unscoped buffers held
  at the boundary's contents and left the same way; the two windows of a pairwise region read ONE
  array, which is split in halves between them on entry and joined again on exit.
-/
import proofs.«107127_j34162169872914_1_alg».proof.Proof.BitsR0Dat
import proofs.«107127_j34162169872914_1_alg».proof.Proof.BitsR1Dat
import proofs.«107127_j34162169872914_1_alg».proof.Proof.BitsR2Dat
import proofs.«107127_j34162169872914_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- At launch. -/
abbrev W0 : Dev nD → Valuation τ sig (Elt F) := fun c b => m (c, b)
/-- The same read at the TensorCore's references: what the first region's proof data take. -/
abbrev E0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (E0 m) c).arrAt w cfg0.N
abbrev E1 : (c : Dev nD) → (b : Ref sig .tc) → Buf (Elt F) ((c : Thread nD τ).loc b) := fun c b => W1 m c b
/-- After the first pairwise region: its result cell at what the last point writes back. -/
def W2 (c : Dev nD) : Valuation τ sig (Elt F) :=
  Function.update (W1 m c) main_v1 ((dat1 (E1 m) c).arrAt 2 cfg1.N)
abbrev E2 : (c : Dev nD) → (b : Ref sig .tc) → Buf (Elt F) ((c : Thread nD τ).loc b) := fun c b => W2 m c b
/-- After the second pairwise region. -/
def W3 (c : Dev nD) : Valuation τ sig (Elt F) :=
  Function.update (W2 m c) main_v2 ((dat2 (E2 m) c).arrAt 2 cfg2.N)
abbrev E3 : (c : Dev nD) → (b : Ref sig .tc) → Buf (Elt F) ((c : Thread nD τ).loc b) := fun c b => W3 m c b
/-- After the closing scalar operations. -/
abbrev W4 : Dev nD → Valuation τ sig (Elt F) := fun c => StableHlo.after hostOps3 (W3 m c)

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_v1 (c : Dev nD) : W2 m c (Proc.devRef .tc main_v1) = (dat1 (E1 m) c).arrAt 2 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_v2 (c : Dev nD) : W3 m c (Proc.devRef .tc main_v2) = (dat2 (E2 m) c).arrAt 2 cfg2.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the first region's exit each of its arrays holds what the pipeline leaves and every other buffer what it held at entry. -/
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-! ## A shared array on entry and on exit -/

/-- On entry to the first pairwise region the buffers behind its windows' arrays — the shared input array and the
    result cell, each whole — are the pipeline's arrays: the input array split in halves between the two windows. -/
theorem split1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [show Finset.univ.image (Pipeline.arrRef spec1) = {main_v0_0, main_v1} from by decide, BI.bigSep_insert (by decide), BI.bigSep_singleton, bigSep_W1]
  rw [(arr_whole1 0).set_eq_univ, (arr_whole1 2).set_eq_univ]
  show iprop(((c : Thread nD τ).loc main_v0_0 ↦{fullShare} V c main_v0_0) ∗ ((c : Thread nD τ).loc main_v1 ↦{fullShare} V c main_v1)) ⊢
    iprop(((c : Thread nD τ).loc main_v0_0 ↦{fullShare.left} V c main_v0_0) ∗ ((c : Thread nD τ).loc main_v0_0 ↦{fullShare.right} V c main_v0_0) ∗ ((c : Thread nD τ).loc main_v1 ↦{fullShare} V c main_v1))
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- The reverse at the exit: the two halves of the shared input array and the result cell at its final contents,
    beside the other unscoped buffers as entered, are all unscoped buffers at the exit contents. -/
theorem join1 (V V' : (c : Dev nD) → (b : Ref sig .tc) → Buf (Elt F) ((c : Thread nD τ).loc b)) (c : Dev nD)
    (h1 : V' c main_v1 = (dat1 V c).arrAt 2 cfg1.N) (hrest : ∀ b : Ref sig .tc, b ≠ main_v1 → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c (V' c) : sProp 𝕄) := by
  rw [Pipeline.unscopedBufs_split₀ (cfgs) 1 (by decide) c (V' c)]
  unfold Pipeline.arrBufs Dat.arrays
  rw [show Finset.univ.image (Pipeline.arrRef (cfgs 1).spec) = {main_v0_0, main_v1} from by decide, BI.bigSep_insert (by decide), BI.bigSep_singleton, bigSep_W1]
  rw [(arr_whole1 0).set_eq_univ, (arr_whole1 2).set_eq_univ]
  have e0 : (dat1 V c).arrAt 0 cfg1.N = V' c main_v0_0 := ((dat1 V c).arrAt_in 0 rfl _).trans ((A_eq1 V c 0).trans (hrest main_v0_0 (by decide)).symm)
  have e1 : (dat1 V c).arrAt 1 cfg1.N = V' c main_v0_0 := ((dat1 V c).arrAt_in 1 rfl _).trans ((A_eq1 V c 1).trans (hrest main_v0_0 (by decide)).symm)
  have er : (Pipeline.unscopedRest (Ix := Unit) (Name := ℕ) (U := UR sig nD τ) (Lvl := ℕ) spec1 c (V c) : sProp 𝕄) = Pipeline.unscopedRest (cfgs 1).spec c (V' c) := by
    unfold Pipeline.unscopedRest
    exact BI.bigSep_congr fun b hb => by
      rw [hrest b (fun e => (Finset.mem_sdiff.mp hb).2 (Finset.mem_image.mpr ⟨2, Finset.mem_univ _, e.symm⟩))]
  rw [er]
  show iprop((((c : Thread nD τ).loc main_v0_0 ↦{fullShare.left} (dat1 V c).arrAt 0 cfg1.N) ∗ ((c : Thread nD τ).loc main_v0_0 ↦{fullShare.right} (dat1 V c).arrAt 1 cfg1.N) ∗ ((c : Thread nD τ).loc main_v1 ↦{fullShare} (dat1 V c).arrAt 2 cfg1.N)) ∗ Pipeline.unscopedRest (cfgs 1).spec c (V' c)) ⊢
    iprop((((c : Thread nD τ).loc main_v0_0 ↦{fullShare} V' c main_v0_0) ∗ ((c : Thread nD τ).loc main_v1 ↦{fullShare} V' c main_v1)) ∗ Pipeline.unscopedRest (cfgs 1).spec c (V' c))
  rw [e0, e1, h1]
  iintro ⟨⟨Hl, Hr, H1⟩, Hrest⟩
  isplitr [Hrest]
  · isplitl [Hl Hr]
    · iapply (pointsTo_share (PosShare.mem_left_op_right fullShare)).2
      isplitl [Hl] <;> iassumption
    iexact H1
  iexact Hrest

/-- On entry to the second pairwise region the buffers behind its windows' arrays — the shared input array and the
    result cell, each whole — are the pipeline's arrays: the input array split in halves between the two windows. -/
theorem split2 (V : (c : Dev nD) → (b : Ref sig .tc) → Buf (Elt F) ((c : Thread nD τ).loc b)) (c : Dev nD) :
    (Pipeline.arrBufs (Ix := Unit) (Name := ℕ) (U := UR sig nD τ) (Lvl := ℕ) spec2 c (V c) : sProp 𝕄) ⊢ (dat2 V c).arrays ((dat2 V c).arrAt · 0) := by
  unfold Pipeline.arrBufs Dat.arrays
  rw [show Finset.univ.image (Pipeline.arrRef spec2) = {main_v0_1, main_v2} from by decide, BI.bigSep_insert (by decide), BI.bigSep_singleton, bigSep_W2]
  rw [(arr_whole2 0).set_eq_univ, (arr_whole2 2).set_eq_univ]
  show iprop(((c : Thread nD τ).loc main_v0_1 ↦{fullShare} V c main_v0_1) ∗ ((c : Thread nD τ).loc main_v2 ↦{fullShare} V c main_v2)) ⊢
    iprop(((c : Thread nD τ).loc main_v0_1 ↦{fullShare.left} V c main_v0_1) ∗ ((c : Thread nD τ).loc main_v0_1 ↦{fullShare.right} V c main_v0_1) ∗ ((c : Thread nD τ).loc main_v2 ↦{fullShare} V c main_v2))
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- The reverse at the exit: the two halves of the shared input array and the result cell at its final contents,
    beside the other unscoped buffers as entered, are all unscoped buffers at the exit contents. -/
theorem join2 (V V' : (c : Dev nD) → (b : Ref sig .tc) → Buf (Elt F) ((c : Thread nD τ).loc b)) (c : Dev nD)
    (h1 : V' c main_v2 = (dat2 V c).arrAt 2 cfg2.N) (hrest : ∀ b : Ref sig .tc, b ≠ main_v2 → V' c b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c (V' c) : sProp 𝕄) := by
  rw [Pipeline.unscopedBufs_split₀ (cfgs) 2 (by decide) c (V' c)]
  unfold Pipeline.arrBufs Dat.arrays
  rw [show Finset.univ.image (Pipeline.arrRef (cfgs 2).spec) = {main_v0_1, main_v2} from by decide, BI.bigSep_insert (by decide), BI.bigSep_singleton, bigSep_W2]
  rw [(arr_whole2 0).set_eq_univ, (arr_whole2 2).set_eq_univ]
  have e0 : (dat2 V c).arrAt 0 cfg2.N = V' c main_v0_1 := ((dat2 V c).arrAt_in 0 rfl _).trans ((A_eq2 V c 0).trans (hrest main_v0_1 (by decide)).symm)
  have e1 : (dat2 V c).arrAt 1 cfg2.N = V' c main_v0_1 := ((dat2 V c).arrAt_in 1 rfl _).trans ((A_eq2 V c 1).trans (hrest main_v0_1 (by decide)).symm)
  have er : (Pipeline.unscopedRest (Ix := Unit) (Name := ℕ) (U := UR sig nD τ) (Lvl := ℕ) spec2 c (V c) : sProp 𝕄) = Pipeline.unscopedRest (cfgs 2).spec c (V' c) := by
    unfold Pipeline.unscopedRest
    exact BI.bigSep_congr fun b hb => by
      rw [hrest b (fun e => (Finset.mem_sdiff.mp hb).2 (Finset.mem_image.mpr ⟨2, Finset.mem_univ _, e.symm⟩))]
  rw [er]
  show iprop((((c : Thread nD τ).loc main_v0_1 ↦{fullShare.left} (dat2 V c).arrAt 0 cfg2.N) ∗ ((c : Thread nD τ).loc main_v0_1 ↦{fullShare.right} (dat2 V c).arrAt 1 cfg2.N) ∗ ((c : Thread nD τ).loc main_v2 ↦{fullShare} (dat2 V c).arrAt 2 cfg2.N)) ∗ Pipeline.unscopedRest (cfgs 2).spec c (V' c)) ⊢
    iprop((((c : Thread nD τ).loc main_v0_1 ↦{fullShare} V' c main_v0_1) ∗ ((c : Thread nD τ).loc main_v2 ↦{fullShare} V' c main_v2)) ∗ Pipeline.unscopedRest (cfgs 2).spec c (V' c))
  rw [e0, e1, h1]
  iintro ⟨⟨Hl, Hr, H1⟩, Hrest⟩
  isplitr [Hrest]
  · isplitl [Hl Hr]
    · iapply (pointsTo_share (PosShare.mem_left_op_right fullShare)).2
      isplitl [Hl] <;> iassumption
    iexact H1
  iexact Hrest

/-! ## The regions as segments -/

set_option backward.isDefEq.respectTransparency.types false in
/-- THE FIRST REGION over the thread state: entered from every unscoped buffer at the launch contents, left at
    `W1`. Its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FIRST PAIRWISE REGION over the thread state: entered from every unscoped buffer at `W1`, left at `W2`.
    The shared input array is split between its two windows on entry (`split1`) and joined on exit (`join1`); the
    generator register goes into the invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄) ⊢ iprop((pdats m 1 c).arrays ((pdats m 1 c).arrAt · 0)
        ∗ Pipeline.unscopedRest (Ix := Unit) (Name := ℕ) (U := UR sig nD τ) (Lvl := ℕ) spec1 c (E1 m c)) := by
      rw [Pipeline.unscopedBufs_split₀ (cfgs) 1 (by decide) c (E1 m c)]
      exact sep_mono (split1 (E1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (E1 m c)) ⊢ (unscopedBufs c (E2 m c) : sProp 𝕄) :=
      join1 (E1 m) (E2 m) c (W2_v1 m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PAIRWISE REGION over the thread state: entered from every unscoped buffer at `W2`, left at `W3`.
    The shared input array is split between its two windows on entry (`split2`) and joined on exit (`join2`); the
    generator register goes into the invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs c (E2 m c) : sProp 𝕄) ⊢ iprop((pdats m 2 c).arrays ((pdats m 2 c).arrAt · 0)
        ∗ Pipeline.unscopedRest (Ix := Unit) (Name := ℕ) (U := UR sig nD τ) (Lvl := ℕ) spec2 c (E2 m c)) := by
      rw [Pipeline.unscopedBufs_split₀ (cfgs) 2 (by decide) c (E2 m c)]
      exact sep_mono (split2 (E2 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
        ∗ Pipeline.unscopedRest (Ix := Unit) (Name := ℕ) (U := UR sig nD τ) (Lvl := ℕ) spec2 c (E2 m c)) ⊢ (unscopedBufs c (E3 m c) : sProp 𝕄) :=
      join2 (E2 m) (E3 m) c (W3_v2 m c) (fun b hb => W3_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsRun.lean ====
/-
   The program's run. @main is the three kernel regions and then the closing scalar operations; from any
   memory with zero counters every weakly fair execution terminates, and every unscoped buffer ends at the
   contents the boundaries' fold gives (`W4`): in particular the arguments as launched and the result at the
   scalar arithmetic of the three regions' result cells. -/
import proofs.«107127_j34162169872914_1_alg».proof.Proof.BitsSegs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The closing scalar operations as a segment over the unscoped buffers from `W3`. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) R

/-- @main's four segments in order. -/
abbrev segs : List (Pipeline.Seg (pcfgs (F := F)) adm (pdats m) () defs₀ 𝒱₀ L lv) :=
  [ .region (reg0 m), .region (reg1 m), .region (reg2 m), .host (hseg3 m) ]

/-- @main IS the run of the segments. -/
theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE RUN: every weakly fair execution of @main from `m` with zero counters terminates, nothing faulting, and every
    unscoped buffer of every core ends at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- No closing operation writes an argument, no pairwise region's result cell is one, and the first region only
    reads them through its input windows: the fold at an argument's buffer walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps3 _ hostOps3_writes (by decide)
    _ = W2 m c (Proc.devRef .tc main_arg0) := W3_of_ne m c main_arg0 (by decide)
    _ = W1 m c (Proc.devRef .tc main_arg0) := W2_of_ne m c main_arg0 (by decide)
    _ = m ((c : Thread nD τ).loc main_arg0) := (W1_arr m c 0).trans (((dat0 (E0 m) c).arrAt_in 0 rfl _).trans (A_eq0 (E0 m) c 0))
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps3 _ hostOps3_writes (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (W1_arr m c 1).trans (((dat0 (E0 m) c).arrAt_in 1 rfl _).trans (A_eq0 (E0 m) c 1))

/-- THE FRAME, at any float instance: the program runs to the end, faults nowhere, and its two argument arrays end
    holding what they were launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_main m ρ)

end Cert.Kernel.Hand

end
-- ==== Proof.R0Def.lean ====
/-
  The first kernel region (row normalisation and the alignment sum) as the pipeline sees it, at the
  contents `V` the region is entered with: each window's block at a grid point, the running
  alignment sum after each point, and what every staging buffer holds after the body at a point.
  Point `t` of the grid of 8 handles rows 1024·t … 1024·t + 1023 of both arguments: it writes the
  normalised rows of each into its own block of the two bf16 results and adds the block's sum of
  squared differences to the one-cell accumulator, which the first point resets.
-/
import proofs.«107127_j34162169872914_1_alg».proof.Proof.Gen.KernelIdeal.Launch
import proofs.«107127_j34162169872914_1_alg».proof.Proof.Gen.KernelIdeal.Skeleton
import proofs.«107127_j34162169872914_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator cell after point `n`: the first point starts from the zero it has just stored,
    every later point from what the point before left. -/
def acc0 (c : Dev nD) : (n : ℕ) → n < cfg0.N → Vec F S1x1 .f32
  | 0, hn => k0_pay4 (iblk0 V c 0 ⟨0, hn⟩) (iblk0 V c 1 ⟨0, hn⟩) (k0_pay1 (F := F))
  | n + 1, hn => k0_pay4 (iblk0 V c 0 ⟨n + 1, hn⟩) (iblk0 V c 1 ⟨n + 1, hn⟩) (acc0 c n (Nat.lt_of_succ_lt hn))

theorem acc0_zero (c : Dev nD) (hn : 0 < cfg0.N) :
    acc0 V c 0 hn = k0_pay4 (iblk0 V c 0 ⟨0, hn⟩) (iblk0 V c 1 ⟨0, hn⟩) (k0_pay1 (F := F)) := rfl
theorem acc0_succ (c : Dev nD) (n : ℕ) (hn : n + 1 < cfg0.N) :
    acc0 V c (n + 1) hn = k0_pay4 (iblk0 V c 0 ⟨n + 1, hn⟩) (iblk0 V c 1 ⟨n + 1, hn⟩) (acc0 V c n (Nat.lt_of_succ_lt hn)) := rfl

/-- The region's proof data: the arrays as entered; after the body at point `t` the two inputs'
    buffers still at their blocks, the two bf16 outputs' at the normalised blocks, the accumulator's
    at the running sum; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (iblk0 V c 0 t)
    | ⟨3, _⟩ => k0_pay6 (iblk0 V c 1 t)
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay5 (iblk0 V c 0 t) := by dsimp only [dat0]
theorem after0_3 (c : Dev nD) (t : Fin cfg0.N) : (dat0 V c).after 3 t = k0_pay6 (iblk0 V c 1 t) := by dsimp only [dat0]
theorem after0_4 (c : Dev nD) (t : Fin cfg0.N) : (dat0 V c).after 4 t = acc0 V c t.val t.isLt := by dsimp only [dat0]

end Cert.KernelIdeal.Hand

end
-- ==== Proof.R0Run.lean ====
/-
  The first kernel region's body, run once on arbitrary whole staging buffers, in each of its two
  control cases. At the first grid point the body zeroes the one-cell accumulator and then adds the
  block's sum of squared differences of the normalised rows to it; at a later point it adds the
  block's sum to whatever the cell holds. In both cases it overwrites the two bf16 blocks with the
  normalised rows of the two input blocks. Each case is stated as the list of stores every output
  buffer ends with, and then read back: the bf16 blocks hold the rounding of the normalised rows, the
  cell holds the block's sum added to zero (first point) or to its former value (later points).
-/
import proofs.«107127_j34162169872914_1_alg».proof.Proof.R0Def
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Whether the point is the first along the one grid axis, as the body computes it from the coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

set_option maxHeartbeats 1000000 in
/-- The body at the first point (the reset is taken), on whole staging buffers: the two inputs at
    their blocks, the three outputs at anything. It runs to the continuation with the inputs as they
    were and each output buffer overwritten by the listed stores (last first). -/
noncomputable def kernelRun0_A (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i)
    (x0 : Vec F S1024x128 .f32) (x1 : Vec F S1024x128 .f32) :
    Σ' (L3 : List (View.Piece (Elt F) S1024x128 .bf16)) (L4 : List (View.Piece (Elt F) S1024x128 .bf16)), { L5 : List (View.Piece (Elt F) S1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0_norm_align_kernel i arg1 harg1 arg2 harg2 arg3 harg3 arg4 harg4 arg5 harg5) K } := by
  refine ⟨?_, ?_, ?_, fun E K => ?run⟩
  case run =>
    simp only [cc0_norm_align_kernel_eq_skeleton]; unfold cc0_norm_align_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

set_option maxHeartbeats 1000000 in
/-- The body at a later point (no reset), on whole staging buffers: the two inputs at their blocks,
    the two bf16 outputs at anything, the accumulator cell at its running value. It runs to the
    continuation with the inputs as they were and each output buffer overwritten by the listed stores. -/
noncomputable def kernelRun0_B (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i)
    (x0 : Vec F S1024x128 .f32) (x1 : Vec F S1024x128 .f32) (xo : Vec F S1x1 .f32) :
    Σ' (L3 : List (View.Piece (Elt F) S1024x128 .bf16)) (L4 : List (View.Piece (Elt F) S1024x128 .bf16)), { L5 : List (View.Piece (Elt F) S1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ owns (c : Thread nD τ) arg5 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0_norm_align_kernel i arg1 harg1 arg2 harg2 arg3 harg3 arg4 harg4 arg5 harg5) K } := by
  refine ⟨?_, ?_, ?_, fun E K => ?run⟩
  case run =>
    simp only [cc0_norm_align_kernel_eq_skeleton]; unfold cc0_norm_align_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Both offsets of a whole-block access are zero. -/
theorem hz0 : (![0, 0] : Fin 2 → Nat) = fun _ => 0 := funext fun a => by
  match a with
  | ⟨0, _⟩ => rfl
  | ⟨1, _⟩ => rfl

/-! ## The first point: what each output buffer ends with -/

/-- The stores to the first bf16 block cover it. -/
theorem cover0_A_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (y : S1024x128.Idx) : ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1024x128.size (by sl_kernel_rfl) y
/-- The stores to the second bf16 block cover it. -/
theorem cover0_A_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (y : S1024x128.Idx) : ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1024x128.size (by sl_kernel_rfl) y
/-- The stores to the accumulator cell cover it. -/
theorem cover0_A_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (y : S1x1.Idx) : ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1x1.size (by sl_kernel_rfl) y

/-- The first bf16 block ends at the rounded normalised rows of the first input block. -/
theorem left0_A_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (f : arg3.view.ty.Contents (Elt F)) :
    arg3.view.read (Elt F) (arg3.view.writes (Elt F) f (kernelRun0_A c i arg1 harg1 arg2 harg2 arg3 harg3 arg4 harg4 arg5 harg5 hc0 x0 x1).1) = k0_pay5 x0 := by
  rw [View.read_writes_eq_canon _ _ _ (cover0_A_3 c i arg1 harg1 arg2 harg2 arg3 harg3 arg4 harg4 arg5 harg5 hc0 x0 x1)]
  unfold kernelRun0_A
  dsimp only
  sl_unfold_words
  rw [View.canon_unit_zero hz0]
  simp only [View.readAt_eq_ld, harg1.read_unread, harg2.read_unread, View.ld_unit_zero (S := S1024x128) hz0]

/-- The second bf16 block ends at the rounded normalised rows of the second input block. -/
theorem left0_A_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (f : arg4.view.ty.Contents (Elt F)) :
    arg4.view.read (Elt F) (arg4.view.writes (Elt F) f (kernelRun0_A c i arg1 harg1 arg2 harg2 arg3 harg3 arg4 harg4 arg5 harg5 hc0 x0 x1).2.1) = k0_pay6 x1 := by
  rw [View.read_writes_eq_canon _ _ _ (cover0_A_4 c i arg1 harg1 arg2 harg2 arg3 harg3 arg4 harg4 arg5 harg5 hc0 x0 x1)]
  unfold kernelRun0_A
  dsimp only
  sl_unfold_words
  rw [View.canon_unit_zero hz0]
  simp only [View.readAt_eq_ld, harg1.read_unread, harg2.read_unread, View.ld_unit_zero (S := S1024x128) hz0]

/-- The cell ends at the block's sum added to the zero just stored. -/
theorem left0_A_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : cond0_0 i) (x0 : Vec F S1024x128 .f32) (x1 : Vec F S1024x128 .f32) (f : arg5.view.ty.Contents (Elt F)) :
    arg5.view.read (Elt F) (arg5.view.writes (Elt F) f (kernelRun0_A c i arg1 harg1 arg2 harg2 arg3 harg3 arg4 harg4 arg5 harg5 hc0 x0 x1).2.2.1) = k0_pay4 x0 x1 (k0_pay1 (F := F)) := by
  rw [View.read_writes_eq_canon _ _ _ (cover0_A_5 c i arg1 harg1 arg2 harg2 arg3 harg3 arg4 harg4 arg5 harg5 hc0 x0 x1)]
  unfold kernelRun0_A
  dsimp only
  sl_unfold_words
  rw [View.canon_cons_unit_zero (S := S1x1) hz0, View.readCov_unit_zero (S := S1x1) _ hz0]
  simp only [View.readAt_eq_ld, harg1.read_unread, harg2.read_unread, View.ld_unit_zero (S := S1024x128) hz0]

/-! ## A later point: what each output buffer ends with -/

/-- The stores to the first bf16 block cover it. -/
theorem cover0_B_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (y : S1024x128.Idx) : ∃ pc ∈ (kernelRun0_B c i arg1 harg1 arg2 harg2 arg3 harg3 arg4 harg4 arg5 harg5 hc0 x0 x1 xo).1, y ∈ pc.1.set :=
  View.cover_of_tiledL (kernelRun0_B c i arg1 harg1 arg2 harg2 arg3 harg3 arg4 harg4 arg5 harg5 hc0 x0 x1 xo).1 S1024x128.size (by sl_kernel_rfl) y
/-- The stores to the second bf16 block cover it. -/
theorem cover0_B_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (y : S1024x128.Idx) : ∃ pc ∈ (kernelRun0_B c i arg1 harg1 arg2 harg2 arg3 harg3 arg4 harg4 arg5 harg5 hc0 x0 x1 xo).2.1, y ∈ pc.1.set :=
  View.cover_of_tiledL (kernelRun0_B c i arg1 harg1 arg2 harg2 arg3 harg3 arg4 harg4 arg5 harg5 hc0 x0 x1 xo).2.1 S1024x128.size (by sl_kernel_rfl) y
/-- The one store to the accumulator cell covers it. -/
theorem cover0_B_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (y : S1x1.Idx) : ∃ pc ∈ (kernelRun0_B c i arg1 harg1 arg2 harg2 arg3 harg3 arg4 harg4 arg5 harg5 hc0 x0 x1 xo).2.2.1, y ∈ pc.1.set :=
  View.cover_of_tiledL (kernelRun0_B c i arg1 harg1 arg2 harg2 arg3 harg3 arg4 harg4 arg5 harg5 hc0 x0 x1 xo).2.2.1 S1x1.size (by sl_kernel_rfl) y

/-- The first bf16 block ends at the rounded normalised rows of the first input block. -/
theorem left0_B_3 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (f : arg3.view.ty.Contents (Elt F)) :
    arg3.view.read (Elt F) (arg3.view.writes (Elt F) f (kernelRun0_B c i arg1 harg1 arg2 harg2 arg3 harg3 arg4 harg4 arg5 harg5 hc0 x0 x1 xo).1) = k0_pay5 x0 := by
  rw [View.read_writes_eq_canon _ _ _ (cover0_B_3 c i arg1 harg1 arg2 harg2 arg3 harg3 arg4 harg4 arg5 harg5 hc0 x0 x1 xo)]
  unfold kernelRun0_B
  dsimp only
  sl_unfold_words
  rw [View.canon_unit_zero hz0]
  simp only [View.readAt_eq_ld, harg1.read_unread, harg2.read_unread, View.ld_unit_zero (S := S1024x128) hz0]

/-- The second bf16 block ends at the rounded normalised rows of the second input block. -/
theorem left0_B_4 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (f : arg4.view.ty.Contents (Elt F)) :
    arg4.view.read (Elt F) (arg4.view.writes (Elt F) f (kernelRun0_B c i arg1 harg1 arg2 harg2 arg3 harg3 arg4 harg4 arg5 harg5 hc0 x0 x1 xo).2.1) = k0_pay6 x1 := by
  rw [View.read_writes_eq_canon _ _ _ (cover0_B_4 c i arg1 harg1 arg2 harg2 arg3 harg3 arg4 harg4 arg5 harg5 hc0 x0 x1 xo)]
  unfold kernelRun0_B
  dsimp only
  sl_unfold_words
  rw [View.canon_unit_zero hz0]
  simp only [View.readAt_eq_ld, harg1.read_unread, harg2.read_unread, View.ld_unit_zero (S := S1024x128) hz0]

/-- The cell ends at the block's sum added to what it held. -/
theorem left0_B_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1 .f32) (harg5 : arg5.IsWhole) (hc0 : ¬cond0_0 i) (x0 : Vec F S1024x128 .f32) (x1 : Vec F S1024x128 .f32) (xo : Vec F S1x1 .f32) (f : arg5.view.ty.Contents (Elt F)) :
    arg5.view.read (Elt F) (arg5.view.writes (Elt F) f (kernelRun0_B c i arg1 harg1 arg2 harg2 arg3 harg3 arg4 harg4 arg5 harg5 hc0 x0 x1 xo).2.2.1) = k0_pay4 x0 x1 xo := by
  rw [View.read_writes_eq_canon _ _ _ (cover0_B_5 c i arg1 harg1 arg2 harg2 arg3 harg3 arg4 harg4 arg5 harg5 hc0 x0 x1 xo)]
  unfold kernelRun0_B
  dsimp only
  sl_unfold_words
  rw [View.canon_unit_zero hz0]
  simp only [View.readAt_eq_ld, harg1.read_unread, harg2.read_unread, harg5.read_unread, View.ld_unit_zero (S := S1024x128) hz0, View.ld_unit_zero (S := S1x1) hz0]

end Cert.KernelIdeal.Hand

end
-- ==== Proof.R0Dat.lean ====
/-
  The first kernel region's body obligation: at every grid point the body, run on the staging buffers
  the pipeline hands it (the two inputs' at their blocks, the accumulator's at what the point before
  left, or at anything at the first point), leaves what the region's proof data say: the inputs'
  buffers as they were, the two bf16 buffers at the rounded normalised rows of the input blocks, the
  accumulator's at the running sum of the blocks' squared differences up to and including the point.
-/
import proofs.«107127_j34162169872914_1_alg».proof.Proof.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging buffers the body is called on -/

/-- Each window's current staging buffer at point `t`, at its literal block type, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-! ## What the buffers hold when the body is called -/

/-- The first input's buffer holds its block at every point: it is fetched at every point, and the
    body leaves it as it was. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second input's buffer likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a point other than the first the accumulator's buffer holds the running sum the point before
    left: the cell is written back only after the last point, so nothing touched it in between. -/
theorem before0_4_B (c : Dev nD) (t : Fin cfg0.N) (h0 : ¬t.val % 8 = 0) (d) :
    (dat0 V c).before 4 t d = acc0 V c (t.val - 1) (Nat.lt_of_le_of_lt (Nat.sub_le _ _) t.isLt) := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  exact after0_4 V c _

/-! ## The running sum, point by point -/

/-- At the first point the running sum is the block's sum added to zero. -/
theorem acc0_A (c : Dev nD) (t : Fin cfg0.N) (h0 : t.val % 8 = 0) :
    acc0 V c t.val t.isLt = k0_pay4 (iblk0 V c 0 t) (iblk0 V c 1 t) (k0_pay1 (F := F)) := by
  have hN : t.val < 8 := lt_of_lt_of_eq t.isLt (show cfg0.N = 8 from N_0)
  obtain ⟨n, hn⟩ := t
  cases n with
  | zero => exact rfl
  | succ n => exact (by exfalso; dsimp only at h0 hN; omega)

/-- At a later point it is the block's sum added to the running sum of the point before. -/
theorem acc0_B (c : Dev nD) (t : Fin cfg0.N) (h0 : ¬t.val % 8 = 0) :
    acc0 V c t.val t.isLt = k0_pay4 (iblk0 V c 0 t) (iblk0 V c 1 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point. The inputs' buffers hold their blocks; the point is the first or not; at
    the first the accumulator's buffer may hold anything and ends at the block's sum added to zero, at
    a later one it holds the running sum of the point before and ends at the block's sum added to it;
    the bf16 buffers end at the rounded normalised rows either way; the invariant and what the core
    owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 8 := lt_of_lt_of_eq t.isLt (show cfg0.N = 8 from N_0)
  by_cases h0 : t.val % 8 = 0
  · rw [acc0_A V c t h0]
    iintro ⟨HΦ, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact left0_A_3 c (grid0.coords t) (ms0_0 t) (hs0_0 t) (ms0_1 t) (hs0_1 t) (ms0_2 t) (hs0_2 t) (ms0_3 t) (hs0_3 t) (ms0_4 t) (hs0_4 t)
        ((hcond0_0 t).mpr h0) (iblk0 V c 0 t) (iblk0 V c 1 t) e2
    isplitl [H3]
    · unfold owns; iexists _; isplitr
      swap; · iexact H3
      ipureintro
      exact left0_A_4 c (grid0.coords t) (ms0_0 t) (hs0_0 t) (ms0_1 t) (hs0_1 t) (ms0_2 t) (hs0_2 t) (ms0_3 t) (hs0_3 t) (ms0_4 t) (hs0_4 t)
        ((hcond0_0 t).mpr h0) (iblk0 V c 0 t) (iblk0 V c 1 t) e3
    unfold owns; iexists _; isplitr
    swap; · iexact H4
    ipureintro
    exact left0_A_5 c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t) e4
  · rw [acc0_B V c t h0]
    simp only [before0_4_B V c t h0]
    iintro ⟨HΦ, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t)
      (acc0 V c (t.val - 1) (Nat.lt_of_le_of_lt (Nat.sub_le _ _) t.isLt))).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact left0_B_3 c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (iblk0 V c 0 t) (iblk0 V c 1 t)
        (acc0 V c (t.val - 1) (Nat.lt_of_le_of_lt (Nat.sub_le _ _) t.isLt)) e2
    isplitl [H3]
    · unfold owns; iexists _; isplitr
      swap; · iexact H3
      ipureintro
      exact left0_B_4 c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (iblk0 V c 0 t) (iblk0 V c 1 t)
        (acc0 V c (t.val - 1) (Nat.lt_of_le_of_lt (Nat.sub_le _ _) t.isLt)) e3
    unfold owns; iexists _; isplitr
    swap; · iexact H4
    ipureintro
    exact left0_B_5 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t)
      (acc0 V c (t.val - 1) (Nat.lt_of_le_of_lt (Nat.sub_le _ _) t.isLt)) e4

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Def.lean ====
/-
  A pairwise-potential kernel region (the first one: it reads the normalised q array through BOTH of
  its input windows) as the pipeline sees it, at the contents `V` the region is entered with. Point
  `(a, b)` of the 8 × 8 grid multiplies row block `a` by row block `b`, turns the 1024 × 1024 inner
  products into potentials and adds their sum to the one-cell accumulator, which the first point
  resets. The two input windows name one array, so each holds half of it.
-/
import proofs.«107127_j34162169872914_1_alg».proof.Proof.Gen.KernelIdeal.Launch
import proofs.«107127_j34162169872914_1_alg».proof.Proof.Gen.KernelIdeal.Skeleton
import proofs.«107127_j34162169872914_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator cell after point `n`: the first point starts from the zero it has just stored,
    every later point from what the point before left. -/
def acc1 (c : Dev nD) : (n : ℕ) → n < cfg1.N → Vec F S1x1 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- The region's proof data: the arrays as entered; after the body at point `t` the two inputs'
    buffers still at their blocks, the accumulator's at the running sum; nothing owed; the shared
    input array split in halves between the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.KernelIdeal.Hand

end
-- ==== Proof.R1Dat.lean ====
/-
  The first pairwise-potential region's body obligation: at every grid point the body, run on the
  staging buffers the pipeline hands it (the two inputs' at their blocks, fetched at this point or
  kept from an earlier one; the accumulator's at what the point before left, or at anything at the
  first point), leaves what the region's proof data say.

  The body resets the one-cell accumulator when both grid coordinates are zero, i.e. at the first of
  the 64 points only, and at every point adds the pairwise sum of its two row blocks to the cell. So
  there are two cases. At the first point the cell's buffer ends at the sum added to the zero just
  stored, whatever it held; at a later point it ends at the sum added to the running sum, which the
  buffer still holds because the cell is written back at the last point only. The matrix product and
  the potential stay inside the named payload throughout.
-/
import proofs.«107127_j34162169872914_1_alg».proof.Proof.R1Def
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset condition of the body, from the grid coordinates: both coordinates are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the 8 × 8 grid only. -/
theorem hcond1 : ∀ t : Fin cfg1.N, cond1 (grid1.coords t) ↔ t.val % 64 = 0 :=
  (by decide +kernel : ∀ t : Fin grid1.N, cond1 (grid1.coords t) ↔ t.val % 64 = 0)

set_option maxHeartbeats 1000000 in
/-- The first point: on whole staging memrefs, the two inputs' at `x0`, `x1` and the accumulator's at
    anything, the body runs to the continuation holding the inputs' as they were and the accumulator's
    with the pieces its two stores leave (the reset, then the sum over the reset read back). -/
noncomputable def kernelRun1_A (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond1 i)
    (x0 x1 : Vec F S1024x128 .bf16) :
    { L : List (View.Piece (Elt F) S1x1 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d)
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc1_pairwise_sum_kernel i a0 ha0 a1 ha1 a2 ha2) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%d2, %f2, -, H2⟩, Hk⟩
    obtain rfl := ha0.eq_unread hf0; obtain rfl := ha1.eq_unread hf1
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

set_option maxHeartbeats 1000000 in
/-- A later point: the same with the accumulator's buffer at the running sum `xo`, which the body's one
    store replaces by the sum over it. -/
noncomputable def kernelRun1_B (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond1 i)
    (x0 x1 : Vec F S1024x128 .bf16) (xo : Vec F S1x1 .f32) :
    { L : List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare xo
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc1_pairwise_sum_kernel i a0 ha0 a1 ha1 a2 ha2) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%f2, %hf2, H2⟩, Hk⟩
    obtain rfl := ha0.eq_unread hf0; obtain rfl := ha1.eq_unread hf1; obtain rfl := ha2.eq_unread hf2
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

/-! ## What the found pieces leave in the accumulator's buffer -/

/-- The first point's pieces (two stores of the whole cell) cover the cell. -/
theorem cover1_A (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond1 i)
    (x0 x1 : Vec F S1024x128 .bf16) (y : S1x1.Idx) :
    ∃ pc ∈ (kernelRun1_A c i a0 ha0 a1 ha1 a2 ha2 hc0 x0 x1).1, y ∈ pc.1.set :=
  View.cover_of_tiledL (kernelRun1_A c i a0 ha0 a1 ha1 a2 ha2 hc0 x0 x1).1 S1x1.size (by sl_kernel_rfl) y

/-- A later point's piece (one store of the whole cell) covers the cell. -/
theorem cover1_B (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond1 i)
    (x0 x1 : Vec F S1024x128 .bf16) (xo : Vec F S1x1 .f32) (y : S1x1.Idx) :
    ∃ pc ∈ (kernelRun1_B c i a0 ha0 a1 ha1 a2 ha2 hc0 x0 x1 xo).1, y ∈ pc.1.set :=
  View.cover_of_tiledL (kernelRun1_B c i a0 ha0 a1 ha1 a2 ha2 hc0 x0 x1 xo).1 S1x1.size (by sl_kernel_rfl) y

/-- The stores' and loads' offsets are all zero. -/
theorem zeros1_cell : (![0, 0] : Fin S1x1.rank → Nat) = fun _ => 0 := by funext a; fin_cases a <;> rfl
theorem zeros1_blk : (![0, 0] : Fin S1024x128.rank → Nat) = fun _ => 0 := by funext a; fin_cases a <;> rfl

/-- At the first point the accumulator's buffer, whatever it held, ends at the pairwise sum of the two
    blocks added to the zero the reset has just stored: the later store covers the cell, and the
    value it adds to is the reset's payload read back. -/
theorem left1_A (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond1 i)
    (x0 x1 : Vec F S1024x128 .bf16) (f : a2.view.ty.Contents (Elt F)) :
    a2.view.read (Elt F) (a2.view.writes (Elt F) f (kernelRun1_A c i a0 ha0 a1 ha1 a2 ha2 hc0 x0 x1).1)
      = k1_pay2 x0 x1 (k1_pay1 (F := F)) := by
  rw [View.read_writes_eq_canon _ _ _ (cover1_A c i a0 ha0 a1 ha1 a2 ha2 hc0 x0 x1)]
  unfold kernelRun1_A
  dsimp only
  sl_unfold_words
  rw [View.canon_cons_unit_zero (S := S1x1) zeros1_cell, View.readCov_unit_zero (S := S1x1) _ zeros1_cell]
  simp only [View.readAt_eq_ld, ha0.read_unread, ha1.read_unread, View.ld_unit_zero (S := S1024x128) zeros1_blk]

/-- At a later point the accumulator's buffer, holding the running sum `xo`, ends at the pairwise sum
    of the two blocks added to `xo`. -/
theorem left1_B (c : Dev nD) (i : grid1.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond1 i)
    (x0 x1 : Vec F S1024x128 .bf16) (xo : Vec F S1x1 .f32) (f : a2.view.ty.Contents (Elt F)) :
    a2.view.read (Elt F) (a2.view.writes (Elt F) f (kernelRun1_B c i a0 ha0 a1 ha1 a2 ha2 hc0 x0 x1 xo).1)
      = k1_pay2 x0 x1 xo := by
  rw [View.read_writes_eq_canon _ _ _ (cover1_B c i a0 ha0 a1 ha1 a2 ha2 hc0 x0 x1 xo)]
  unfold kernelRun1_B
  dsimp only
  sl_unfold_words
  rw [View.canon_unit_zero (S := S1x1) zeros1_cell]
  simp only [View.readAt_eq_ld, ha0.read_unread, ha1.read_unread, ha2.read_unread,
    View.ld_unit_zero (S := S1024x128) zeros1_blk, View.ld_unit_zero (S := S1x1) zeros1_cell]

variable (V : (c : Dev nD) → (b : Ref sig .tc) → Buf (Elt F) ((c : Thread nD τ).loc b))

/-! ## What the pipeline hands the body -/

/-- Each window's current staging memref at point `t`, spelled as the pipeline passes it, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-- The row-block window's buffer holds its block at every point, fetched there or not: it is fetched at
    the first point of each grid row only, and within a row its block index does not move. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The column-block window's buffer holds its block at every point (it is fetched at every point). -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At a point after the first the accumulator's buffer holds what the body left at the point before:
    the cell is written back at the last point only, so never in between. -/
theorem before1_2_B (c : Dev nD) (t : Fin cfg1.N) (h0 : ¬t.val % 64 = 0) (d) :
    (dat1 V c).before 2 t d = acc1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega)
    (Bool.eq_false_iff.mpr fun h => by have := (flush1_2 _).mp h; dsimp only at this; omega)
    (fun _ => rfl) (fun _ _ => rfl)]
  exact after1_2 V c _

/-- The running sum at the first point: the pairwise sum of its two blocks added to the reset's zero. -/
theorem acc1_A (c : Dev nD) (t : Fin cfg1.N) (h0 : t.val % 64 = 0) :
    acc1 V c t.val t.isLt = k1_pay2 (iblk1 V c 0 t) (iblk1 V c 1 t) (k1_pay1 (F := F)) := by
  have hN : t.val < 64 := lt_of_lt_of_eq t.isLt (show cfg1.N = 64 from N_1)
  obtain ⟨n, hn⟩ := t
  cases n with
  | zero => exact rfl
  | succ n => exact (by exfalso; dsimp only at h0 hN; omega)

/-- The running sum at a later point: the pairwise sum of its two blocks added to the sum so far. -/
theorem acc1_B (c : Dev nD) (t : Fin cfg1.N) (h0 : ¬t.val % 64 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; the point is the first or a later one;
    at a later one the accumulator's buffer holds the running sum the point before left; so the case's
    run applies, and what its pieces leave in the accumulator's buffer is the running sum at this point;
    the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 64 = 0
  · rw [acc1_A V c t h0]
    iintro ⟨HΦ, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t)
      ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left1_A c (grid1.coords t) (ms1_0 t) (hs1_0 t) (ms1_1 t) (hs1_1 t) (ms1_2 t) (hs1_2 t)
      ((hcond1 t).mpr h0) (iblk1 V c 0 t) (iblk1 V c 1 t) e2
  · rw [acc1_B V c t h0]
    simp only [before1_2_B V c t h0]
    iintro ⟨HΦ, Ho, ⟨%d0, H0⟩, ⟨%d1, H1⟩, ⟨%d2, H2⟩⟩
    iapply ((kernelRun1_B c (grid1.coords t) (ms1_0 t) (hs1_0 t) (ms1_1 t) (hs1_1 t) (ms1_2 t) (hs1_2 t)
      (fun h => h0 ((hcond1 t).mp h)) (iblk1 V c 0 t) (iblk1 V c 1 t)
      (acc1 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left1_B c (grid1.coords t) (ms1_0 t) (hs1_0 t) (ms1_1 t) (hs1_1 t) (ms1_2 t) (hs1_2 t)
      (fun h => h0 ((hcond1 t).mp h)) (iblk1 V c 0 t) (iblk1 V c 1 t)
      (acc1 V c (t.val - 1) (Nat.lt_of_le_of_lt (Nat.sub_le _ _) t.isLt)) e2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2Def.lean ====
/-
  A pairwise-potential kernel region (the second one: it reads the normalised k array through BOTH of
  its input windows) as the pipeline sees it, at the contents `V` the region is entered with. Point
  `(a, b)` of the 8 × 8 grid multiplies row block `a` by row block `b`, turns the 1024 × 1024 inner
  products into potentials and adds their sum to the one-cell accumulator, which the first point
  resets. The two input windows name one array, so each holds half of it.
-/
import proofs.«107127_j34162169872914_1_alg».proof.Proof.Gen.KernelIdeal.Launch
import proofs.«107127_j34162169872914_1_alg».proof.Proof.Gen.KernelIdeal.Skeleton
import proofs.«107127_j34162169872914_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator cell after point `n`: the first point starts from the zero it has just stored,
    every later point from what the point before left. -/
def acc2 (c : Dev nD) : (n : ℕ) → n < cfg2.N → Vec F S1x1 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (acc2 c n (Nat.lt_of_succ_lt hn))

theorem acc2_zero (c : Dev nD) (hn : 0 < cfg2.N) :
    acc2 V c 0 hn = k2_pay2 (iblk2 V c 0 ⟨0, hn⟩) (iblk2 V c 1 ⟨0, hn⟩) (k2_pay1 (F := F)) := rfl
theorem acc2_succ (c : Dev nD) (n : ℕ) (hn : n + 1 < cfg2.N) :
    acc2 V c (n + 1) hn = k2_pay2 (iblk2 V c 0 ⟨n + 1, hn⟩) (iblk2 V c 1 ⟨n + 1, hn⟩) (acc2 V c n (Nat.lt_of_succ_lt hn)) := rfl

/-- The region's proof data: the arrays as entered; after the body at point `t` the two inputs'
    buffers still at their blocks, the accumulator's at the running sum; nothing owed; the shared
    input array split in halves between the two windows that read it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

end Cert.KernelIdeal.Hand

end
-- ==== Proof.R2Dat.lean ====
/-
  The second pairwise-potential region's body obligation: at every grid point the body, run on the
  staging buffers the pipeline hands it (the two inputs' at their blocks, fetched at this point or
  kept from an earlier one; the accumulator's at what the point before left, or at anything at the
  first point), leaves what the region's proof data say.

  The body resets the one-cell accumulator when both grid coordinates are zero, i.e. at the first of
  the 64 points only, and at every point adds the pairwise sum of its two row blocks to the cell. So
  there are two cases. At the first point the cell's buffer ends at the sum added to the zero just
  stored, whatever it held; at a later point it ends at the sum added to the running sum, which the
  buffer still holds because the cell is written back at the last point only. The matrix product and
  the potential stay inside the named payload throughout.
-/
import proofs.«107127_j34162169872914_1_alg».proof.Proof.R2Def
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset condition of the body, from the grid coordinates: both coordinates are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the 8 × 8 grid only. -/
theorem hcond2 : ∀ t : Fin cfg2.N, cond2 (grid2.coords t) ↔ t.val % 64 = 0 :=
  (by decide +kernel : ∀ t : Fin grid2.N, cond2 (grid2.coords t) ↔ t.val % 64 = 0)

set_option maxHeartbeats 1000000 in
/-- The first point: on whole staging memrefs, the two inputs' at `x0`, `x1` and the accumulator's at
    anything, the body runs to the continuation holding the inputs' as they were and the accumulator's
    with the pieces its two stores leave (the reset, then the sum over the reset read back). -/
noncomputable def kernelRun2_A (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond2 i)
    (x0 x1 : Vec F S1024x128 .bf16) :
    { L : List (View.Piece (Elt F) S1x1 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d)
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc2_pairwise_sum_kernel i a0 ha0 a1 ha1 a2 ha2) K } := by
  refine ⟨?_, fun E K => ?run⟩
  case run =>
    simp only [cc2_pairwise_sum_kernel_eq_skeleton]; unfold cc2_pairwise_sum_kernel_skel
    unfold owns
    iintro ⟨⟨%f0, %hf0, H0⟩, ⟨%f1, %hf1, H1⟩, ⟨%d2, %f2, -, H2⟩, Hk⟩
    obtain rfl := ha0.eq_unread hf0; obtain rfl := ha1.eq_unread hf1
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

set_option maxHeartbeats 1000000 in
/-- A later point: the same with the accumulator's buffer at the running sum `xo`, which the body's one
    store replaces by the sum over it. -/
noncomputable def kernelRun2_B (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond2 i)
    (x0 x1 : Vec F S1024x128 .bf16) (xo : Vec F S1x1 .f32) :
    { L : List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare xo
            ∗ (iprop(owns (c : Thread nD τ) a0 fullShare x0 ∗ owns (c : Thread nD τ) a1 fullShare x1
                ∗ (∃ f, a2.view.loc (c : Thread nD τ) ↦[a2.view.set]{fullShare} a2.view.writes (Elt F) f L)) -∗ K ⟨⟩))
          ⊢ wp frame (wpE (defs₀ (F := F)) Variants.none c none) E (cc2_pairwise_sum_kernel i a0 ha0 a1 ha1 a2 ha2) K } := by
  refine ⟨?_, fun E K => ?run⟩
  case run =>
    simp only [cc2_pairwise_sum_kernel_eq_skeleton]; unfold cc2_pairwise_sum_kernel_skel
    unfold owns
    iintro ⟨⟨%f0, %hf0, H0⟩, ⟨%f1, %hf1, H1⟩, ⟨%f2, %hf2, H2⟩, Hk⟩
    obtain rfl := ha0.eq_unread hf0; obtain rfl := ha1.eq_unread hf1; obtain rfl := ha2.eq_unread hf2
    sl_exec (disch := first | exact hc0)
    sl_step
    iapply Hk
    isplitl [H0]
    · iexists _; isplitr; · ipureintro; exact ha0.read_unread _
      iexact H0
    isplitl [H1]
    · iexists _; isplitr; · ipureintro; exact ha1.read_unread _
      iexact H1
    iexists _; iexact H2

/-! ## What the found pieces leave in the accumulator's buffer -/

/-- The first point's pieces (two stores of the whole cell) cover the cell. -/
theorem cover2_A (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond2 i)
    (x0 x1 : Vec F S1024x128 .bf16) (y : S1x1.Idx) :
    ∃ pc ∈ (kernelRun2_A c i a0 ha0 a1 ha1 a2 ha2 hc0 x0 x1).1, y ∈ pc.1.set :=
  View.cover_of_tiledL (kernelRun2_A c i a0 ha0 a1 ha1 a2 ha2 hc0 x0 x1).1 S1x1.size (by sl_kernel_rfl) y

/-- A later point's piece (one store of the whole cell) covers the cell. -/
theorem cover2_B (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond2 i)
    (x0 x1 : Vec F S1024x128 .bf16) (xo : Vec F S1x1 .f32) (y : S1x1.Idx) :
    ∃ pc ∈ (kernelRun2_B c i a0 ha0 a1 ha1 a2 ha2 hc0 x0 x1 xo).1, y ∈ pc.1.set :=
  View.cover_of_tiledL (kernelRun2_B c i a0 ha0 a1 ha1 a2 ha2 hc0 x0 x1 xo).1 S1x1.size (by sl_kernel_rfl) y

/-- The stores' and loads' offsets are all zero. -/
theorem zeros2_cell : (![0, 0] : Fin S1x1.rank → Nat) = fun _ => 0 := by funext a; fin_cases a <;> rfl
theorem zeros2_blk : (![0, 0] : Fin S1024x128.rank → Nat) = fun _ => 0 := by funext a; fin_cases a <;> rfl

/-- At the first point the accumulator's buffer, whatever it held, ends at the pairwise sum of the two
    blocks added to the zero the reset has just stored: the later store covers the cell, and the
    value it adds to is the reset's payload read back. -/
theorem left2_A (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : cond2 i)
    (x0 x1 : Vec F S1024x128 .bf16) (f : a2.view.ty.Contents (Elt F)) :
    a2.view.read (Elt F) (a2.view.writes (Elt F) f (kernelRun2_A c i a0 ha0 a1 ha1 a2 ha2 hc0 x0 x1).1)
      = k2_pay2 x0 x1 (k2_pay1 (F := F)) := by
  rw [View.read_writes_eq_canon _ _ _ (cover2_A c i a0 ha0 a1 ha1 a2 ha2 hc0 x0 x1)]
  unfold kernelRun2_A
  dsimp only
  sl_unfold_words
  rw [View.canon_cons_unit_zero (S := S1x1) zeros2_cell, View.readCov_unit_zero (S := S1x1) _ zeros2_cell]
  simp only [View.readAt_eq_ld, ha0.read_unread, ha1.read_unread, View.ld_unit_zero (S := S1024x128) zeros2_blk]

/-- At a later point the accumulator's buffer, holding the running sum `xo`, ends at the pairwise sum
    of the two blocks added to `xo`. -/
theorem left2_B (c : Dev nD) (i : grid2.Coords)
    (a0 : Memref sig .tc .vmem S1024x128 .bf16) (ha0 : a0.IsWhole) (a1 : Memref sig .tc .vmem S1024x128 .bf16) (ha1 : a1.IsWhole)
    (a2 : Memref sig .tc .vmem S1x1 .f32) (ha2 : a2.IsWhole) (hc0 : ¬cond2 i)
    (x0 x1 : Vec F S1024x128 .bf16) (xo : Vec F S1x1 .f32) (f : a2.view.ty.Contents (Elt F)) :
    a2.view.read (Elt F) (a2.view.writes (Elt F) f (kernelRun2_B c i a0 ha0 a1 ha1 a2 ha2 hc0 x0 x1 xo).1)
      = k2_pay2 x0 x1 xo := by
  rw [View.read_writes_eq_canon _ _ _ (cover2_B c i a0 ha0 a1 ha1 a2 ha2 hc0 x0 x1 xo)]
  unfold kernelRun2_B
  dsimp only
  sl_unfold_words
  rw [View.canon_unit_zero (S := S1x1) zeros2_cell]
  simp only [View.readAt_eq_ld, ha0.read_unread, ha1.read_unread, ha2.read_unread,
    View.ld_unit_zero (S := S1024x128) zeros2_blk, View.ld_unit_zero (S := S1x1) zeros2_cell]

variable (V : (c : Dev nD) → (b : Ref sig .tc) → Buf (Elt F) ((c : Thread nD τ).loc b))

/-! ## What the pipeline hands the body -/

/-- Each window's current staging memref at point `t`, spelled as the pipeline passes it, and its wholeness. -/
abbrev ms2_0 (t : Fin cfg2.N) : Memref sig .tc .vmem S1024x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

/-- The row-block window's buffer holds its block at every point, fetched there or not: it is fetched at
    the first point of each grid row only, and within a row its block index does not move. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The column-block window's buffer holds its block at every point (it is fetched at every point). -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- At a point after the first the accumulator's buffer holds what the body left at the point before:
    the cell is written back at the last point only, so never in between. -/
theorem before2_2_B (c : Dev nD) (t : Fin cfg2.N) (h0 : ¬t.val % 64 = 0) (d) :
    (dat2 V c).before 2 t d = acc2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega)
    (Bool.eq_false_iff.mpr fun h => by have := (flush2_2 _).mp h; dsimp only at this; omega)
    (fun _ => rfl) (fun _ _ => rfl)]
  exact after2_2 V c _

/-- The running sum at the first point: the pairwise sum of its two blocks added to the reset's zero. -/
theorem acc2_A (c : Dev nD) (t : Fin cfg2.N) (h0 : t.val % 64 = 0) :
    acc2 V c t.val t.isLt = k2_pay2 (iblk2 V c 0 t) (iblk2 V c 1 t) (k2_pay1 (F := F)) := by
  have hN : t.val < 64 := lt_of_lt_of_eq t.isLt (show cfg2.N = 64 from N_2)
  obtain ⟨n, hn⟩ := t
  cases n with
  | zero => exact rfl
  | succ n => exact (by exfalso; dsimp only at h0 hN; omega)

/-- The running sum at a later point: the pairwise sum of its two blocks added to the sum so far. -/
theorem acc2_B (c : Dev nD) (t : Fin cfg2.N) (h0 : ¬t.val % 64 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' buffers hold their blocks; the point is the first or a later one;
    at a later one the accumulator's buffer holds the running sum the point before left; so the case's
    run applies, and what its pieces leave in the accumulator's buffer is the running sum at this point;
    the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val % 64 = 0
  · rw [acc2_A V c t h0]
    iintro ⟨HΦ, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t)
      ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left2_A c (grid2.coords t) (ms2_0 t) (hs2_0 t) (ms2_1 t) (hs2_1 t) (ms2_2 t) (hs2_2 t)
      ((hcond2 t).mpr h0) (iblk2 V c 0 t) (iblk2 V c 1 t) e2
  · rw [acc2_B V c t h0]
    simp only [before2_2_B V c t h0]
    iintro ⟨HΦ, Ho, ⟨%d0, H0⟩, ⟨%d1, H1⟩, ⟨%d2, H2⟩⟩
    iapply ((kernelRun2_B c (grid2.coords t) (ms2_0 t) (hs2_0 t) (ms2_1 t) (hs2_1 t) (ms2_2 t) (hs2_2 t)
      (fun h => h0 ((hcond2 t).mp h)) (iblk2 V c 0 t) (iblk2 V c 1 t)
      (acc2 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact left2_B c (grid2.coords t) (ms2_0 t) (hs2_0 t) (ms2_1 t) (hs2_1 t) (ms2_2 t) (hs2_2 t)
      (fun h => h0 ((hcond2 t).mp h)) (iblk2 V c 0 t) (iblk2 V c 1 t)
      (acc2 V c (t.val - 1) (Nat.lt_of_le_of_lt (Nat.sub_le _ _) t.isLt)) e2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Segs.lean ====
/-
  The three kernel regions as segments of the program's run. The contents of the core's unscoped
  buffers at each boundary: as launched; after the first region (its three results at what its
  write-backs leave); after each pairwise region (its result cell at what its last point writes
  back); after the closing scalar operations. Each region is entered from all unscoped buffers held
  at the boundary's contents and left the same way; the two windows of a pairwise region read ONE
  array, which is split in halves between them on entry and joined again on exit.
-/
import proofs.«107127_j34162169872914_1_alg».proof.Proof.R0Dat
import proofs.«107127_j34162169872914_1_alg».proof.Proof.R1Dat
import proofs.«107127_j34162169872914_1_alg».proof.Proof.R2Dat
import proofs.«107127_j34162169872914_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- At launch. -/
abbrev W0 : Dev nD → Valuation τ sig (Elt F) := fun c b => m (c, b)
/-- The same read at the TensorCore's references: what the first region's proof data take. -/
abbrev E0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (E0 m) c).arrAt w cfg0.N
abbrev E1 : (c : Dev nD) → (b : Ref sig .tc) → Buf (Elt F) ((c : Thread nD τ).loc b) := fun c b => W1 m c b
/-- After the first pairwise region: its result cell at what the last point writes back. -/
def W2 (c : Dev nD) : Valuation τ sig (Elt F) :=
  Function.update (W1 m c) main_v1 ((dat1 (E1 m) c).arrAt 2 cfg1.N)
abbrev E2 : (c : Dev nD) → (b : Ref sig .tc) → Buf (Elt F) ((c : Thread nD τ).loc b) := fun c b => W2 m c b
/-- After the second pairwise region. -/
def W3 (c : Dev nD) : Valuation τ sig (Elt F) :=
  Function.update (W2 m c) main_v2 ((dat2 (E2 m) c).arrAt 2 cfg2.N)
abbrev E3 : (c : Dev nD) → (b : Ref sig .tc) → Buf (Elt F) ((c : Thread nD τ).loc b) := fun c b => W3 m c b
/-- After the closing scalar operations. -/
abbrev W4 : Dev nD → Valuation τ sig (Elt F) := fun c => StableHlo.after hostOps3 (W3 m c)

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_v1 (c : Dev nD) : W2 m c (Proc.devRef .tc main_v1) = (dat1 (E1 m) c).arrAt 2 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_v2 (c : Dev nD) : W3 m c (Proc.devRef .tc main_v2) = (dat2 (E2 m) c).arrAt 2 cfg2.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the first region's exit each of its arrays holds what the pipeline leaves and every other buffer what it held at entry. -/
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-! ## A shared array on entry and on exit -/

/-- On entry to the first pairwise region the buffers behind its windows' arrays — the shared input array and the
    result cell, each whole — are the pipeline's arrays: the input array split in halves between the two windows. -/
theorem split1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [show Finset.univ.image (Pipeline.arrRef spec1) = {main_v0_0, main_v1} from by decide, BI.bigSep_insert (by decide), BI.bigSep_singleton, bigSep_W1]
  rw [(arr_whole1 0).set_eq_univ, (arr_whole1 2).set_eq_univ]
  show iprop(((c : Thread nD τ).loc main_v0_0 ↦{fullShare} V c main_v0_0) ∗ ((c : Thread nD τ).loc main_v1 ↦{fullShare} V c main_v1)) ⊢
    iprop(((c : Thread nD τ).loc main_v0_0 ↦{fullShare.left} V c main_v0_0) ∗ ((c : Thread nD τ).loc main_v0_0 ↦{fullShare.right} V c main_v0_0) ∗ ((c : Thread nD τ).loc main_v1 ↦{fullShare} V c main_v1))
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- The reverse at the exit: the two halves of the shared input array and the result cell at its final contents,
    beside the other unscoped buffers as entered, are all unscoped buffers at the exit contents. -/
theorem join1 (V V' : (c : Dev nD) → (b : Ref sig .tc) → Buf (Elt F) ((c : Thread nD τ).loc b)) (c : Dev nD)
    (h1 : V' c main_v1 = (dat1 V c).arrAt 2 cfg1.N) (hrest : ∀ b : Ref sig .tc, b ≠ main_v1 → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c (V' c) : sProp 𝕄) := by
  rw [Pipeline.unscopedBufs_split₀ (cfgs) 1 (by decide) c (V' c)]
  unfold Pipeline.arrBufs Dat.arrays
  rw [show Finset.univ.image (Pipeline.arrRef (cfgs 1).spec) = {main_v0_0, main_v1} from by decide, BI.bigSep_insert (by decide), BI.bigSep_singleton, bigSep_W1]
  rw [(arr_whole1 0).set_eq_univ, (arr_whole1 2).set_eq_univ]
  have e0 : (dat1 V c).arrAt 0 cfg1.N = V' c main_v0_0 := ((dat1 V c).arrAt_in 0 rfl _).trans ((A_eq1 V c 0).trans (hrest main_v0_0 (by decide)).symm)
  have e1 : (dat1 V c).arrAt 1 cfg1.N = V' c main_v0_0 := ((dat1 V c).arrAt_in 1 rfl _).trans ((A_eq1 V c 1).trans (hrest main_v0_0 (by decide)).symm)
  have er : (Pipeline.unscopedRest (Ix := Unit) (Name := ℕ) (U := UR sig nD τ) (Lvl := ℕ) spec1 c (V c) : sProp 𝕄) = Pipeline.unscopedRest (cfgs 1).spec c (V' c) := by
    unfold Pipeline.unscopedRest
    exact BI.bigSep_congr fun b hb => by
      rw [hrest b (fun e => (Finset.mem_sdiff.mp hb).2 (Finset.mem_image.mpr ⟨2, Finset.mem_univ _, e.symm⟩))]
  rw [er]
  show iprop((((c : Thread nD τ).loc main_v0_0 ↦{fullShare.left} (dat1 V c).arrAt 0 cfg1.N) ∗ ((c : Thread nD τ).loc main_v0_0 ↦{fullShare.right} (dat1 V c).arrAt 1 cfg1.N) ∗ ((c : Thread nD τ).loc main_v1 ↦{fullShare} (dat1 V c).arrAt 2 cfg1.N)) ∗ Pipeline.unscopedRest (cfgs 1).spec c (V' c)) ⊢
    iprop((((c : Thread nD τ).loc main_v0_0 ↦{fullShare} V' c main_v0_0) ∗ ((c : Thread nD τ).loc main_v1 ↦{fullShare} V' c main_v1)) ∗ Pipeline.unscopedRest (cfgs 1).spec c (V' c))
  rw [e0, e1, h1]
  iintro ⟨⟨Hl, Hr, H1⟩, Hrest⟩
  isplitr [Hrest]
  · isplitl [Hl Hr]
    · iapply (pointsTo_share (PosShare.mem_left_op_right fullShare)).2
      isplitl [Hl] <;> iassumption
    iexact H1
  iexact Hrest

/-- On entry to the second pairwise region the buffers behind its windows' arrays — the shared input array and the
    result cell, each whole — are the pipeline's arrays: the input array split in halves between the two windows. -/
theorem split2 (V : (c : Dev nD) → (b : Ref sig .tc) → Buf (Elt F) ((c : Thread nD τ).loc b)) (c : Dev nD) :
    (Pipeline.arrBufs (Ix := Unit) (Name := ℕ) (U := UR sig nD τ) (Lvl := ℕ) spec2 c (V c) : sProp 𝕄) ⊢ (dat2 V c).arrays ((dat2 V c).arrAt · 0) := by
  unfold Pipeline.arrBufs Dat.arrays
  rw [show Finset.univ.image (Pipeline.arrRef spec2) = {main_v0_1, main_v2} from by decide, BI.bigSep_insert (by decide), BI.bigSep_singleton, bigSep_W2]
  rw [(arr_whole2 0).set_eq_univ, (arr_whole2 2).set_eq_univ]
  show iprop(((c : Thread nD τ).loc main_v0_1 ↦{fullShare} V c main_v0_1) ∗ ((c : Thread nD τ).loc main_v2 ↦{fullShare} V c main_v2)) ⊢
    iprop(((c : Thread nD τ).loc main_v0_1 ↦{fullShare.left} V c main_v0_1) ∗ ((c : Thread nD τ).loc main_v0_1 ↦{fullShare.right} V c main_v0_1) ∗ ((c : Thread nD τ).loc main_v2 ↦{fullShare} V c main_v2))
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- The reverse at the exit: the two halves of the shared input array and the result cell at its final contents,
    beside the other unscoped buffers as entered, are all unscoped buffers at the exit contents. -/
theorem join2 (V V' : (c : Dev nD) → (b : Ref sig .tc) → Buf (Elt F) ((c : Thread nD τ).loc b)) (c : Dev nD)
    (h1 : V' c main_v2 = (dat2 V c).arrAt 2 cfg2.N) (hrest : ∀ b : Ref sig .tc, b ≠ main_v2 → V' c b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c (V' c) : sProp 𝕄) := by
  rw [Pipeline.unscopedBufs_split₀ (cfgs) 2 (by decide) c (V' c)]
  unfold Pipeline.arrBufs Dat.arrays
  rw [show Finset.univ.image (Pipeline.arrRef (cfgs 2).spec) = {main_v0_1, main_v2} from by decide, BI.bigSep_insert (by decide), BI.bigSep_singleton, bigSep_W2]
  rw [(arr_whole2 0).set_eq_univ, (arr_whole2 2).set_eq_univ]
  have e0 : (dat2 V c).arrAt 0 cfg2.N = V' c main_v0_1 := ((dat2 V c).arrAt_in 0 rfl _).trans ((A_eq2 V c 0).trans (hrest main_v0_1 (by decide)).symm)
  have e1 : (dat2 V c).arrAt 1 cfg2.N = V' c main_v0_1 := ((dat2 V c).arrAt_in 1 rfl _).trans ((A_eq2 V c 1).trans (hrest main_v0_1 (by decide)).symm)
  have er : (Pipeline.unscopedRest (Ix := Unit) (Name := ℕ) (U := UR sig nD τ) (Lvl := ℕ) spec2 c (V c) : sProp 𝕄) = Pipeline.unscopedRest (cfgs 2).spec c (V' c) := by
    unfold Pipeline.unscopedRest
    exact BI.bigSep_congr fun b hb => by
      rw [hrest b (fun e => (Finset.mem_sdiff.mp hb).2 (Finset.mem_image.mpr ⟨2, Finset.mem_univ _, e.symm⟩))]
  rw [er]
  show iprop((((c : Thread nD τ).loc main_v0_1 ↦{fullShare.left} (dat2 V c).arrAt 0 cfg2.N) ∗ ((c : Thread nD τ).loc main_v0_1 ↦{fullShare.right} (dat2 V c).arrAt 1 cfg2.N) ∗ ((c : Thread nD τ).loc main_v2 ↦{fullShare} (dat2 V c).arrAt 2 cfg2.N)) ∗ Pipeline.unscopedRest (cfgs 2).spec c (V' c)) ⊢
    iprop((((c : Thread nD τ).loc main_v0_1 ↦{fullShare} V' c main_v0_1) ∗ ((c : Thread nD τ).loc main_v2 ↦{fullShare} V' c main_v2)) ∗ Pipeline.unscopedRest (cfgs 2).spec c (V' c))
  rw [e0, e1, h1]
  iintro ⟨⟨Hl, Hr, H1⟩, Hrest⟩
  isplitr [Hrest]
  · isplitl [Hl Hr]
    · iapply (pointsTo_share (PosShare.mem_left_op_right fullShare)).2
      isplitl [Hl] <;> iassumption
    iexact H1
  iexact Hrest

/-! ## The regions as segments -/

set_option backward.isDefEq.respectTransparency.types false in
/-- THE FIRST REGION over the thread state: entered from every unscoped buffer at the launch contents, left at
    `W1`. Its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FIRST PAIRWISE REGION over the thread state: entered from every unscoped buffer at `W1`, left at `W2`.
    The shared input array is split between its two windows on entry (`split1`) and joined on exit (`join1`); the
    generator register goes into the invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄) ⊢ iprop((pdats m 1 c).arrays ((pdats m 1 c).arrAt · 0)
        ∗ Pipeline.unscopedRest (Ix := Unit) (Name := ℕ) (U := UR sig nD τ) (Lvl := ℕ) spec1 c (E1 m c)) := by
      rw [Pipeline.unscopedBufs_split₀ (cfgs) 1 (by decide) c (E1 m c)]
      exact sep_mono (split1 (E1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (E1 m c)) ⊢ (unscopedBufs c (E2 m c) : sProp 𝕄) :=
      join1 (E1 m) (E2 m) c (W2_v1 m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PAIRWISE REGION over the thread state: entered from every unscoped buffer at `W2`, left at `W3`.
    The shared input array is split between its two windows on entry (`split2`) and joined on exit (`join2`); the
    generator register goes into the invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs c (E2 m c) : sProp 𝕄) ⊢ iprop((pdats m 2 c).arrays ((pdats m 2 c).arrAt · 0)
        ∗ Pipeline.unscopedRest (Ix := Unit) (Name := ℕ) (U := UR sig nD τ) (Lvl := ℕ) spec2 c (E2 m c)) := by
      rw [Pipeline.unscopedBufs_split₀ (cfgs) 2 (by decide) c (E2 m c)]
      exact sep_mono (split2 (E2 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
        ∗ Pipeline.unscopedRest (Ix := Unit) (Name := ℕ) (U := UR sig nD τ) (Lvl := ℕ) spec2 c (E2 m c)) ⊢ (unscopedBufs c (E3 m c) : sProp 𝕄) :=
      join2 (E2 m) (E3 m) c (W3_v2 m c) (fun b hb => W3_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/-
   The program's run. @main is the three kernel regions and then the closing scalar operations; from any
   memory with zero counters every weakly fair execution terminates, and every unscoped buffer ends at the
   contents the boundaries' fold gives (`W4`): in particular the arguments as launched and the result at the
   scalar arithmetic of the three regions' result cells. -/
import proofs.«107127_j34162169872914_1_alg».proof.Proof.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The closing scalar operations as a segment over the unscoped buffers from `W3`. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) R

/-- @main's four segments in order. -/
abbrev segs : List (Pipeline.Seg (pcfgs (F := F)) adm (pdats m) () defs₀ 𝒱₀ L lv) :=
  [ .region (reg0 m), .region (reg1 m), .region (reg2 m), .host (hseg3 m) ]

/-- @main IS the run of the segments. -/
theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE RUN: every weakly fair execution of @main from `m` with zero counters terminates, nothing faulting, and every
    unscoped buffer of every core ends at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- No closing operation writes an argument, no pairwise region's result cell is one, and the first region only
    reads them through its input windows: the fold at an argument's buffer walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps3 _ hostOps3_writes (by decide)
    _ = W2 m c (Proc.devRef .tc main_arg0) := W3_of_ne m c main_arg0 (by decide)
    _ = W1 m c (Proc.devRef .tc main_arg0) := W2_of_ne m c main_arg0 (by decide)
    _ = m ((c : Thread nD τ).loc main_arg0) := (W1_arr m c 0).trans (((dat0 (E0 m) c).arrAt_in 0 rfl _).trans (A_eq0 (E0 m) c 0))
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps3 _ hostOps3_writes (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (W1_arr m c 1).trans (((dat0 (E0 m) c).arrAt_in 1 rfl _).trans (A_eq0 (E0 m) c 1))

/-- THE FRAME, at any float instance: the program runs to the end, faults nowhere, and its two argument arrays end
    holding what they were launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_main m ρ)

end Cert.KernelIdeal.Hand

end
-- ==== Proof.Spec.lean ====
/-
  The mathematics both programs compute, on the extended reals, stated once over the argument arrays.

  For an array `x` of 8192 rows of 128 entries: `ss x i` is the squared Euclidean norm of row `i`,
  `den x i = max (√(ss x i)) ε` the guarded norm, `nrm x` the rows divided by their guarded norms.
  For a normalised array `y`: `dot y i j = ⟨y_i, y_j⟩`, `e y i j = exp (-2 · max (2 - 2·⟨y_i, y_j⟩) 0)`,
  `pairS y` the sum of `e` over ALL ordered pairs, `triS y` the sum over the pairs `i < j` only;
  `alignS y z` is the sum over all entries of the squared difference.
  `tailK` is the scalar arithmetic the kernel's program ends with (it recovers the strict upper
  triangle from the full sum, `(P - N) / 2`), `tailR` the reference's (it divides the masked sum).
-/
import Idealize.ShloMosaic.PureOps.Ideal
import Idealize.ShloMosaic.Lib.ValueIdx

noncomputable section

namespace Cert.Spec

open Idealize.ShloMosaic Idealize.ShloMosaic.ValueIdx

/-- The shape of the two arguments. -/
abbrev SQ : Shape := ⟨2, ![8192, 128]⟩

/-- The literals of the two programs, as the extended reals their words denote. -/
def cEps : EReal := Ideal.ofBits .f32 0x2B8CBCCC#32     -- f32(1e-12)
def c0 : EReal := Ideal.ofBits .f32 0x00000000#32       -- 0
def c1 : EReal := Ideal.ofBits .f32 0x3F800000#32       -- 1
def c2 : EReal := Ideal.ofBits .f32 0x40000000#32       -- 2
def cm2 : EReal := Ideal.ofBits .f32 0xC0000000#32      -- -2
def cN : EReal := Ideal.ofBits .f32 0x46000000#32       -- 8192
def cNp : EReal := Ideal.ofBits .f32 0x4BFFF800#32      -- 8192·8191/2 = 33550336

/-- The squared norm of row `i`. -/
def ss (x : SQ.Idx → EReal) (i : Fin 8192) : EReal := ∑ d : Fin 128, x (ix2 i d) * x (ix2 i d)
/-- The guarded norm of row `i`. -/
def den (x : SQ.Idx → EReal) (i : Fin 8192) : EReal := max (Ideal.sqrt (ss x i)) cEps
/-- The rows divided by their guarded norms. -/
def nrm (x : SQ.Idx → EReal) : SQ.Idx → EReal := fun j => Ideal.div (x j) (den x ⟨(j 0).val, (j 0).isLt⟩)
/-- The inner product of rows `i` and `j`. -/
def dot (y : SQ.Idx → EReal) (i j : Fin 8192) : EReal := ∑ d : Fin 128, y (ix2 i d) * y (ix2 j d)
/-- The Gaussian potential of the pair `(i, j)`. -/
def e (y : SQ.Idx → EReal) (i j : Fin 8192) : EReal := Ideal.exp (cm2 * max (c2 - c2 * dot y i j) c0)
/-- The potential summed over all ordered pairs. -/
def pairS (y : SQ.Idx → EReal) : EReal := ∑ i : Fin 8192, ∑ j : Fin 8192, e y i j
/-- The potential summed over the pairs `i < j`. -/
def triS (y : SQ.Idx → EReal) : EReal := ∑ i : Fin 8192, ∑ j : Fin 8192, if i.val < j.val then e y i j else c0
/-- The sum over all entries of the squared difference. -/
def alignS (y z : SQ.Idx → EReal) : EReal :=
  ∑ i : Fin 8192, ∑ d : Fin 128, (y (ix2 i d) - z (ix2 i d)) * (y (ix2 i d) - z (ix2 i d))

/-- The kernel's closing scalar arithmetic, from the alignment sum and the two full pair sums. -/
def tailK (a p q : EReal) : EReal :=
  Ideal.div a cN + c1 * Ideal.div (Ideal.log (Ideal.div (Ideal.div (p - cN) c2) cNp) + Ideal.log (Ideal.div (Ideal.div (q - cN) c2) cNp)) c2
/-- The reference's closing scalar arithmetic, from the alignment sum and the two upper-triangle sums. -/
def tailR (a s t : EReal) : EReal :=
  Ideal.div a cN + c1 * Ideal.div (Ideal.log (Ideal.div s cNp) + Ideal.log (Ideal.div t cNp)) c2

/-- What the kernel's program returns. -/
def resultK (q k : SQ.Idx → EReal) : EReal := tailK (alignS (nrm q) (nrm k)) (pairS (nrm q)) (pairS (nrm k))
/-- What the reference returns. -/
def resultR (q k : SQ.Idx → EReal) : EReal := tailR (alignS (nrm q) (nrm k)) (triS (nrm q)) (triS (nrm k))

/-- The domain: every entry a real number, and every row's norm at least `ε` (so that the
    normalised rows are unit vectors). -/
def Dom (x : SQ.Idx → EReal) : Prop :=
  (∀ j : SQ.Idx, ∃ r : ℝ, x j = (r : EReal)) ∧ ∀ i : Fin 8192, cEps ≤ Ideal.sqrt (ss x i)

end Cert.Spec

end
-- ==== Proof.R0Value.lean ====
/-
  What the first kernel region leaves in its three result arrays, at the extended reals: each bf16
  result is its argument with every row divided by the row's guarded norm (the change of format is
  the identity), and the accumulator cell ends at the sum over all 8192 rows of the squared
  differences of the normalised rows — the eight blocks' sums added up point by point.

  The steps: the kept-dimension row sum's layout operations read at an index; the normalised block at (r, d) as
  the entry over max (√(row's sum of squares)) ε, and one point's update of the accumulator as what it held plus
  the block's sum of squared differences; each input block as rows 1024·t … 1024·t + 1023 of its argument; hence
  each written-back block as a block of the normalised argument, the eight blocks covering the array; and, by
  induction on the point, the accumulator after point n as the sum of the row terms of blocks 0 … n, which after
  the last point is the sum over all 8192 rows.
-/
import proofs.«107127_j34162169872914_1_alg».proof.Proof.R0Def
import proofs.«107127_j34162169872914_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Data.Fintype.BigOperators

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

namespace R0V

/-! ## Layout operations of a kept-dimension row sum, read at an index -/

/-- A vector of `a` entries cast to a column `[a, 1]` reads, at `(i, u)`, the entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a block, at row `r`: the sum of the row's 128 entries. -/
theorem rowSum_apply (v : FVec Ideal S1024x128 .f32) (hφ : FKind.Formats .f32)
    (hacc : (0x00000000#32 : BitVec 32) = 0x00000000#32) (r : Fin 1024) :
    multiReduction (F := Ideal) .add [1] S1024 v 0x00000000#32 reduces_S1024x128_S1024 hφ hacc (ix1 r)
      = ∑ d : Fin 128, v (ix2 r d) := by
  refine (Ideal.multiReduction_add_single v 0x00000000#32 reduces_S1024x128_S1024 hφ hacc (ix1 r)).trans ?_
  show (∑ k : Fin 128, v (reduces_S1024x128_S1024.lift (ix1 r) k)) = _
  refine Finset.sum_congr rfl fun d _ => congrArg v ?_
  funext a; apply Fin.ext
  match a with
  | ⟨0, _⟩ => rfl
  | ⟨1, _⟩ => rfl

/-- The indices of a `[1, 1024, 1]` array are its 1024 middle coordinates. -/
def colEquiv : S1x1024x1.Idx ≃ Fin 1024 where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-! ## The kernel's values at an index -/

/-- The first argument's normalised block at `(r, d)`: the entry over the row's guarded norm. -/
theorem pay2_apply (x : Vec Ideal S1024x128 .f32) (r : Fin 1024) (d : Fin 128) :
    k0_pay2 x (ix2 r d)
      = Ideal.div (x (ix2 r d)) (max (Ideal.sqrt (∑ d' : Fin 128, x (ix2 r d') * x (ix2 r d'))) Cert.Spec.cEps) := by
  unfold k0_pay2
  show Ideal.div (x (ix2 r d)) (broadcastTo S1024x128 _ broadcasts_S1024x1_S1024x128 (ix2 r d)) = _
  rw [broadcastTo_a1_ab_apply]
  show Ideal.div _ (max (Ideal.sqrt (shapeCast S1024x1 _ shapeCasts_S1024_S1024x1 (ix2 r 0))) (Ideal.ofBits .f32 0x2B8CBCCC#32)) = _
  rw [shapeCast_a_a1_apply, rowSum_apply]
  rfl

/-- The second argument's normalised block at `(r, d)`: the same function of its block. -/
theorem pay3_apply (x : Vec Ideal S1024x128 .f32) (r : Fin 1024) (d : Fin 128) :
    k0_pay3 x (ix2 r d)
      = Ideal.div (x (ix2 r d)) (max (Ideal.sqrt (∑ d' : Fin 128, x (ix2 r d') * x (ix2 r d'))) Cert.Spec.cEps) := by
  unfold k0_pay3
  show Ideal.div (x (ix2 r d)) (broadcastTo S1024x128 _ broadcasts_S1024x1_S1024x128 (ix2 r d)) = _
  rw [broadcastTo_a1_ab_apply]
  show Ideal.div _ (max (Ideal.sqrt (shapeCast S1024x1 _ shapeCasts_S1024_S1024x1 (ix2 r 0))) (Ideal.ofBits .f32 0x2B8CBCCC#32)) = _
  rw [shapeCast_a_a1_apply, rowSum_apply]
  rfl

/-- The change of format is the identity on the extended reals. -/
theorem pay5_apply (x : Vec Ideal S1024x128 .f32) (j : S1024x128.Idx) : k0_pay5 x j = k0_pay2 x j := rfl
theorem pay6_apply (x : Vec Ideal S1024x128 .f32) (j : S1024x128.Idx) : k0_pay6 x j = k0_pay3 x j := rfl

/-- The value the first point resets the accumulator to is zero. -/
theorem pay1_apply (i : S1x1.Idx) : (k0_pay1 (F := Ideal)) i = 0 := by
  unfold k0_pay1
  show Ideal.ofBits .f32 0x00000000#32 = 0
  exact Ideal.ofBits_zero_f32

/-- All indices of the one-entry vector shape are one index. -/
theorem S1_idx_eq (i j : S1.Idx) : i = j := by
  funext a
  match a with
  | ⟨0, _⟩ =>
    exact Fin.ext (by
      have h1 : (i 0).val < 1 := (i 0).isLt
      have h2 : (j 0).val < 1 := (j 0).isLt
      show (i 0).val = (j 0).val
      omega)

/-- The one entry taken out of a one-entry vector recast `[1, 1, 1]` is the vector's entry. -/
theorem extract_cast_S1 {α : Type} (v : S1.Idx → α) (h1 : S1.ShapeCasts S1x1x1) (h2 : ∀ a, (![0, 0, 0] : Fin 3 → Nat) a < S1x1x1.size a) :
    extractAt ![0, 0, 0] (shapeCast S1x1x1 v h1) h2 = v (ix1 (0 : Fin 1)) := by
  unfold extractAt shapeCast
  exact congrArg v (S1_idx_eq _ _)

/-- The sum of a `[1, 1024, 1]` array over its last two axes: the sum of its 1024 entries. -/
theorem colSum_apply (v : FVec Ideal S1x1024x1 .f32) (hφ : FKind.Formats .f32)
    (hacc : (0x00000000#32 : BitVec 32) = 0x00000000#32) (j : S1.Idx) :
    multiReduction (F := Ideal) .add [1, 2] S1 v 0x00000000#32 reduces_S1x1024x1_S1 hφ hacc j
      = ∑ r : Fin 1024, v (ix3 (0 : Fin 1) r (0 : Fin 1)) := by
  refine (Ideal.multiReduction_add_total v 0x00000000#32 reduces_S1x1024x1_S1 (by decide) hφ hacc j).trans ?_
  exact (Equiv.sum_comp colEquiv.symm v).symm

/-- One point's update of the accumulator: what it held plus the block's sum of squared differences of the
    normalised rows. -/
theorem pay4_apply (x0 x1 : Vec Ideal S1024x128 .f32) (a : Vec Ideal S1x1 .f32) (i : S1x1.Idx) :
    k0_pay4 x0 x1 a i = a i + ∑ r : Fin 1024, ∑ d : Fin 128,
      (k0_pay2 x0 (ix2 r d) - k0_pay3 x1 (ix2 r d)) * (k0_pay2 x0 (ix2 r d) - k0_pay3 x1 (ix2 r d)) := by
  unfold k0_pay4
  rw [addf_apply, shapeCast_self, broadcast_apply, extract_cast_S1, colSum_apply]
  refine congrArg (a i + ·) (Finset.sum_congr rfl fun r _ => ?_)
  rw [shapeCast_ab_1ab_apply, shapeCast_a_a1_apply, rowSum_apply]
  rfl

/-! ## The blocks as rows of the arrays -/

/-- The block index of every window of the region, decided over its eight points: the four row-blocked
    windows sit at block `(t, 0)`, the accumulator's at `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem lt_N0 (t : Fin cfg0.N) : t.val < 8 := lt_of_lt_of_eq t.isLt N_0

/-- The first input window's block at point `t` is rows `1024·t … 1024·t + 1023` of the first argument. -/
theorem iblk0_0_apply (c : Dev nD) (t : Fin cfg0.N) (r : Fin 1024) (d : Fin 128) (hr : 1024 * t.val + r.val < 8192) :
    (iblk0 V c 0 t : Vec Ideal S1024x128 .f32) (ix2 r d)
      = (V c main_arg0 : S8192x128.Idx → EReal) (ix2 ⟨1024 * t.val + r.val, hr⟩ d) := by
  obtain ⟨e0, e1, -⟩ := idx_facts0 t
  unfold iblk0
  rw [View.read_apply]
  show (V c main_arg0 : S8192x128.Idx → EReal) _ = (V c main_arg0 : S8192x128.Idx → EReal) _
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 128 + 1 * d.val = d.val; rw [e1]; omega

/-- The second input window's block at point `t` is the same rows of the second argument. -/
theorem iblk0_1_apply (c : Dev nD) (t : Fin cfg0.N) (r : Fin 1024) (d : Fin 128) (hr : 1024 * t.val + r.val < 8192) :
    (iblk0 V c 1 t : Vec Ideal S1024x128 .f32) (ix2 r d)
      = (V c main_arg1 : S8192x128.Idx → EReal) (ix2 ⟨1024 * t.val + r.val, hr⟩ d) := by
  obtain ⟨-, -, e0, e1, -⟩ := idx_facts0 t
  unfold iblk0
  rw [View.read_apply]
  show (V c main_arg1 : S8192x128.Idx → EReal) _ = (V c main_arg1 : S8192x128.Idx → EReal) _
  congr 1
  funext a
  apply Fin.ext
  match a with
  | ⟨0, _⟩ => show win0_1.index t (0 : Fin 2) * 1024 + 1 * r.val = 1024 * t.val + r.val; rw [e0]; omega
  | ⟨1, _⟩ => show win0_1.index t (1 : Fin 2) * 128 + 1 * d.val = d.val; rw [e1]; omega

/-- So the first normalised block at `(r, d)` is the normalised first argument at row `1024·t + r`. -/
theorem pay2_iblk (c : Dev nD) (t : Fin cfg0.N) (r : Fin 1024) (d : Fin 128) (hr : 1024 * t.val + r.val < 8192) :
    k0_pay2 (iblk0 V c 0 t) (ix2 r d) = Cert.Spec.nrm (V c main_arg0) (ix2 ⟨1024 * t.val + r.val, hr⟩ d) := by
  rw [pay2_apply]
  simp only [iblk0_0_apply V c t _ _ hr]
  rfl

/-- And the second normalised block likewise of the second argument. -/
theorem pay3_iblk (c : Dev nD) (t : Fin cfg0.N) (r : Fin 1024) (d : Fin 128) (hr : 1024 * t.val + r.val < 8192) :
    k0_pay3 (iblk0 V c 1 t) (ix2 r d) = Cert.Spec.nrm (V c main_arg1) (ix2 ⟨1024 * t.val + r.val, hr⟩ d) := by
  rw [pay3_apply]
  simp only [iblk0_1_apply V c t _ _ hr]
  rfl

/-! ## The two normalised results -/

/-- What point `t` writes back through the first result's window, at `(r, d)` of its block: the normalised
    first argument at the array index under that element. -/
theorem flushed0_2_at (c : Dev nD) (t : Fin cfg0.N) (r : Fin 1024) (d : Fin 128) :
    k0_pay5 (iblk0 V c 0 t) (ix2 r d)
      = Cert.Spec.nrm (V c main_arg0) (((cfg0.win 2).blk t).view.emb (ix2 r d)) := by
  have ht := lt_N0 t
  have hr : 1024 * t.val + r.val < 8192 := by have := r.isLt; omega
  obtain ⟨-, -, -, -, e0, e1, -⟩ := idx_facts0 t
  rw [pay5_apply, pay2_iblk V c t r d hr]
  refine congrArg (Cert.Spec.nrm (V c main_arg0)) ?_
  funext a
  apply Fin.ext
  match a with
  | ⟨0, _⟩ => show 1024 * t.val + r.val = win0_2.index t (0 : Fin 2) * 1024 + 1 * r.val; rw [e0]; omega
  | ⟨1, _⟩ => show d.val = win0_2.index t (1 : Fin 2) * 128 + 1 * d.val; rw [e1]; omega

theorem flushed0_3_at (c : Dev nD) (t : Fin cfg0.N) (r : Fin 1024) (d : Fin 128) :
    k0_pay6 (iblk0 V c 1 t) (ix2 r d)
      = Cert.Spec.nrm (V c main_arg1) (((cfg0.win 3).blk t).view.emb (ix2 r d)) := by
  have ht := lt_N0 t
  have hr : 1024 * t.val + r.val < 8192 := by have := r.isLt; omega
  obtain ⟨-, -, -, -, -, -, e0, e1, -⟩ := idx_facts0 t
  rw [pay6_apply, pay3_iblk V c t r d hr]
  refine congrArg (Cert.Spec.nrm (V c main_arg1)) ?_
  funext a
  apply Fin.ext
  match a with
  | ⟨0, _⟩ => show 1024 * t.val + r.val = win0_3.index t (0 : Fin 2) * 1024 + 1 * r.val; rw [e0]; omega
  | ⟨1, _⟩ => show d.val = win0_3.index t (1 : Fin 2) * 128 + 1 * d.val; rw [e1]; omega

/-- What point `t` writes back through the first result's window is block `t` of the normalised first argument. -/
theorem flushed0_2_eq (c : Dev nD) (t : Fin cfg0.N) :
    (dat0 (F := Ideal) V c).flushed 2 t
      = ((cfg0.win 2).blk t).view.read (Elt Ideal) (Cert.Spec.nrm (V c main_arg0) : S8192x128.Idx → EReal) := by
  show (cfg0.win 2).cut (grid0.coords t) ((dat0 (F := Ideal) V c).after 2 t) = _
  rw [after0_2]
  funext j
  obtain ⟨r, d, rfl⟩ : ∃ (r : Fin 1024) (d : Fin 128), j = ix2 r d := ⟨j 0, j 1, eq_ix2 (n0 := 1024) (n1 := 128) j⟩
  exact flushed0_2_at V c t r d

theorem flushed0_3_eq (c : Dev nD) (t : Fin cfg0.N) :
    (dat0 (F := Ideal) V c).flushed 3 t
      = ((cfg0.win 3).blk t).view.read (Elt Ideal) (Cert.Spec.nrm (V c main_arg1) : S8192x128.Idx → EReal) := by
  show (cfg0.win 3).cut (grid0.coords t) ((dat0 (F := Ideal) V c).after 3 t) = _
  rw [after0_3]
  funext j
  obtain ⟨r, d, rfl⟩ : ∃ (r : Fin 1024) (d : Fin 128), j = ix2 r d := ⟨j 0, j 1, eq_ix2 (n0 := 1024) (n1 := 128) j⟩
  exact flushed0_3_at V c t r d

/-- An index of the first result is in point `t`'s block iff each coordinate is in the block's range. -/
theorem mem_blk0_2 (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0_0).slice (win0_2.rect t)).set ↔ _
  rw [View.set_slice_whole, Rect.mem_set_unit]
  exact Iff.rfl

theorem mem_blk0_3 (t : Fin cfg0.N) (i : S8192x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v0_1).slice (win0_3.rect t)).set ↔ _
  rw [View.set_slice_whole, Rect.mem_set_unit]
  exact Iff.rfl

/-- Row `i` lies in the block of point `i / 1024`: the eight blocks cover the array. -/
theorem cover0_2 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  have htv : t.val = (i 0).val / 1024 := rfl
  obtain ⟨-, -, -, -, e0, e1, -⟩ := idx_facts0 t
  refine ⟨t, flush0_2 t, ?_⟩
  rw [mem_blk0_2]
  intro a
  match a with
  | ⟨0, _⟩ =>
    show win0_2.index t (0 : Fin 2) * 1024 ≤ (i 0).val ∧ (i 0).val < win0_2.index t (0 : Fin 2) * 1024 + 1024
    rw [e0, htv]; omega
  | ⟨1, _⟩ =>
    show win0_2.index t (1 : Fin 2) * 128 ≤ (i 1).val ∧ (i 1).val < win0_2.index t (1 : Fin 2) * 128 + 128
    rw [e1]; omega

theorem cover0_3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  have htv : t.val = (i 0).val / 1024 := rfl
  obtain ⟨-, -, -, -, -, -, e0, e1, -⟩ := idx_facts0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    rw [e0, htv]; omega
  | ⟨1, _⟩ =>
    show win0_3.index t (1 : Fin 2) * 128 ≤ (i 1).val ∧ (i 1).val < win0_3.index t (1 : Fin 2) * 128 + 128
    rw [e1]; omega

/-! ## The accumulator -/

/-- Row `i`'s sum of squared differences of the two normalised arguments. -/
def rowTerm (q k : Cert.Spec.SQ.Idx → EReal) (i : Fin 8192) : EReal :=
  ∑ d : Fin 128, (Cert.Spec.nrm q (ix2 i d) - Cert.Spec.nrm k (ix2 i d)) * (Cert.Spec.nrm q (ix2 i d) - Cert.Spec.nrm k (ix2 i d))

/-- The same by the row's number, zero past the last row. -/
def rowAt (q k : Cert.Spec.SQ.Idx → EReal) (n : ℕ) : EReal := if h : n < 8192 then rowTerm q k ⟨n, h⟩ else 0

/-- The alignment sum is the sum of the rows' terms. -/
theorem alignS_eq (q k : Cert.Spec.SQ.Idx → EReal) :
    Cert.Spec.alignS (Cert.Spec.nrm q) (Cert.Spec.nrm k) = ∑ i : Fin 8192, rowTerm q k i := rfl

/-- In a commutative monoid, a sum over the first `T · R` naturals is the sum over `T` consecutive blocks of `R`. -/
theorem sum_range_blocks {M : Type*} [AddCommMonoid M] (R : ℕ) (f : ℕ → M) :
    ∀ T : ℕ, ∑ i ∈ Finset.range (T * R), f i = ∑ t ∈ Finset.range T, ∑ r ∈ Finset.range R, f (R * t + r)
  | 0 => by simp
  | T + 1 => by
    rw [Nat.succ_mul, Finset.sum_range_add, sum_range_blocks R f T, Finset.sum_range_succ, Nat.mul_comm T R]

/-- The block's sum of squared differences at point `t` is the sum of the terms of rows `1024·t … 1024·t + 1023`. -/
theorem blk_sum (c : Dev nD) (t : Fin cfg0.N) :
    (∑ r : Fin 1024, ∑ d : Fin 128,
        (k0_pay2 (iblk0 V c 0 t) (ix2 r d) - k0_pay3 (iblk0 V c 1 t) (ix2 r d))
          * (k0_pay2 (iblk0 V c 0 t) (ix2 r d) - k0_pay3 (iblk0 V c 1 t) (ix2 r d)))
      = ∑ r ∈ Finset.range 1024, rowAt (V c main_arg0) (V c main_arg1) (1024 * t.val + r) := by
  have ht := lt_N0 t
  rw [← Fin.sum_univ_eq_sum_range (fun r => rowAt (V c main_arg0) (V c main_arg1) (1024 * t.val + r)) 1024]
  refine Finset.sum_congr rfl fun r _ => ?_
  have hr : 1024 * t.val + r.val < 8192 := by have := r.isLt; omega
  unfold rowAt
  rw [dif_pos hr]
  unfold rowTerm
  refine Finset.sum_congr rfl fun d _ => ?_
  rw [pay2_iblk V c t r d hr, pay3_iblk V c t r d hr]

/-- After point `n` the accumulator holds the sum of the terms of the rows of blocks `0 … n`. -/
theorem acc0_eq (c : Dev nD) : ∀ (n : ℕ) (hn : n < cfg0.N) (i : S1x1.Idx),
    acc0 V c n hn i
      = ∑ t ∈ Finset.range (n + 1), ∑ r ∈ Finset.range 1024, rowAt (V c main_arg0) (V c main_arg1) (1024 * t + r)
  | 0, hn, i => by
    rw [acc0_zero, pay4_apply, pay1_apply, zero_add, Finset.sum_range_one]
    exact blk_sum V c ⟨0, hn⟩
  | n + 1, hn, i => by
    rw [acc0_succ, pay4_apply, acc0_eq c n (Nat.lt_of_succ_lt hn) i, Finset.sum_range_succ _ (n + 1)]
    exact congrArg _ (blk_sum V c ⟨n + 1, hn⟩)

/-- After the last point it holds the alignment sum. -/
theorem acc0_last (c : Dev nD) : ∀ t : Fin cfg0.N, t.val = 7 → ∀ i : S1x1.Idx,
    acc0 V c t.val t.isLt i = Cert.Spec.alignS (Cert.Spec.nrm (V c main_arg0)) (Cert.Spec.nrm (V c main_arg1)) := by
  rintro ⟨tv, hlt⟩ h7 i
  have h7' : tv = 7 := h7
  subst h7'
  have hb : ∑ n ∈ Finset.range 8192, rowAt (V c main_arg0) (V c main_arg1) n
      = ∑ t ∈ Finset.range 8, ∑ r ∈ Finset.range 1024, rowAt (V c main_arg0) (V c main_arg1) (1024 * t + r) :=
    sum_range_blocks 1024 _ 8
  refine (acc0_eq V c 7 hlt i).trans ?_
  show (∑ t ∈ Finset.range 8, ∑ r ∈ Finset.range 1024, rowAt (V c main_arg0) (V c main_arg1) (1024 * t + r)) = _
  rw [← hb, ← Fin.sum_univ_eq_sum_range (fun n => rowAt (V c main_arg0) (V c main_arg1) n) 8192, alignS_eq]
  refine Finset.sum_congr rfl fun j _ => ?_
  show rowAt (V c main_arg0) (V c main_arg1) j.val = rowTerm (V c main_arg0) (V c main_arg1) j
  unfold rowAt
  rw [dif_pos j.isLt]

/-- The one write-back of the accumulator, at the last point, writes the alignment sum. -/
theorem flushed0_4_eq (c : Dev nD) (t : Fin cfg0.N) (hf : (cfg0.win 4).flush t = true) :
    (dat0 (F := Ideal) V c).flushed 4 t
      = ((cfg0.win 4).blk t).view.read (Elt Ideal)
          ((fun _ => Cert.Spec.alignS (Cert.Spec.nrm (V c main_arg0)) (Cert.Spec.nrm (V c main_arg1))) : S1x1.Idx → EReal) := by
  have ht := lt_N0 t
  have h7 : t.val = 7 := by have := (flush0_4 t).mp hf; omega
  show (cfg0.win 4).cut (grid0.coords t) ((dat0 (F := Ideal) V c).after 4 t) = _
  rw [after0_4]
  funext j
  exact acc0_last V c t h7 _

/-- An index of the accumulator's array is in point `t`'s block iff each coordinate is in the block's range. -/
theorem mem_blk0_4 (t : Fin cfg0.N) (i : S1x1.Idx) :
    i ∈ ((cfg0.win 4).blk t).view.set ↔ ∀ a : Fin 2, win0_4.index t a * S1x1.size a ≤ (i a).val
      ∧ (i a).val < win0_4.index t a * S1x1.size a + S1x1.size a := by
  show i ∈ ((View.whole main_v0_2).slice (win0_4.rect t)).set ↔ _
  rw [View.set_slice_whole, Rect.mem_set_unit]
  exact Iff.rfl

/-- The last point's block is the whole one-cell array. -/
theorem cover0_4 (i : S1x1.Idx) :
    ∃ t : Fin cfg0.N, (cfg0.win 4).flush t = true ∧ i ∈ ((cfg0.win 4).blk t).view.set := by
  have hi0 : (i 0).val < 1 := (i 0).isLt
  have hi1 : (i 1).val < 1 := (i 1).isLt
  obtain ⟨-, -, -, -, -, -, -, -, e0, e1⟩ := idx_facts0 t0_7
  refine ⟨t0_7, (flush0_4 t0_7).mpr rfl, ?_⟩
  rw [mem_blk0_4]
  intro a
  match a with
  | ⟨0, _⟩ =>
    show win0_4.index t0_7 (0 : Fin 2) * 1 ≤ (i 0).val ∧ (i 0).val < win0_4.index t0_7 (0 : Fin 2) * 1 + 1
    rw [e0]; omega
  | ⟨1, _⟩ =>
    show win0_4.index t0_7 (1 : Fin 2) * 1 ≤ (i 1).val ∧ (i 1).val < win0_4.index t0_7 (1 : Fin 2) * 1 + 1
    rw [e1]; omega

end R0V

/-! ## The three results after the region -/

/-- The first bf16 result after the region: the first argument's rows, normalised. -/
theorem arrAt0_2 (c : Dev nD) : (dat0 (F := Ideal) V c).arrAt 2 cfg0.N = (Cert.Spec.nrm (V c main_arg0) : S8192x128.Idx → EReal) :=
  (dat0 (F := Ideal) V c).arrAt_eq_of_cover 2 (Cert.Spec.nrm (V c main_arg0) : S8192x128.Idx → EReal)
    (fun t _ => R0V.flushed0_2_eq V c t) R0V.cover0_2
/-- The second bf16 result after the region: the second argument's rows, normalised. -/
theorem arrAt0_3 (c : Dev nD) : (dat0 (F := Ideal) V c).arrAt 3 cfg0.N = (Cert.Spec.nrm (V c main_arg1) : S8192x128.Idx → EReal) :=
  (dat0 (F := Ideal) V c).arrAt_eq_of_cover 3 (Cert.Spec.nrm (V c main_arg1) : S8192x128.Idx → EReal)
    (fun t _ => R0V.flushed0_3_eq V c t) R0V.cover0_3
/-- The accumulator after the region: the alignment sum over all rows. -/
theorem arrAt0_4 (c : Dev nD) : (dat0 (F := Ideal) V c).arrAt 4 cfg0.N = ((fun _ => Cert.Spec.alignS (Cert.Spec.nrm (V c main_arg0)) (Cert.Spec.nrm (V c main_arg1))) : S1x1.Idx → EReal) :=
  (dat0 (F := Ideal) V c).arrAt_eq_of_cover 4
    ((fun _ => Cert.Spec.alignS (Cert.Spec.nrm (V c main_arg0)) (Cert.Spec.nrm (V c main_arg1))) : S1x1.Idx → EReal)
    (R0V.flushed0_4_eq V c) R0V.cover0_4

end Cert.KernelIdeal.Hand

end
-- ==== Proof.R1ValuePay.lean ====
/-
  The arithmetic of a pairwise-potential region's body, read at the accumulator's one cell, at the
  extended reals. The body multiplies a 1024 × 128 row block by the transpose of another (so entry
  (r, s) of the product is the inner product of row r of the first with row s of the second), turns
  every inner product p into the potential exp(-2 · max(2 - 2·p, 0)), sums the 1024 × 1024
  potentials and adds the sum to the cell. The two regions' bodies are the same arithmetic.
-/
import proofs.«107127_j34162169872914_1_alg».proof.Proof.Gen.KernelIdeal.Skeleton
import proofs.«107127_j34162169872914_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## The matrix product of a row block with another row block's transpose, at an entry -/

theorem lhs_pair_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_pair_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_pair_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_pair_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Entry `(r, s)` of the product of one 1024 × 128 block with the transpose of another, started from
    zero: the inner product of row `r` of the first with row `s` of the second. -/
theorem dot_pair_apply (x0 x1 : FVec Ideal S1024x128 .bf16) (r s : Fin 1024) :
    matmul dot_S1024x128_S1024x128_S1024x1024_1_1_0_0_n_n none x0 x1 (constant (F := Ideal) S1024x1024 .f32 0x00000000#32) (ix2 r s)
      = ∑ d : Fin 128, x0 (ix2 r d) * x1 (ix2 s d) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 r s) ((ValueIdx.contrEquiv1 dot_S1024x128_S1024x128_S1024x1024_1_1_0_0_n_n 128 rfl rfl).symm k) = ix2 r k := funext fun a => Fin.ext (by
    match a with
    | ⟨0, _⟩ => exact lhs_pair_0 _ _
    | ⟨1, _⟩ => exact (lhs_pair_1 _ _).trans hk)
  have er : dot_S1024x128_S1024x128_S1024x1024_1_1_0_0_n_n.rhsIdx (ix2 r s) ((ValueIdx.contrEquiv1 dot_S1024x128_S1024x128_S1024x1024_1_1_0_0_n_n 128 rfl rfl).symm k) = ix2 s k := funext fun a => Fin.ext (by
    match a with
    | ⟨0, _⟩ => exact rhs_pair_0 _ _
    | ⟨1, _⟩ => exact (rhs_pair_1 _ _).trans hk)
  rw [el, er]

/-! ## The sum of all entries of a 1024 × 1024 tile, as the body takes it -/

/-- The tile viewed with a leading unit axis, summed over its two long axes into one cell, and that
    cell spread over the 1 × 1 accumulator shape: the double sum of the tile's entries. -/
theorem reduce_all_read (v : FVec Ideal S1024x1024 .f32) (hr : S1x1024x1024.Reduces [1, 2] S1) (hφ : FKind.Formats .f32)
    (hacc : (0x00000000#32 : BitVec 32) = FKind.add.neutral .f32 hφ) (j : S1x1.Idx) :
    broadcast S1x1 (extractAt ![0, 0, 0] (shapeCast S1x1x1 (multiReduction .add [1, 2] S1
        (shapeCast S1x1024x1024 v shapeCasts_S1024x1024_S1x1024x1024) 0x00000000#32 hr hφ hacc) shapeCasts_S1_S1x1x1) inpos_S1x1x1_p0_0_0) j
      = ∑ r : Fin 1024, ∑ s : Fin 1024, v (ix2 r s) := by
  show multiReduction .add [1, 2] S1 (shapeCast S1x1024x1024 v shapeCasts_S1024x1024_S1x1024x1024) 0x00000000#32 hr hφ hacc _ = _
  rw [Ideal.multiReduction_add_total _ _ hr (by decide) hφ hacc]
  show ∑ i : S1x1024x1024.Idx, v (Shape.reshapeEquiv shapeCasts_S1024x1024_S1x1024x1024 i) = _
  rw [Equiv.sum_comp (Shape.reshapeEquiv shapeCasts_S1024x1024_S1x1024x1024) v, sum_idx2]

/-! ## The body's new accumulator value -/

/-- What the body of a pairwise-potential region stores into the accumulator cell, from the two
    1024 × 128 row blocks `x0`, `x1` and the cell's old value `a`: the old value plus the sum over the
    1024 × 1024 pairs (row `r` of `x0`, row `s` of `x1`) of the potential of their inner product. -/
theorem pay1_apply (x0 x1 : Vec Ideal S1024x128 .bf16) (a : Vec Ideal S1x1 .f32) (j : S1x1.Idx) :
    k1_pay2 x0 x1 a j = a j + ∑ r : Fin 1024, ∑ s : Fin 1024,
      Ideal.exp (Cert.Spec.cm2 * max (Cert.Spec.c2 - Cert.Spec.c2 * ∑ d : Fin 128, x0 (ix2 r d) * x1 (ix2 s d)) Cert.Spec.c0) := by
  unfold k1_pay2
  simp only [shapeCast_self]
  refine (ValueIdx.addf_apply _ _ j).trans (congrArg (a j + ·) ?_)
  refine (reduce_all_read _ _ _ _ j).trans ?_
  refine Finset.sum_congr rfl fun r _ => Finset.sum_congr rfl fun s _ => ?_
  exact congrArg Ideal.exp (congrArg (Cert.Spec.cm2 * ·) (congrArg (max · Cert.Spec.c0)
    (congrArg (Cert.Spec.c2 - Cert.Spec.c2 * ·) (dot_pair_apply x0 x1 r s))))

/-- The second pairwise-potential region's body is the same arithmetic. -/
theorem pay2_apply (x0 x1 : Vec Ideal S1024x128 .bf16) (a : Vec Ideal S1x1 .f32) (j : S1x1.Idx) :
    k2_pay2 x0 x1 a j = a j + ∑ r : Fin 1024, ∑ s : Fin 1024,
      Ideal.exp (Cert.Spec.cm2 * max (Cert.Spec.c2 - Cert.Spec.c2 * ∑ d : Fin 128, x0 (ix2 r d) * x1 (ix2 s d)) Cert.Spec.c0) :=
  pay1_apply x0 x1 a j

/-- The zero the first point stores into the accumulator cell. -/
theorem pay1_zero (j : S1x1.Idx) : (k1_pay1 (F := Ideal)) j = 0 := Ideal.ofBits_zero_f32
theorem pay2_zero (j : S1x1.Idx) : (k2_pay1 (F := Ideal)) j = 0 := Ideal.ofBits_zero_f32

end Cert.KernelIdeal.Hand

end
-- ==== Proof.R1ValueSum.lean ====
/-
  The potential summed over all ordered pairs of the 8192 rows, regrouped by tiles. The rows fall
  into 8 blocks of 1024, row `r` of block `a` being row `1024·a + r`; tile `(a, b)` is the sum of the
  potential over the pairs of a row of block `a` with a row of block `b`. The 64 tiles, taken in the
  order `t = 8·a + b`, add up to the full pair sum: a regrouping of a finite sum in a commutative
  monoid, so nothing about finiteness of the entries is used.
-/
import proofs.«107127_j34162169872914_1_alg».proof.Proof.Spec
import Mathlib.Algebra.BigOperators.Fin
import Mathlib.Data.Fintype.BigOperators
import Mathlib.Logic.Equiv.Fin.Basic

noncomputable section

namespace Cert.Spec

open Idealize.ShloMosaic Idealize.ShloMosaic.ValueIdx

/-- Row `r` of row block `a`. -/
abbrev brow (a : Fin 8) (r : Fin 1024) : Fin 8192 := ⟨1024 * a.val + r.val, by omega⟩

/-- The potential summed over the pairs of a row of block `a` with a row of block `b`. -/
def tileS (y : SQ.Idx → EReal) (a b : Fin 8) : EReal :=
  ∑ r : Fin 1024, ∑ s : Fin 1024, e y (brow a r) (brow b s)

/-- Tile number `t` in the order the grid visits them: block pair `(t / 8, t % 8)`. -/
def tileN (y : SQ.Idx → EReal) (t : ℕ) : EReal :=
  tileS y ⟨t / 8 % 8, Nat.mod_lt _ (by decide)⟩ ⟨t % 8, Nat.mod_lt _ (by decide)⟩

/-- A sum over the 8192 rows is the sum over the blocks of the sums over each block's rows. -/
theorem sum_rows {M : Type*} [AddCommMonoid M] (f : Fin 8192 → M) :
    ∑ i, f i = ∑ a : Fin 8, ∑ r : Fin 1024, f (brow a r) := by
  rw [← Equiv.sum_comp (finProdFinEquiv (m := 8) (n := 1024)) f, Fintype.sum_prod_type]
  refine Finset.sum_congr rfl fun a _ => Finset.sum_congr rfl fun r _ => congrArg f (Fin.ext ?_)
  show r.val + 1024 * a.val = 1024 * a.val + r.val
  omega

/-- A sum over the first 64 naturals is the sum over the pairs `(a, b)` at `t = 8·a + b`. -/
theorem sum_range64 {M : Type*} [AddCommMonoid M] (g : ℕ → M) :
    ∑ t ∈ Finset.range 64, g t = ∑ a : Fin 8, ∑ b : Fin 8, g (8 * a.val + b.val) := by
  rw [Finset.sum_range, ← Equiv.sum_comp (finProdFinEquiv (m := 8) (n := 8)) (fun t : Fin 64 => g t.val),
    Fintype.sum_prod_type]
  refine Finset.sum_congr rfl fun a _ => Finset.sum_congr rfl fun b _ => congrArg g ?_
  show b.val + 8 * a.val = 8 * a.val + b.val
  omega

/-- The tile at `t = 8·a + b` is tile `(a, b)`. -/
theorem tileN_pair (y : SQ.Idx → EReal) (a b : Fin 8) : tileN y (8 * a.val + b.val) = tileS y a b := by
  have ha := a.isLt
  have hb := b.isLt
  unfold tileN
  congr 1
  · exact Fin.ext (show (8 * a.val + b.val) / 8 % 8 = a.val by omega)
  · exact Fin.ext (show (8 * a.val + b.val) % 8 = b.val by omega)

/-- The full pair sum is the sum of the 64 tiles. -/
theorem pairS_eq_tiles (y : SQ.Idx → EReal) : pairS y = ∑ t ∈ Finset.range 64, tileN y t := by
  rw [sum_range64]
  unfold pairS
  rw [sum_rows]
  refine Finset.sum_congr rfl fun a _ => ?_
  rw [Finset.sum_congr rfl fun r _ => sum_rows (fun j => e y (brow a r) j), Finset.sum_comm]
  refine Finset.sum_congr rfl fun b _ => ?_
  rw [tileN_pair]
  rfl

end Cert.Spec

end
-- ==== Proof.R1Value.lean ====
/-
  What the first pairwise-potential region leaves in its result cell, at the extended reals: the
  potential summed over ALL ordered pairs of rows of the array it reads — the 64 tiles' sums added
  up point by point, tile (a, b) covering the pairs of row block a with row block b.
-/
import proofs.«107127_j34162169872914_1_alg».proof.Proof.R1Def
import proofs.«107127_j34162169872914_1_alg».proof.Proof.Spec
import proofs.«107127_j34162169872914_1_alg».proof.Proof.R1ValuePay
import proofs.«107127_j34162169872914_1_alg».proof.Proof.R1ValueSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The array both input windows read, as the region finds it. -/
abbrev yarr1 (c : Dev nD) : Vec Ideal S8192x128 .bf16 := V c main_v0_0
/-- The first input window's block at point `t`. -/
abbrev xblk1_0 (c : Dev nD) (t : Fin cfg1.N) : Vec Ideal S1024x128 .bf16 := iblk1 V c 0 t
/-- The second input window's block at point `t`. -/
abbrev xblk1_1 (c : Dev nD) (t : Fin cfg1.N) : Vec Ideal S1024x128 .bf16 := iblk1 V c 1 t

/-- Point `t` of the 8 × 8 grid has coordinates `(t / 8, t % 8)`: the first window sits on row block
    `t / 8`, the second on row block `t % 8`, both on the one column block. -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, win1_0.index t (0 : Fin 2) = t.val / 8 ∧ win1_0.index t (1 : Fin 2) = 0
    ∧ win1_1.index t (0 : Fin 2) = t.val % 8 ∧ win1_1.index t (1 : Fin 2) = 0)

/-- Row `r` of the first window's block at point `t` is row `r` of row block `t / 8` of the array. -/
theorem xblk1_0_apply (c : Dev nD) (t : Fin cfg1.N) (r : Fin 1024) (d : Fin 128) :
    xblk1_0 V c t (ix2 r d) = yarr1 V c (ix2 (Cert.Spec.brow ⟨t.val / 8 % 8, Nat.mod_lt _ (by decide)⟩ r) d) := by
  have hN : cfg1.N = 64 := N_1
  have ht := t.isLt
  show V c main_v0_0 (((cfg1.win 0).blk t).view.emb (ix2 r d)) = V c main_v0_0 _
  refine congrArg (V c main_v0_0) (funext fun a => Fin.ext ?_)
  match a with
  | ⟨0, _⟩ =>
    show win1_0.index t 0 * 1024 + 1 * r.val = 1024 * (t.val / 8 % 8) + r.val
    rw [(idx_facts1 t).1]; omega
  | ⟨1, _⟩ =>
    show win1_0.index t 1 * 128 + 1 * d.val = d.val
    rw [(idx_facts1 t).2.1]; omega

/-- Row `s` of the second window's block at point `t` is row `s` of row block `t % 8` of the array. -/
theorem xblk1_1_apply (c : Dev nD) (t : Fin cfg1.N) (s : Fin 1024) (d : Fin 128) :
    xblk1_1 V c t (ix2 s d) = yarr1 V c (ix2 (Cert.Spec.brow ⟨t.val % 8, Nat.mod_lt _ (by decide)⟩ s) d) := by
  show V c main_v0_0 (((cfg1.win 1).blk t).view.emb (ix2 s d)) = V c main_v0_0 _
  refine congrArg (V c main_v0_0) (funext fun a => Fin.ext ?_)
  match a with
  | ⟨0, _⟩ =>
    show win1_1.index t 0 * 1024 + 1 * s.val = 1024 * (t.val % 8) + s.val
    rw [(idx_facts1 t).2.2.1]; omega
  | ⟨1, _⟩ =>
    show win1_1.index t 1 * 128 + 1 * d.val = d.val
    rw [(idx_facts1 t).2.2.2]; omega

/-- What point `t` adds to the cell: the potential summed over the pairs of a row of its first block
    with a row of its second — tile `t` of the array. -/
theorem tile1_eq (c : Dev nD) (t : Fin cfg1.N) :
    (∑ r : Fin 1024, ∑ s : Fin 1024, Ideal.exp (Cert.Spec.cm2 * max (Cert.Spec.c2 - Cert.Spec.c2
        * ∑ d : Fin 128, xblk1_0 V c t (ix2 r d) * xblk1_1 V c t (ix2 s d)) Cert.Spec.c0))
      = Cert.Spec.tileN (yarr1 V c) t.val := by
  unfold Cert.Spec.tileN Cert.Spec.tileS Cert.Spec.e Cert.Spec.dot
  refine Finset.sum_congr rfl fun r _ => Finset.sum_congr rfl fun s _ => ?_
  refine congrArg Ideal.exp (congrArg (Cert.Spec.cm2 * ·) (congrArg (max · Cert.Spec.c0)
    (congrArg (Cert.Spec.c2 - Cert.Spec.c2 * ·) (Finset.sum_congr rfl fun d _ => ?_))))
  rw [xblk1_0_apply, xblk1_1_apply]

/-- The cell after point `n`: the first `n + 1` tiles added up. -/
theorem acc1_eq (c : Dev nD) : ∀ (n : ℕ) (hn : n < cfg1.N),
    acc1 V c n hn = fun _ => ∑ t ∈ Finset.range (n + 1), Cert.Spec.tileN (yarr1 V c) t
  | 0, hn => by
    rw [acc1_zero]
    funext j
    refine (pay1_apply (xblk1_0 V c ⟨0, hn⟩) (xblk1_1 V c ⟨0, hn⟩) (k1_pay1 (F := Ideal)) j).trans ?_
    rw [pay1_zero, zero_add, Finset.sum_range_one]
    exact tile1_eq V c ⟨0, hn⟩
  | n + 1, hn => by
    rw [acc1_succ]
    funext j
    refine (pay1_apply (xblk1_0 V c ⟨n + 1, hn⟩) (xblk1_1 V c ⟨n + 1, hn⟩) (acc1 V c n (Nat.lt_of_succ_lt hn)) j).trans ?_
    rw [acc1_eq c n (Nat.lt_of_succ_lt hn), Finset.sum_range_succ _ (n + 1)]
    exact congrArg (_ + ·) (tile1_eq V c ⟨n + 1, hn⟩)

/-- The one write-back, at the last point, writes the full pair sum into the cell. -/
theorem flushed1_2_eq (c : Dev nD) (t : Fin cfg1.N) (hf : (cfg1.win 2).flush t = true) :
    (dat1 (F := Ideal) V c).flushed 2 t
      = ((cfg1.win 2).blk t).view.read (Elt Ideal) ((fun _ => Cert.Spec.pairS (yarr1 V c)) : S1x1.Idx → EReal) := by
  have hN : cfg1.N = 64 := N_1
  have h63 : t.val + 1 = 64 := by have := (flush1_2 t).mp hf; have := t.isLt; omega
  show (cfg1.win 2).cut (grid1.coords t) ((dat1 (F := Ideal) V c).after 2 t) = _
  rw [after1_2, acc1_eq, h63, ← Cert.Spec.pairS_eq_tiles]
  rfl

/-- The last point of the grid. -/
def tLast1 : Fin grid1.N := ⟨63, by rw [N_1]; decide⟩

/-- The result cell after the region: the full pair sum of the array both windows read. -/
theorem arrAt1_2 (c : Dev nD) : (dat1 (F := Ideal) V c).arrAt 2 cfg1.N = ((fun _ => Cert.Spec.pairS (V c main_v0_0)) : S1x1.Idx → EReal) :=
  (dat1 (F := Ideal) V c).arrAt_eq_of_cover 2 _ (flushed1_2_eq V c) fun i =>
    ⟨tLast1, (flush1_2 tLast1).mpr rfl, by
      show i ∈ ((View.whole main_v1).slice (win1_2.rect tLast1)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index tLast1 0 * win1_2.size 0 ≤ (i 0 : Nat) ∧ (i 0 : Nat) < win1_2.index tLast1 0 * win1_2.size 0 + win1_2.xsize (grid1.coords tLast1) 0
        rw [show win1_2.index tLast1 0 * win1_2.size 0 = 0 from by decide +kernel, show win1_2.xsize (grid1.coords tLast1) 0 = 1 from by decide +kernel]; omega
      | ⟨1, _⟩ =>
        show win1_2.index tLast1 1 * win1_2.size 1 ≤ (i 1 : Nat) ∧ (i 1 : Nat) < win1_2.index tLast1 1 * win1_2.size 1 + win1_2.xsize (grid1.coords tLast1) 1
        rw [show win1_2.index tLast1 1 * win1_2.size 1 = 0 from by decide +kernel, show win1_2.xsize (grid1.coords tLast1) 1 = 1 from by decide +kernel]; omega⟩

end Cert.KernelIdeal.Hand

end
-- ==== Proof.R2Value.lean ====
/-
  What the second pairwise-potential region leaves in its result cell, at the extended reals: the
  potential summed over ALL ordered pairs of rows of the array it reads — the 64 tiles' sums added
  up point by point, tile (a, b) covering the pairs of row block a with row block b.
-/
import proofs.«107127_j34162169872914_1_alg».proof.Proof.R2Def
import proofs.«107127_j34162169872914_1_alg».proof.Proof.Spec
import proofs.«107127_j34162169872914_1_alg».proof.Proof.R1ValuePay
import proofs.«107127_j34162169872914_1_alg».proof.Proof.R1ValueSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The array both input windows read, as the region finds it. -/
abbrev yarr2 (c : Dev nD) : Vec Ideal S8192x128 .bf16 := V c main_v0_1
/-- The first input window's block at point `t`. -/
abbrev xblk2_0 (c : Dev nD) (t : Fin cfg2.N) : Vec Ideal S1024x128 .bf16 := iblk2 V c 0 t
/-- The second input window's block at point `t`. -/
abbrev xblk2_1 (c : Dev nD) (t : Fin cfg2.N) : Vec Ideal S1024x128 .bf16 := iblk2 V c 1 t

/-- Point `t` of the 8 × 8 grid has coordinates `(t / 8, t % 8)`: the first window sits on row block
    `t / 8`, the second on row block `t % 8`, both on the one column block. -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0 :=
  (by decide +kernel : ∀ t : Fin grid2.N, win2_0.index t (0 : Fin 2) = t.val / 8 ∧ win2_0.index t (1 : Fin 2) = 0
    ∧ win2_1.index t (0 : Fin 2) = t.val % 8 ∧ win2_1.index t (1 : Fin 2) = 0)

/-- Row `r` of the first window's block at point `t` is row `r` of row block `t / 8` of the array. -/
theorem xblk2_0_apply (c : Dev nD) (t : Fin cfg2.N) (r : Fin 1024) (d : Fin 128) :
    xblk2_0 V c t (ix2 r d) = yarr2 V c (ix2 (Cert.Spec.brow ⟨t.val / 8 % 8, Nat.mod_lt _ (by decide)⟩ r) d) := by
  have hN : cfg2.N = 64 := N_2
  have ht := t.isLt
  show V c main_v0_1 (((cfg2.win 0).blk t).view.emb (ix2 r d)) = V c main_v0_1 _
  refine congrArg (V c main_v0_1) (funext fun a => Fin.ext ?_)
  match a with
  | ⟨0, _⟩ =>
    show win2_0.index t 0 * 1024 + 1 * r.val = 1024 * (t.val / 8 % 8) + r.val
    rw [(idx_facts2 t).1]; omega
  | ⟨1, _⟩ =>
    show win2_0.index t 1 * 128 + 1 * d.val = d.val
    rw [(idx_facts2 t).2.1]; omega

/-- Row `s` of the second window's block at point `t` is row `s` of row block `t % 8` of the array. -/
theorem xblk2_1_apply (c : Dev nD) (t : Fin cfg2.N) (s : Fin 1024) (d : Fin 128) :
    xblk2_1 V c t (ix2 s d) = yarr2 V c (ix2 (Cert.Spec.brow ⟨t.val % 8, Nat.mod_lt _ (by decide)⟩ s) d) := by
  show V c main_v0_1 (((cfg2.win 1).blk t).view.emb (ix2 s d)) = V c main_v0_1 _
  refine congrArg (V c main_v0_1) (funext fun a => Fin.ext ?_)
  match a with
  | ⟨0, _⟩ =>
    show win2_1.index t 0 * 1024 + 1 * s.val = 1024 * (t.val % 8) + s.val
    rw [(idx_facts2 t).2.2.1]; omega
  | ⟨1, _⟩ =>
    show win2_1.index t 1 * 128 + 1 * d.val = d.val
    rw [(idx_facts2 t).2.2.2]; omega

/-- What point `t` adds to the cell: the potential summed over the pairs of a row of its first block
    with a row of its second — tile `t` of the array. -/
theorem tile2_eq (c : Dev nD) (t : Fin cfg2.N) :
    (∑ r : Fin 1024, ∑ s : Fin 1024, Ideal.exp (Cert.Spec.cm2 * max (Cert.Spec.c2 - Cert.Spec.c2
        * ∑ d : Fin 128, xblk2_0 V c t (ix2 r d) * xblk2_1 V c t (ix2 s d)) Cert.Spec.c0))
      = Cert.Spec.tileN (yarr2 V c) t.val := by
  unfold Cert.Spec.tileN Cert.Spec.tileS Cert.Spec.e Cert.Spec.dot
  refine Finset.sum_congr rfl fun r _ => Finset.sum_congr rfl fun s _ => ?_
  refine congrArg Ideal.exp (congrArg (Cert.Spec.cm2 * ·) (congrArg (max · Cert.Spec.c0)
    (congrArg (Cert.Spec.c2 - Cert.Spec.c2 * ·) (Finset.sum_congr rfl fun d _ => ?_))))
  rw [xblk2_0_apply, xblk2_1_apply]

/-- The cell after point `n`: the first `n + 1` tiles added up. -/
theorem acc2_eq (c : Dev nD) : ∀ (n : ℕ) (hn : n < cfg2.N),
    acc2 V c n hn = fun _ => ∑ t ∈ Finset.range (n + 1), Cert.Spec.tileN (yarr2 V c) t
  | 0, hn => by
    rw [acc2_zero]
    funext j
    refine (pay2_apply (xblk2_0 V c ⟨0, hn⟩) (xblk2_1 V c ⟨0, hn⟩) (k2_pay1 (F := Ideal)) j).trans ?_
    rw [pay2_zero, zero_add, Finset.sum_range_one]
    exact tile2_eq V c ⟨0, hn⟩
  | n + 1, hn => by
    rw [acc2_succ]
    funext j
    refine (pay2_apply (xblk2_0 V c ⟨n + 1, hn⟩) (xblk2_1 V c ⟨n + 1, hn⟩) (acc2 V c n (Nat.lt_of_succ_lt hn)) j).trans ?_
    rw [acc2_eq c n (Nat.lt_of_succ_lt hn), Finset.sum_range_succ _ (n + 1)]
    exact congrArg (_ + ·) (tile2_eq V c ⟨n + 1, hn⟩)

/-- The one write-back, at the last point, writes the full pair sum into the cell. -/
theorem flushed2_2_eq (c : Dev nD) (t : Fin cfg2.N) (hf : (cfg2.win 2).flush t = true) :
    (dat2 (F := Ideal) V c).flushed 2 t
      = ((cfg2.win 2).blk t).view.read (Elt Ideal) ((fun _ => Cert.Spec.pairS (yarr2 V c)) : S1x1.Idx → EReal) := by
  have hN : cfg2.N = 64 := N_2
  have h63 : t.val + 1 = 64 := by have := (flush2_2 t).mp hf; have := t.isLt; omega
  show (cfg2.win 2).cut (grid2.coords t) ((dat2 (F := Ideal) V c).after 2 t) = _
  rw [after2_2, acc2_eq, h63, ← Cert.Spec.pairS_eq_tiles]
  rfl

/-- The last point of the grid. -/
def tLast2 : Fin grid2.N := ⟨63, by rw [N_2]; decide⟩

/-- The result cell after the region: the full pair sum of the array both windows read. -/
theorem arrAt2_2 (c : Dev nD) : (dat2 (F := Ideal) V c).arrAt 2 cfg2.N = ((fun _ => Cert.Spec.pairS (V c main_v0_1)) : S1x1.Idx → EReal) :=
  (dat2 (F := Ideal) V c).arrAt_eq_of_cover 2 _ (flushed2_2_eq V c) fun i =>
    ⟨tLast2, (flush2_2 tLast2).mpr rfl, by
      show i ∈ ((View.whole main_v2).slice (win2_2.rect tLast2)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index tLast2 0 * win2_2.size 0 ≤ (i 0 : Nat) ∧ (i 0 : Nat) < win2_2.index tLast2 0 * win2_2.size 0 + win2_2.xsize (grid2.coords tLast2) 0
        rw [show win2_2.index tLast2 0 * win2_2.size 0 = 0 from by decide +kernel, show win2_2.xsize (grid2.coords tLast2) 0 = 1 from by decide +kernel]; omega
      | ⟨1, _⟩ =>
        show win2_2.index tLast2 1 * win2_2.size 1 ≤ (i 1 : Nat) ∧ (i 1 : Nat) < win2_2.index tLast2 1 * win2_2.size 1 + win2_2.xsize (grid2.coords tLast2) 1
        rw [show win2_2.index tLast2 1 * win2_2.size 1 = 0 from by decide +kernel, show win2_2.xsize (grid2.coords tLast2) 1 = 1 from by decide +kernel]; omega⟩

end Cert.KernelIdeal.Hand

end
-- ==== Proof.KernelValue.lean ====
/-
  The kernel's program read at the extended reals: its result is `Spec.resultK` of the two argument
  arrays. The first region leaves the normalised arrays and the alignment sum, each pairwise region the
  full pair sum of the normalised array it reads, and the closing scalar operations are `Spec.tailK`
  of the three cells.
-/
import proofs.«107127_j34162169872914_1_alg».proof.Proof.Run
import proofs.«107127_j34162169872914_1_alg».proof.Proof.R0Value
import proofs.«107127_j34162169872914_1_alg».proof.Proof.R1Value
import proofs.«107127_j34162169872914_1_alg».proof.Proof.R2Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The first normalised array as the pairwise regions find it. -/
theorem E1_v0_0 (c : Dev nD) : E1 m c main_v0_0 = (Cert.Spec.nrm (m ((c : Thread nD τ).loc main_arg0)) : S8192x128.Idx → EReal) :=
  (W1_arr m c 2).trans (arrAt0_2 (E0 m) c)
/-- The second normalised array after the first region. -/
theorem E1_v0_1 (c : Dev nD) : E1 m c main_v0_1 = (Cert.Spec.nrm (m ((c : Thread nD τ).loc main_arg1)) : S8192x128.Idx → EReal) :=
  (W1_arr m c 3).trans (arrAt0_3 (E0 m) c)
/-- The alignment cell after the first region. -/
theorem E1_v0_2 (c : Dev nD) : E1 m c main_v0_2 = ((fun _ => Cert.Spec.alignS (Cert.Spec.nrm (m ((c : Thread nD τ).loc main_arg0))) (Cert.Spec.nrm (m ((c : Thread nD τ).loc main_arg1)))) : S1x1.Idx → EReal) :=
  (W1_arr m c 4).trans (arrAt0_4 (E0 m) c)

/-- The three cells the closing operations read, after all three regions. -/
theorem W3_v0_2 (c : Dev nD) : W3 m c (Proc.devRef .tc main_v0_2) = ((fun _ => Cert.Spec.alignS (Cert.Spec.nrm (m ((c : Thread nD τ).loc main_arg0))) (Cert.Spec.nrm (m ((c : Thread nD τ).loc main_arg1)))) : S1x1.Idx → EReal) :=
  (W3_of_ne m c main_v0_2 (by decide)).trans ((W2_of_ne m c main_v0_2 (by decide)).trans (E1_v0_2 m c))
theorem W3_v1 (c : Dev nD) : W3 m c (Proc.devRef .tc main_v1) = ((fun _ => Cert.Spec.pairS (Cert.Spec.nrm (m ((c : Thread nD τ).loc main_arg0)))) : S1x1.Idx → EReal) :=
  (W3_of_ne m c main_v1 (by decide)).trans ((W2_v1 m c).trans ((arrAt1_2 (E1 m) c).trans (by rw [E1_v0_0])))
theorem W3_v2' (c : Dev nD) : W3 m c (Proc.devRef .tc main_v2) = ((fun _ => Cert.Spec.pairS (Cert.Spec.nrm (m ((c : Thread nD τ).loc main_arg1)))) : S1x1.Idx → EReal) :=
  (W3_v2 m c).trans ((arrAt2_2 (E2 m) c).trans (by
    rw [show E2 m c main_v0_1 = E1 m c main_v0_1 from W2_of_ne m c main_v0_1 (by decide), E1_v0_1]))

/-- The program's result buffer after the run. -/
theorem W4_v18 (c : Dev nD) : W4 m c (Proc.devRef .tc main_v18)
    = ((fun _ => Cert.Spec.resultK (m ((c : Thread nD τ).loc main_arg0)) (m ((c : Thread nD τ).loc main_arg1))) : S_.Idx → EReal) := by
  show StableHlo.after hostOps3 (W3 m c) (Proc.devRef .tc main_v18) = _
  after_results
  rw [W3_v0_2, W3_v1, W3_v2']
  funext i
  unfold Cert.Spec.resultK Cert.Spec.tailK Cert.Spec.cN Cert.Spec.c1 Cert.Spec.c2 Cert.Spec.cNp
  simp only [addf, mulf, subf, Host.divf, Host.log, constant, Ideal.addf_def, Ideal.mulf_def, Ideal.subf_def, Ideal.hostDivf_def, Ideal.hostUnary_log_def, Ideal.ofBits_def]
  rfl

/-- THE VALUE RUN: the program runs to the end with its result at `Spec.resultK` of the arguments and the
    arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v18)
        = ((fun _ => Cert.Spec.resultK (m ((c : Thread nD τ).loc main_arg0)) (m ((c : Thread nD τ).loc main_arg1))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v18 (by decide))).trans (W4_v18 m c),
     (h c _ (mem_uc main_arg0 (by decide))).trans (W4_main_arg0 m c),
     (h c _ (mem_uc main_arg1 (by decide))).trans (W4_main_arg1 m c)⟩) (run_main m ρ)

end Cert.KernelIdeal.Hand

end
-- ==== Proof.RefValue.lean ====
/-
  The reference, read one operation at a time at the extended reals: its result is `Spec.resultR` of
  the two argument arrays — the rows normalised by their guarded norms, the mean of the squared
  differences, and for each normalised array the logarithm of the masked (i < j) potential sum over
  the number of pairs.

  The order of the lemmas follows the program. Each argument's rows are divided by `max (√(row's
  squared norm)) ε`, which is `Spec.nrm`. The alignment term sums the squared differences of the two
  normalised arrays row by row and then over the rows, and divides by the number of rows. For each
  normalised array `y`, entry (i, j) of `y yᵀ` is the inner product `Spec.dot y i j`, the potential is
  `exp (-2 · max (2 - 2 · dot) 0)`, and the mask keeps the entries with i < j: the mask's bit is the
  negation of the comparison `i + 0 ≥ j` of the row and column counters, both below 2³¹, so it is decided
  on their values. The full sum of the masked potential over the square index set is the double sum
  `Spec.triS y`; the two logarithms and the alignment term are then combined by the closing scalar
  arithmetic, which is `Spec.tailR`.
-/
import proofs.«107127_j34162169872914_1_alg».proof.Proof.Gen.ReferenceIdeal.Run
import proofs.«107127_j34162169872914_1_alg».proof.Proof.Gen.ReferenceIdeal.Read
import proofs.«107127_j34162169872914_1_alg».proof.Proof.Spec
import Idealize.ShloMosaic.Lib.ValueIdxRank1
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx Idealize.SL.Sem

/-- The row-sum index of the guarded-norm chain, at coordinates. -/
theorem idx_row (i : Fin 8192) (d k : Fin 128) :
    idx_main_v1 (idx_main_v2 (idx_main_v6 (ix2 i d))) k = ix2 i k :=
  funext fun a => Fin.ext (by match a with | ⟨0, _⟩ => rfl | ⟨1, _⟩ => rfl)

/-- The first argument's rows, each divided by its guarded norm, at coordinates. -/
theorem v7_at (x0 : (⟨S8192x128, .f32⟩ : BufTy).Contents (Elt Ideal)) (i : Fin 8192) (d : Fin 128) :
    val_main_v7 (F := Ideal) x0 (ix2 i d) = Cert.Spec.nrm x0 (ix2 i d) := by
  rw [val_main_v7_apply, val_main_v6_apply, val_main_v5_apply, val_main_v3_apply, val_main_v2_apply, val_main_v1_apply,
    val_main_v4_apply, val_main_cst_0_apply, val_main_cst_apply]
  simp only [val_main_v0_apply, idx_row, Ideal.mulf_def, Ideal.maximumf_def, Ideal.hostDivf_def, Ideal.hostUnary_sqrt_def,
    Ideal.ofBits_def, Ideal.ofBits_zero_f32, zero_add]
  rfl

/-- The first normalised array, as a function. -/
theorem v7_eq (x0 : (⟨S8192x128, .f32⟩ : BufTy).Contents (Elt Ideal)) :
    val_main_v7 (F := Ideal) x0 = Cert.Spec.nrm x0 := by
  funext j; rw [eq_ix2 j]; exact v7_at x0 (j 0) (j 1)

/-- The same index fact for the second argument's chain. -/
theorem idx_row' (i : Fin 8192) (d k : Fin 128) :
    idx_main_v9 (idx_main_v10 (idx_main_v14 (ix2 i d))) k = ix2 i k :=
  funext fun a => Fin.ext (by match a with | ⟨0, _⟩ => rfl | ⟨1, _⟩ => rfl)

/-- The second argument's rows, each divided by its guarded norm, at coordinates. -/
theorem v15_at (x1 : (⟨S8192x128, .f32⟩ : BufTy).Contents (Elt Ideal)) (i : Fin 8192) (d : Fin 128) :
    val_main_v15 (F := Ideal) x1 (ix2 i d) = Cert.Spec.nrm x1 (ix2 i d) := by
  rw [val_main_v15_apply, val_main_v14_apply, val_main_v13_apply, val_main_v11_apply, val_main_v10_apply, val_main_v9_apply,
    val_main_v12_apply, val_main_cst_2_apply, val_main_cst_1_apply]
  simp only [val_main_v8_apply, idx_row', Ideal.mulf_def, Ideal.maximumf_def, Ideal.hostDivf_def, Ideal.hostUnary_sqrt_def,
    Ideal.ofBits_def, Ideal.ofBits_zero_f32, zero_add]
  rfl

/-- The second normalised array, as a function. -/
theorem v15_eq (x1 : (⟨S8192x128, .f32⟩ : BufTy).Contents (Elt Ideal)) :
    val_main_v15 (F := Ideal) x1 = Cert.Spec.nrm x1 := by
  funext j; rw [eq_ix2 j]; exact v15_at x1 (j 0) (j 1)

/-- The row index of the alignment sum, at coordinates. -/
theorem idx_align (a : Fin 8192) (k : Fin 128) : idx_main_v18 (ix1 a) k = ix2 a k :=
  funext fun b => Fin.ext (by match b with | ⟨0, _⟩ => rfl | ⟨1, _⟩ => rfl)

/-- One row of the alignment sum: the squared differences of the two normalised rows, summed. -/
theorem v18_at (x0 x1 : (⟨S8192x128, .f32⟩ : BufTy).Contents (Elt Ideal)) (a : Fin 8192) :
    val_main_v18 (F := Ideal) x0 x1 (ix1 a)
      = ∑ d : Fin 128, (Cert.Spec.nrm x0 (ix2 a d) - Cert.Spec.nrm x1 (ix2 a d)) * (Cert.Spec.nrm x0 (ix2 a d) - Cert.Spec.nrm x1 (ix2 a d)) := by
  rw [val_main_v18_apply, val_main_cst_3_apply]
  simp only [val_main_v17_apply, val_main_v16_apply, v7_eq, v15_eq, idx_align, Ideal.mulf_def, Ideal.subf_def,
    Ideal.ofBits_def, Ideal.ofBits_zero_f32, zero_add]

/-- The mean of the squared differences: the sum over all rows, divided by the number of rows. -/
theorem v20_at (x0 x1 : (⟨S8192x128, .f32⟩ : BufTy).Contents (Elt Ideal)) (i : S_.Idx) :
    val_main_v20 (F := Ideal) x0 x1 i
      = Ideal.div (Cert.Spec.alignS (Cert.Spec.nrm x0) (Cert.Spec.nrm x1)) Cert.Spec.cN := by
  rw [val_main_v20_apply, val_main_v19_apply, val_main_cst_5_apply, val_main_cst_4_apply]
  simp only [Ideal.hostDivf_def, Ideal.ofBits_def, Ideal.ofBits_zero_f32, zero_add]
  have h : ∑ j : S8192.Idx, val_main_v18 (F := Ideal) x0 x1 j
      = Cert.Spec.alignS (Cert.Spec.nrm x0) (Cert.Spec.nrm x1) := by
    rw [← Equiv.sum_comp (idxEquiv1 (n := 8192)).symm]
    exact Finset.sum_congr rfl fun a _ => v18_at x0 x1 a
  rw [h]; rfl

/-- The left operand's index in the product of the normalised array with its transpose. -/
theorem idx_dotL (i j : Fin 8192) (k : Fin 128) : lidx_main_v22 (ix2 i j) k = ix2 i k :=
  funext fun a => Fin.ext (by match a with | ⟨0, _⟩ => rfl | ⟨1, _⟩ => rfl)

/-- The right operand's index, through the transpose. -/
theorem idx_dotR (i j : Fin 8192) (k : Fin 128) : idx_main_v21 (ridx_main_v22 (ix2 i j) k) = ix2 j k :=
  funext fun a => Fin.ext (by match a with | ⟨0, _⟩ => rfl | ⟨1, _⟩ => rfl)

/-- Entry (i, j) of the product is the inner product of the normalised rows i and j. -/
theorem v22_at (x0 : (⟨S8192x128, .f32⟩ : BufTy).Contents (Elt Ideal)) (i j : Fin 8192) :
    val_main_v22 (F := Ideal) x0 (ix2 i j) = Cert.Spec.dot (Cert.Spec.nrm x0) i j := by
  rw [val_main_v22_apply]
  simp only [val_main_v21_apply, idx_dotL, idx_dotR, v7_eq]
  rfl

/-- Entry (i, j) of the potential: the exponential of minus twice the clamped squared distance. -/
theorem v33_at (x0 : (⟨S8192x128, .f32⟩ : BufTy).Contents (Elt Ideal)) (i j : Fin 8192) :
    val_main_v33 (F := Ideal) x0 (ix2 i j) = Cert.Spec.e (Cert.Spec.nrm x0) i j := by
  rw [val_main_v33_apply, val_main_v32_apply, val_main_v31_apply, val_main_cst_9_apply, val_main_v28_apply,
    val_main_v26_apply, val_main_v25_apply, val_main_cst_7_apply, val_main_v24_apply, val_main_v23_apply,
    val_main_cst_6_apply, val_main_v27_apply, val_main_cst_8_apply, v22_at]
  simp only [Ideal.mulf_def, Ideal.subf_def, Ideal.maximumf_def, Ideal.hostUnary_exp_def, Ideal.ofBits_def]
  rfl

/-- The mask is the strict upper triangle: its bit at (i, j) is set exactly when i < j. -/
theorem v30_at (i j : Fin 8192) :
    val_main_v30 (F := Ideal) (ix2 i j) = if i.val < j.val then 1#1 else 0#1 := by
  rw [val_main_v30_apply, val_main_call0_v4_apply, val_main_call0_v2_apply, val_main_call0_v0_apply,
    val_main_call0_v1_apply, val_main_call0_c_apply, val_main_call0_v3_apply, val_main_call0_v5_apply,
    val_main_call0_c_0_apply, val_main_v29_apply, val_main_c_apply]
  have hi : (BitVec.ofNat 32 i.val).toNat = i.val := by
    rw [BitVec.toNat_ofNat]; have := i.isLt; omega
  have hj : (BitVec.ofNat 32 j.val).toNat = j.val := by
    rw [BitVec.toNat_ofNat]; have := j.isLt; omega
  have ha : IntOp.addi (BitVec.ofNat 32 i.val) 0#32 = BitVec.ofNat 32 i.val := by
    unfold IntOp.addi; exact BitVec.add_zero _
  show Scalar.select (IntOp.cmpi .sge (IntOp.addi (BitVec.ofNat 32 i.val) 0#32) (BitVec.ofNat 32 j.val)) 0#1 1#1 = _
  rw [ha]
  have hc := StableHlo.Predicate.sge_iff_toNat (a := BitVec.ofNat 32 i.val) (b := BitVec.ofNat 32 j.val)
    (by rw [hi]; have := i.isLt; omega) (by rw [hj]; have := j.isLt; omega)
  rw [hi, hj] at hc
  by_cases h : i.val < j.val
  · rw [if_pos h, eq_zero_of_ne_one (fun hh => absurd (hc.mp hh) (by omega)), select_zero]
  · rw [if_neg h, hc.mpr (by omega), select_one]

/-- The masked potential: the potential above the diagonal, the zero word on and below it. -/
theorem v34_at (x0 : (⟨S8192x128, .f32⟩ : BufTy).Contents (Elt Ideal)) (i j : Fin 8192) :
    val_main_v34 (F := Ideal) x0 (ix2 i j)
      = if i.val < j.val then Cert.Spec.e (Cert.Spec.nrm x0) i j else Cert.Spec.c0 := by
  rw [val_main_v34_apply, v30_at, v33_at, val_main_call1_v1_apply, val_main_call1_v0_apply, val_main_cst_10_apply]
  by_cases h : i.val < j.val
  · rw [if_pos h, if_pos h, select_one]
  · rw [if_neg h, if_neg h, select_zero]; rfl

/-- The logarithm of the masked potential's sum over the number of pairs. -/
theorem v37_at (x0 : (⟨S8192x128, .f32⟩ : BufTy).Contents (Elt Ideal)) (i : S_.Idx) :
    val_main_v37 (F := Ideal) x0 i
      = Ideal.log (Ideal.div (Cert.Spec.triS (Cert.Spec.nrm x0)) Cert.Spec.cNp) := by
  rw [val_main_v37_apply, val_main_v36_apply, val_main_v35_apply, val_main_cst_12_apply, val_main_cst_11_apply]
  simp only [Ideal.hostDivf_def, Ideal.hostUnary_log_def, Ideal.ofBits_def, Ideal.ofBits_zero_f32, zero_add]
  have h : ∑ j : S8192x8192.Idx, val_main_v34 (F := Ideal) x0 j = Cert.Spec.triS (Cert.Spec.nrm x0) := by
    rw [sum_idx2]
    exact Finset.sum_congr rfl fun a _ => Finset.sum_congr rfl fun b _ => v34_at x0 a b
  rw [h]; rfl

/-- The left operand's index, for the second normalised array. -/
theorem idx_dotL' (i j : Fin 8192) (k : Fin 128) : lidx_main_v39 (ix2 i j) k = ix2 i k :=
  funext fun a => Fin.ext (by match a with | ⟨0, _⟩ => rfl | ⟨1, _⟩ => rfl)

/-- The right operand's index through the transpose, for the second normalised array. -/
theorem idx_dotR' (i j : Fin 8192) (k : Fin 128) : idx_main_v38 (ridx_main_v39 (ix2 i j) k) = ix2 j k :=
  funext fun a => Fin.ext (by match a with | ⟨0, _⟩ => rfl | ⟨1, _⟩ => rfl)

/-- Entry (i, j) of the second product is the inner product of the second array's normalised rows i and j. -/
theorem v39_at (x1 : (⟨S8192x128, .f32⟩ : BufTy).Contents (Elt Ideal)) (i j : Fin 8192) :
    val_main_v39 (F := Ideal) x1 (ix2 i j) = Cert.Spec.dot (Cert.Spec.nrm x1) i j := by
  rw [val_main_v39_apply]
  simp only [val_main_v38_apply, idx_dotL', idx_dotR', v15_eq]
  rfl

/-- Entry (i, j) of the second array's potential. -/
theorem v50_at (x1 : (⟨S8192x128, .f32⟩ : BufTy).Contents (Elt Ideal)) (i j : Fin 8192) :
    val_main_v50 (F := Ideal) x1 (ix2 i j) = Cert.Spec.e (Cert.Spec.nrm x1) i j := by
  rw [val_main_v50_apply, val_main_v49_apply, val_main_v48_apply, val_main_cst_17_apply, val_main_v45_apply,
    val_main_v43_apply, val_main_v42_apply, val_main_cst_14_apply, val_main_v41_apply, val_main_v40_apply,
    val_main_cst_13_apply, val_main_v44_apply, val_main_cst_15_apply, v39_at]
  simp only [Ideal.mulf_def, Ideal.subf_def, Ideal.maximumf_def, Ideal.hostUnary_exp_def, Ideal.ofBits_def]
  rfl

/-- The second mask is the strict upper triangle too. -/
theorem v47_at (i j : Fin 8192) :
    val_main_v47 (F := Ideal) (ix2 i j) = if i.val < j.val then 1#1 else 0#1 := by
  rw [val_main_v47_apply, val_main_call2_v4_apply, val_main_call2_v2_apply, val_main_call2_v0_apply,
    val_main_call2_v1_apply, val_main_call2_c_apply, val_main_call2_v3_apply, val_main_call2_v5_apply,
    val_main_call2_c_0_apply, val_main_v46_apply, val_main_c_16_apply]
  have hi : (BitVec.ofNat 32 i.val).toNat = i.val := by
    rw [BitVec.toNat_ofNat]; have := i.isLt; omega
  have hj : (BitVec.ofNat 32 j.val).toNat = j.val := by
    rw [BitVec.toNat_ofNat]; have := j.isLt; omega
  have ha : IntOp.addi (BitVec.ofNat 32 i.val) 0#32 = BitVec.ofNat 32 i.val := by
    unfold IntOp.addi; exact BitVec.add_zero _
  show Scalar.select (IntOp.cmpi .sge (IntOp.addi (BitVec.ofNat 32 i.val) 0#32) (BitVec.ofNat 32 j.val)) 0#1 1#1 = _
  rw [ha]
  have hc := StableHlo.Predicate.sge_iff_toNat (a := BitVec.ofNat 32 i.val) (b := BitVec.ofNat 32 j.val)
    (by rw [hi]; have := i.isLt; omega) (by rw [hj]; have := j.isLt; omega)
  rw [hi, hj] at hc
  by_cases h : i.val < j.val
  · rw [if_pos h, eq_zero_of_ne_one (fun hh => absurd (hc.mp hh) (by omega)), select_zero]
  · rw [if_neg h, hc.mpr (by omega), select_one]

/-- The second array's masked potential. -/
theorem v51_at (x1 : (⟨S8192x128, .f32⟩ : BufTy).Contents (Elt Ideal)) (i j : Fin 8192) :
    val_main_v51 (F := Ideal) x1 (ix2 i j)
      = if i.val < j.val then Cert.Spec.e (Cert.Spec.nrm x1) i j else Cert.Spec.c0 := by
  rw [val_main_v51_apply, v47_at, v50_at, val_main_call3_v1_apply, val_main_call3_v0_apply, val_main_cst_18_apply]
  by_cases h : i.val < j.val
  · rw [if_pos h, if_pos h, select_one]
  · rw [if_neg h, if_neg h, select_zero]; rfl

/-- The logarithm of the second masked sum over the number of pairs. -/
theorem v54_at (x1 : (⟨S8192x128, .f32⟩ : BufTy).Contents (Elt Ideal)) (i : S_.Idx) :
    val_main_v54 (F := Ideal) x1 i
      = Ideal.log (Ideal.div (Cert.Spec.triS (Cert.Spec.nrm x1)) Cert.Spec.cNp) := by
  rw [val_main_v54_apply, val_main_v53_apply, val_main_v52_apply, val_main_cst_20_apply, val_main_cst_19_apply]
  simp only [Ideal.hostDivf_def, Ideal.hostUnary_log_def, Ideal.ofBits_def, Ideal.ofBits_zero_f32, zero_add]
  have h : ∑ j : S8192x8192.Idx, val_main_v51 (F := Ideal) x1 j = Cert.Spec.triS (Cert.Spec.nrm x1) := by
    rw [sum_idx2]
    exact Finset.sum_congr rfl fun a _ => Finset.sum_congr rfl fun b _ => v51_at x1 a b
  rw [h]; rfl

/-- The last stage of the reference's run is `Spec.resultR` of the arguments, at the result's one index. -/
theorem val_result (x0 x1 : (⟨S8192x128, .f32⟩ : BufTy).Contents (Elt Ideal)) :
    val_main_v58 (F := Ideal) x0 x1 = fun _ => Cert.Spec.resultR x0 x1 := by
  funext i
  rw [val_main_v58_apply, val_main_v57_apply, val_main_cst_22_apply, val_main_v56_apply, val_main_cst_21_apply,
    val_main_v55_apply, v20_at, v37_at, v54_at]
  simp only [Ideal.addf_def, Ideal.mulf_def, Ideal.hostDivf_def, Ideal.ofBits_def]
  rfl

end Cert.ReferenceIdeal.RefValue

end
-- ==== Proof.Algebra.lean ====
/-
  The law that joins the two programs: on the domain (`Spec.Dom`: real entries, every row's norm at
  least ε) the normalised rows are unit vectors, so the potential is 1 on the diagonal and symmetric
  off it, the full pair sum is `N + 2 ·` the strict upper-triangle sum, and the kernel's closing
  arithmetic `((P - N) / 2) / npairs` is the reference's `T / npairs`.

  Order of the argument: the seven literal words' values; a finite real sum and a real maximum pass
  through the cast to the extended reals; the counting identity for a symmetric array with unit
  diagonal; the real squared norms, normalised rows, inner products and potentials, and the casts
  that identify the specification's extended-real quantities with them; the closing arithmetic.
-/
import proofs.«107127_j34162169872914_1_alg».proof.Proof.Spec
import Mathlib.Analysis.SpecialFunctions.Sqrt
import Mathlib.Analysis.SpecialFunctions.Exp
import Mathlib.Data.EReal.Operations
import Mathlib.Data.EReal.Inv

noncomputable section

namespace Cert.Spec

open Idealize.ShloMosaic Idealize.ShloMosaic.ValueIdx

/-! ### The literal words -/

/-- The zero word denotes `0`. -/
theorem c0_eq : c0 = ((0 : ℝ) : EReal) := by
  unfold c0; simp [Ideal.ofBits, Ideal.ieee]

/-- The word of one denotes `1`. -/
theorem c1_eq : c1 = ((1 : ℝ) : EReal) := by
  unfold c1; simp [Ideal.ofBits, Ideal.ieee, -EReal.coe_mul]; norm_num

/-- The word of two denotes `2`. -/
theorem c2_eq : c2 = ((2 : ℝ) : EReal) := by
  unfold c2; simp [Ideal.ofBits, Ideal.ieee, -EReal.coe_mul]; norm_num

/-- The word of minus two denotes `-2`. -/
theorem cm2_eq : cm2 = ((-2 : ℝ) : EReal) := by
  unfold cm2; simp [Ideal.ofBits, Ideal.ieee, -EReal.coe_mul]; norm_num

/-- The word of the row count denotes `8192`. -/
theorem cN_eq : cN = ((8192 : ℝ) : EReal) := by
  unfold cN; simp [Ideal.ofBits, Ideal.ieee, -EReal.coe_mul]; norm_num

/-- The word of the pair count denotes `33550336`. -/
theorem cNp_eq : cNp = ((33550336 : ℝ) : EReal) := by
  unfold cNp; simp [Ideal.ofBits, Ideal.ieee, -EReal.coe_mul]; norm_num

/-- The guard word denotes a positive real. -/
theorem cEps_eq : ∃ ε : ℝ, 0 < ε ∧ cEps = (ε : EReal) := by
  unfold cEps; simp [Ideal.ofBits, Ideal.ieee, -EReal.coe_mul]

/-! ### Casts and the counting identity -/

/-- A finite sum of reals, cast, is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast of a maximum of reals is the maximum of the casts. -/
theorem coe_max (a b : ℝ) : ((max a b : ℝ) : EReal) = max (a : EReal) (b : EReal) :=
  EReal.coe_strictMono.monotone.map_max

/-- A symmetric array with unit diagonal: the full sum is the diagonal count plus twice the strict
    upper triangle. -/
theorem sum_sym (n : ℕ) (f : Fin n → Fin n → ℝ) (hs : ∀ i j, f i j = f j i) (hd : ∀ i, f i i = 1) :
    ∑ i, ∑ j, f i j = (n : ℝ) + 2 * ∑ i, ∑ j, (if i.val < j.val then f i j else 0) := by
  have h1 : ∀ i j, f i j = (if i.val < j.val then f i j else 0) + (if j.val < i.val then f j i else 0)
      + (if i = j then 1 else 0) := by
    intro i j
    rcases lt_trichotomy i.val j.val with h | h | h
    · have hne : i ≠ j := fun e => by subst e; omega
      simp [h, not_lt.mpr h.le, hne]
    · have he : i = j := Fin.ext h
      subst he; simp [hd]
    · have hne : i ≠ j := fun e => by subst e; omega
      simp [h, not_lt.mpr h.le, hne, hs i j]
  have h2 : ∑ i : Fin n, ∑ j : Fin n, (if j.val < i.val then f j i else 0)
      = ∑ i : Fin n, ∑ j : Fin n, (if i.val < j.val then f i j else 0) := Finset.sum_comm
  have h3 : ∑ i : Fin n, ∑ j : Fin n, (if i = j then (1 : ℝ) else 0) = n := by
    simp
  calc ∑ i, ∑ j, f i j
      = ∑ i, ∑ j, ((if i.val < j.val then f i j else 0) + (if j.val < i.val then f j i else 0)
          + (if i = j then 1 else 0)) :=
        Finset.sum_congr rfl fun i _ => Finset.sum_congr rfl fun j _ => h1 i j
    _ = (n : ℝ) + 2 * ∑ i, ∑ j, (if i.val < j.val then f i j else 0) := by
        simp only [Finset.sum_add_distrib]
        rw [h2, h3]; ring

/-! ### The real quantities and their casts -/

/-- The squared norm of row `i` of a real array. -/
def ssR (r : SQ.Idx → ℝ) (i : Fin 8192) : ℝ := ∑ d : Fin 128, r (ix2 i d) * r (ix2 i d)

/-- A real array's rows divided by their norms. -/
def nrmR (r : SQ.Idx → ℝ) : SQ.Idx → ℝ :=
  fun j => r j / Real.sqrt (ssR r ⟨(j 0).val, (j 0).isLt⟩)

/-- The inner product of rows `i` and `j` of a real array. -/
def dotR (y : SQ.Idx → ℝ) (i j : Fin 8192) : ℝ := ∑ d : Fin 128, y (ix2 i d) * y (ix2 j d)

/-- The Gaussian potential of the pair `(i, j)` of a real array. -/
def eR (y : SQ.Idx → ℝ) (i j : Fin 8192) : ℝ := Real.exp (-2 * max (2 - 2 * dotR y i j) 0)

theorem ss_coe (r : SQ.Idx → ℝ) (i : Fin 8192) :
    ss (fun j => (r j : EReal)) i = (ssR r i : EReal) := by
  unfold ss ssR; rw [coe_sum]; simp only [EReal.coe_mul]

theorem ssR_nonneg (r : SQ.Idx → ℝ) (i : Fin 8192) : 0 ≤ ssR r i :=
  Finset.sum_nonneg fun _ _ => mul_self_nonneg _

theorem sqrt_ss_coe (r : SQ.Idx → ℝ) (i : Fin 8192) :
    Ideal.sqrt (ss (fun j => (r j : EReal)) i) = (Real.sqrt (ssR r i) : EReal) := by
  rw [ss_coe, Ideal.sqrt_coe, if_neg (not_lt.mpr (ssR_nonneg r i))]

/-- A row whose norm is at least ε has a positive norm. -/
theorem sqrt_ssR_pos (r : SQ.Idx → ℝ)
    (h : ∀ i : Fin 8192, cEps ≤ Ideal.sqrt (ss (fun j => (r j : EReal)) i)) (i : Fin 8192) :
    0 < Real.sqrt (ssR r i) := by
  obtain ⟨ε, hε, he⟩ := cEps_eq
  have hi := h i
  rw [sqrt_ss_coe, he, EReal.coe_le_coe_iff] at hi
  exact lt_of_lt_of_le hε hi

/-- On such an array the guard is idle: the guarded norm is the norm. -/
theorem den_coe (r : SQ.Idx → ℝ)
    (h : ∀ i : Fin 8192, cEps ≤ Ideal.sqrt (ss (fun j => (r j : EReal)) i)) (i : Fin 8192) :
    den (fun j => (r j : EReal)) i = (Real.sqrt (ssR r i) : EReal) := by
  unfold den; rw [max_eq_left (h i), sqrt_ss_coe]

/-- The normalised array is the cast of the real normalised array. -/
theorem nrm_coe (r : SQ.Idx → ℝ)
    (h : ∀ i : Fin 8192, cEps ≤ Ideal.sqrt (ss (fun j => (r j : EReal)) i)) :
    nrm (fun j => (r j : EReal)) = fun j => ((nrmR r j : ℝ) : EReal) := by
  funext j
  show Ideal.div (r j : EReal) (den (fun j => (r j : EReal)) ⟨(j 0).val, (j 0).isLt⟩)
    = ((r j / Real.sqrt (ssR r ⟨(j 0).val, (j 0).isLt⟩) : ℝ) : EReal)
  rw [den_coe r h, Ideal.div_coe (ne_of_gt (sqrt_ssR_pos r h _)), ← EReal.coe_mul, mul_one_div]

/-- The normalised rows are unit vectors. -/
theorem nrmR_unit (r : SQ.Idx → ℝ)
    (h : ∀ i : Fin 8192, cEps ≤ Ideal.sqrt (ss (fun j => (r j : EReal)) i)) (i : Fin 8192) :
    ∑ d : Fin 128, nrmR r (ix2 i d) * nrmR r (ix2 i d) = 1 := by
  have hS : 0 < ssR r i := Real.sqrt_pos.mp (sqrt_ssR_pos r h i)
  have ht : ∀ d : Fin 128, nrmR r (ix2 i d) * nrmR r (ix2 i d)
      = (r (ix2 i d) * r (ix2 i d)) / ssR r i := by
    intro d
    show r (ix2 i d) / Real.sqrt (ssR r i) * (r (ix2 i d) / Real.sqrt (ssR r i)) = _
    rw [div_mul_div_comm, Real.mul_self_sqrt hS.le]
  rw [Finset.sum_congr rfl fun d _ => ht d, ← Finset.sum_div]
  exact div_self (ne_of_gt hS)

theorem dot_coe (y : SQ.Idx → ℝ) (i j : Fin 8192) :
    dot (fun a => (y a : EReal)) i j = (dotR y i j : EReal) := by
  unfold dot dotR; rw [coe_sum]; simp only [EReal.coe_mul]

/-- The potential of a real array is a real. -/
theorem e_coe (y : SQ.Idx → ℝ) (i j : Fin 8192) :
    e (fun a => (y a : EReal)) i j = (eR y i j : EReal) := by
  unfold e eR
  rw [dot_coe, cm2_eq, c2_eq, c0_eq, ← EReal.coe_mul, ← EReal.coe_sub, ← coe_max, ← EReal.coe_mul,
    Ideal.exp_coe]

/-- The potential is symmetric. -/
theorem eR_symm (y : SQ.Idx → ℝ) (i j : Fin 8192) : eR y i j = eR y j i := by
  have hd : dotR y i j = dotR y j i := Finset.sum_congr rfl fun _ _ => mul_comm _ _
  unfold eR; rw [hd]

/-- On unit rows the potential is `1` on the diagonal. -/
theorem eR_diag (y : SQ.Idx → ℝ) (hy : ∀ i : Fin 8192, ∑ d : Fin 128, y (ix2 i d) * y (ix2 i d) = 1)
    (i : Fin 8192) : eR y i i = 1 := by
  have hd : dotR y i i = 1 := hy i
  unfold eR; rw [hd]; norm_num

theorem pairS_coe (y : SQ.Idx → ℝ) :
    pairS (fun a => (y a : EReal)) = ((∑ i : Fin 8192, ∑ j : Fin 8192, eR y i j : ℝ) : EReal) := by
  unfold pairS; rw [coe_sum]
  refine Finset.sum_congr rfl fun i _ => ?_
  rw [coe_sum]
  exact Finset.sum_congr rfl fun j _ => e_coe y i j

theorem triS_coe (y : SQ.Idx → ℝ) :
    triS (fun a => (y a : EReal))
      = ((∑ i : Fin 8192, ∑ j : Fin 8192, (if i.val < j.val then eR y i j else 0) : ℝ) : EReal) := by
  unfold triS; rw [coe_sum]
  refine Finset.sum_congr rfl fun i _ => ?_
  rw [coe_sum]
  refine Finset.sum_congr rfl fun j _ => ?_
  rw [e_coe, c0_eq]; split_ifs <;> rfl

/-- On unit rows, half of the full pair sum less the diagonal is the strict upper-triangle sum. -/
theorem half_eq (y : SQ.Idx → ℝ) (hy : ∀ i : Fin 8192, ∑ d : Fin 128, y (ix2 i d) * y (ix2 i d) = 1) :
    Ideal.div (pairS (fun a => (y a : EReal)) - cN) c2 = triS (fun a => (y a : EReal)) := by
  rw [pairS_coe, triS_coe, cN_eq, c2_eq, sum_sym 8192 (eR y) (eR_symm y) (eR_diag y hy),
    ← EReal.coe_sub, Ideal.div_coe (by norm_num), ← EReal.coe_mul, EReal.coe_eq_coe_iff]
  push_cast; ring

/-- The same on the domain, for the normalised array. -/
theorem half_dom (x : SQ.Idx → EReal) (hx : Dom x) :
    Ideal.div (pairS (nrm x) - cN) c2 = triS (nrm x) := by
  obtain ⟨hr, hε⟩ := hx
  choose r hr using hr
  obtain rfl : x = fun j => (r j : EReal) := funext hr
  rw [nrm_coe r hε]
  exact half_eq (nrmR r) (nrmR_unit r hε)

/-- On the domain the two results are the same extended real. -/
theorem result_eq (q k : SQ.Idx → EReal) (hq : Dom q) (hk : Dom k) : resultK q k = resultR q k := by
  unfold resultK resultR tailK tailR
  rw [half_dom q hq, half_dom k hk]

end Cert.Spec

end
-- ==== Proof.PreDom.lean ====
/-
  The printed precondition read back: when it evaluates to all ones at the extended reals, both
  argument arrays lie in the domain `Spec.Dom` — every entry is a real number (its absolute value is
  below +∞) and every row's norm √(Σ x²) is at least ε.
-/
import proofs.«107127_j34162169872914_1_alg».proof.Pre_finite_inputs
import proofs.«107127_j34162169872914_1_alg».proof.Proof.Gen.Pre_finite_inputs
import proofs.«107127_j34162169872914_1_alg».proof.Proof.Spec
import Idealize.ShloMosaic.Lib.ReduceAll
import Idealize.ShloMosaic.Lib.StableHlo.Predicate
import Idealize.ShloMosaic.PureOps.Ideal.Laws

noncomputable section

namespace Cert.PreDom

open Idealize.ShloMosaic Idealize.ShloMosaic.ValueIdx
open Cert.Pre_finite_inputs

/-- The rank-0 shape has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An ordered "less than" that holds is the strict order of the extended reals. -/
theorem lt_of_cmp (a b : EReal) (h : Ideal.cmp .olt a b = 1#1) : a < b :=
  have h' : BitVec.ofBool (decide (a < b)) = 1#1 := h
  of_decide_eq_true ((StableHlo.Predicate.ofBool_eq_one_iff _).1 h')

/-- An ordered "at least" that holds is the order of the extended reals. -/
theorem ge_of_cmp (a b : EReal) (h : Ideal.cmp .oge a b = 1#1) : b ≤ a :=
  have h' : BitVec.ofBool (decide (b ≤ a)) = 1#1 := h
  of_decide_eq_true ((StableHlo.Predicate.ofBool_eq_one_iff _).1 h')

/-- |x| < +∞ says x is a real number: neither infinity has an absolute value below +∞. -/
theorem real_of_abs_lt (x : EReal) (h : max x (-x) < (⊤ : EReal)) : ∃ r : ℝ, x = (r : EReal) := by
  induction x using EReal.rec with
  | bot => simp at h
  | coe r => exact ⟨r, rfl⟩
  | top => simp at h

/-- The printed row norm √(0 + Σ_d x·x) read at row i is √(ss x i). -/
theorem rownorm [hP : Facts] (x : FVec Ideal S8192x128 .f32) (i : Fin 8192) :
    Host.sqrt (F := Ideal) (Host.reduceAdd (F := Ideal) (mulf x x) (constant (F := Ideal) S_ .f32 0x00000000#32)
      Facts.reducesTo_S8192x128_S8192_d1 Facts.h_S_) (ix1 i) = Ideal.sqrt (Cert.Spec.ss x i) := by
  show FloatOps.hostUnary .sqrt _ = _
  rw [Ideal.hostUnary_sqrt_def]
  congr 1
  generalize hy : mulf x x = y0
  simp only [Host.reduceAdd, Ideal.hostReduceAdd_def]
  rw [Ideal.hostReduceAdd_single Facts.reducesTo_S8192x128_S8192_d1 (by decide)]
  show Ideal.ofBits .f32 0x00000000#32 + _ = _
  rw [Ideal.ofBits_zero_f32, zero_add]
  unfold Cert.Spec.ss
  refine Finset.sum_congr rfl fun k _ => ?_
  subst hy
  show x _ * x _ = _
  exact congrArg (fun z => x z * x z) (funext fun a => Fin.ext (by match a with | ⟨0, _⟩ => rfl | ⟨1, _⟩ => rfl))

/-- One array: its two printed conjuncts put it in the domain. -/
theorem dom_of_parts [hP : Facts] (x : FVec Ideal S8192x128 .f32)
    (hfin : Host.reduce IntOp.andi
        (cmpf .olt (Host.absf x) (broadcastInDim S8192x128 ![] Facts.bcast_S_S8192x128 (constant (F := Ideal) S_ .f32 0x7F800000#32)))
        (constantI S_ 1 1#1) Facts.reducesTo_S8192x128_S_d0_1 Facts.h_S_ ix0 = 1#1)
    (hnrm : Host.reduce IntOp.andi
        (cmpf .oge (Host.sqrt (F := Ideal) (Host.reduceAdd (F := Ideal) (mulf x x) (constant (F := Ideal) S_ .f32 0x00000000#32)
            Facts.reducesTo_S8192x128_S8192_d1 Facts.h_S_))
          (broadcastInDim S8192 ![] Facts.bcast_S_S8192 (constant (F := Ideal) S_ .f32 0x2B8CBCCC#32)))
        (constantI S_ 1 1#1) Facts.reducesTo_S8192_S_d0 Facts.h_S_ ix0 = 1#1) :
    Cert.Spec.Dom x := by
  refine ⟨fun j => ?_, fun i => ?_⟩
  · have hj := Host.reduce_andi_all _ _ _ _ _ hfin j
    have hlt := lt_of_cmp _ _ hj
    rw [show broadcastInDim S8192x128 ![] Facts.bcast_S_S8192x128 (constant (F := Ideal) S_ .f32 0x7F800000#32) j
      = Ideal.ofBits .f32 0x7F800000#32 from rfl, ofBits_inf] at hlt
    exact real_of_abs_lt _ hlt
  · have hi := Host.reduce_andi_all _ _ _ _ _ hnrm (ix1 i)
    have hge := ge_of_cmp _ _ hi
    rw [rownorm x i] at hge
    exact hge

/-- The precondition, all ones at the extended reals, puts both arrays in the domain. -/
theorem dom_of_pre [hP : Cert.Pre_finite_inputs.Facts]
    (x0 x1 : FVec Ideal Cert.Pre_finite_inputs.S8192x128 .f32)
    (h : Cert.Pre_finite_inputs.fn (F := Ideal) x0 x1 = (fun _ => 1#1)) :
    Cert.Spec.Dom x0 ∧ Cert.Spec.Dom x1 := by
  have h0 := congrFun h ValueIdx.ix0
  unfold Cert.Pre_finite_inputs.fn Cert.Pre_finite_inputs.fn_part1 at h0
  dsimp only at h0
  obtain ⟨h123, h4⟩ := IntOp.andi_eq_one.1 h0
  obtain ⟨h12, h3⟩ := IntOp.andi_eq_one.1 h123
  obtain ⟨h1, h2⟩ := IntOp.andi_eq_one.1 h12
  exact ⟨dom_of_parts x0 h1 h3, dom_of_parts x1 h2 h4⟩

end Cert.PreDom

end
-- ==== Proof.lean ====
/-
  The certificate. Both programs compute, over the extended reals, the alignment-and-uniformity loss
  of two arrays of 8192 rows of 128 entries: the rows are divided by their guarded norms
  max(‖row‖, ε); the alignment term is the mean over rows of the squared distance between the two
  normalised arrays; the uniformity term is, for each normalised array, the logarithm of the mean
  over the pairs i < j of exp(−2 · max(2 − 2⟨xᵢ, xⱼ⟩, 0)). The reference sums the potential over the
  masked pairs i < j. The kernel sums it over ALL ordered pairs, tile by tile, and recovers the strict
  upper triangle as (P − N) / 2: that is the same number exactly when the diagonal contributes N and
  the potential is symmetric, i.e. when every normalised row is a unit vector — which holds on the
  stated domain (real entries, every row's norm at least ε; `Spec.Dom`, read off the precondition
  by `PreDom.dom_of_pre`; the law is `Spec.result_eq`).

  The kernel's program is three kernel regions and a few closing scalar operations. Its frame (it
  runs to the end, faults nowhere, leaves its arguments unchanged) is proved once for any float
  instance over the several-regions launch (`Hand.frame`), each region's body run at a symbolic grid
  point in its two control cases (the first point resets the accumulator cell, every later point adds
  to what the point before left); the two windows of a pairwise region read ONE array, which is held
  in halves. At the extended reals the same run names the result (`Hand.run_value`): the first region
  leaves the normalised arrays and the alignment sum, each pairwise region the full pair sum. The
  reference's run is read one operation at a time (`RefValue.val_result`). The idealization rewrote
  nothing, so `preserves` is trivial.
-/
import proofs.«107127_j34162169872914_1_alg».proof.Defs
import proofs.«107127_j34162169872914_1_alg».proof.Proof.Gen.Kernel
import proofs.«107127_j34162169872914_1_alg».proof.Proof.Gen.KernelIdeal
import proofs.«107127_j34162169872914_1_alg».proof.Proof.Gen.ReferenceIdeal
import proofs.«107127_j34162169872914_1_alg».proof.Proof.Gen.Pre_finite_inputs
import proofs.«107127_j34162169872914_1_alg».proof.Proof.BitsRun
import proofs.«107127_j34162169872914_1_alg».proof.Proof.KernelValue
import proofs.«107127_j34162169872914_1_alg».proof.Proof.RefValue
import proofs.«107127_j34162169872914_1_alg».proof.Proof.Algebra
import proofs.«107127_j34162169872914_1_alg».proof.Proof.PreDom
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m g _ => Cert.Kernel.Hand.frame (F := Bits) m g

theorem frame_pi : Cert.frame_KernelIdeal (hKernelIdeal := Cert.KernelIdeal.Gen.facts) (hPre_finite_inputs := Cert.Pre_finite_inputs.Gen.facts) :=
  fun m g _ => Cert.KernelIdeal.Hand.frame (F := Ideal) m g

/-- The reference's frame is its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- From memories agreeing on the arguments both programs end at one extended real: the kernel's run at
    `Spec.resultK`, the reference's at `Spec.resultR`, equal on the domain the precondition states. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨_, Cert.KernelIdeal.Hand.run_value m g, ?_⟩
  refine (θ_run Cert.ReferenceIdeal.defs _ _).mono (fun _ h c => ⟨(h c).1.trans ?_, (h c).2⟩)
    (Cert.ReferenceIdeal.Value.run (F := Ideal) m' g')
  obtain ⟨hq, hk⟩ := Cert.PreDom.dom_of_pre (hP := Cert.Pre_finite_inputs.Gen.facts) _ _ (hpre c)
  rw [Cert.ReferenceIdeal.Read.val_main_v58_eq, Cert.ReferenceIdeal.RefValue.val_result, (hagree c).1, (hagree c).2]
  funext _
  exact (Cert.Spec.result_eq _ _ hq hk).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
